-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v82)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v82) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v104) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S128x10 : Shape := ⟨2, ![128, 10]⟩
abbrev S10 : Shape := ⟨1, ![10]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x10 : S_.BroadcastsInDim S128x10 (![] : Fin 0 → Fin S128x10.rank)
  reducesTo_S128x10_S_d0_1 : S128x10.ReducesTo [0, 1] S_
  bcast_S_S10 : S_.BroadcastsInDim S10 (![] : Fin 0 → Fin S10.rank)
  reducesTo_S10_S_d0 : S10.ReducesTo [0] S_

variable [Facts]

def fn_part1 {F : FTy → Type} [FloatOps F] (main_arg6 : FVec F S128 .f32) (main_arg7 : FVec F S128x10 .f32) (main_arg8 : FVec F S10 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x10 .f32 := Host.absf main_arg7
  let main_cst_8 : FVec F S_ .f32 := constant S_ .f32 0x7F800000#32
  let main_v25 : FVec F S128x10 .f32 := broadcastInDim S128x10 ![] bcast_S_S128x10 main_cst_8
  let main_v26 : IVec S128x10 1 := cmpf .olt main_v24 main_v25
  let main_c_9 : IVec S_ 1 := constantI S_ 1 1#1
  let main_v27 : IVec S_ 1 := (fun x v => Host.reduce IntOp.andi x v reducesTo_S128x10_S_d0_1 h_S_) main_v26 main_c_9
  let main_v28 : IVec S_ 1 := andi main_v23 main_v27
  let main_v29 : FVec F S10 .f32 := Host.absf main_arg8
  let main_cst_10 : FVec F S_ .f32 := constant S_ .f32 0x7F800000#32
  let main_v30 : FVec F S10 .f32 := broadcastInDim S10 ![] bcast_S_S10 main_cst_10
  let main_v31 : IVec S10 1 := cmpf .olt main_v29 main_v30
  let main_c_11 : IVec S_ 1 := constantI S_ 1 1#1
  let main_v32 : IVec S_ 1 := (fun x v => Host.reduce IntOp.andi x v reducesTo_S10_S_d0 h_S_) main_v31 main_c_11
  let main_v33 : IVec S_ 1 := andi main_v28 main_v32
  main_v33

def fn {F : FTy → Type} [FloatOps F] (main_arg0 : FVec F S100000x128 .f32) (main_arg1 : IVec S2x1600000 32) (main_arg2 : IVec S100000 32) (main_arg3 : FVec F S128x128 .f32) (main_arg4 : FVec F S128 .f32) (main_arg5 : FVec F S128x128 .f32) (main_arg6 : FVec F S128 .f32) (main_arg7 : FVec F S128x10 .f32) (main_arg8 : FVec F S10 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_v13 main_v16
-- ==== Kernel.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S128x10 : Shape := ⟨2, ![128, 10]⟩
abbrev S10 : Shape := ⟨1, ![10]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100352x128 : Shape := ⟨2, ![100352, 128]⟩
abbrev S2048x128 : Shape := ⟨2, ![2048, 128]⟩
abbrev S1700000x128 : Shape := ⟨2, ![1700000, 128]⟩
abbrev S1x128 : Shape := ⟨2, ![1, 128]⟩
abbrev S64 : Shape := ⟨1, ![64]⟩
abbrev S100000x1 : Shape := ⟨2, ![100000, 1]⟩
abbrev S64x1 : Shape := ⟨2, ![64, 1]⟩
abbrev S100352 : Shape := ⟨1, ![100352]⟩
abbrev S100352x1 : Shape := ⟨2, ![100352, 1]⟩
abbrev S64x10 : Shape := ⟨2, ![64, 10]⟩
abbrev S2048x1 : Shape := ⟨2, ![2048, 1]⟩
abbrev S64x128 : Shape := ⟨2, ![64, 128]⟩
abbrev S1x64 : Shape := ⟨2, ![1, 64]⟩
abbrev S2048x64 : Shape := ⟨2, ![2048, 64]⟩
abbrev S1x10 : Shape := ⟨2, ![1, 10]⟩

abbrev nBuf : Space → Nat
  | .hbm => 124
  | .vmem => 19
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S100000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x10, .f32⟩
  | .hbm, ⟨8, _⟩ => ⟨S10, .f32⟩
  | .hbm, ⟨9, _⟩ => ⟨S100000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S1x1600000, .i32⟩
  | .hbm, ⟨14, _⟩ => ⟨S1600000, .i32⟩
  | .hbm, ⟨15, _⟩ => ⟨S1700000, .i32⟩
  | .hbm, ⟨16, _⟩ => ⟨S_, .f32⟩
  | .hbm, ⟨17, _⟩ => ⟨S1700000, .f32⟩
  | .hbm, ⟨18, _⟩ => ⟨S_, .f32⟩
  | .hbm, ⟨19, _⟩ => ⟨S100000, .f32⟩
  | .hbm, ⟨20, _⟩ => ⟨S1700000x1, .i32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .i1⟩
  | .hbm, ⟨25, _⟩ => ⟨S100000, .f32⟩
  | .hbm, ⟨26, _⟩ => ⟨S_, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S_, .i32⟩
  | .hbm, ⟨31, _⟩ => ⟨S1700000, .i32⟩
  | .hbm, ⟨32, _⟩ => ⟨S1700000, .i1⟩
  | .hbm, ⟨33, _⟩ => ⟨S_, .i32⟩
  | .hbm, ⟨34, _⟩ => ⟨S1700000, .i32⟩
  | .hbm, ⟨35, _⟩ => ⟨S1700000, .i32⟩
  | .hbm, ⟨36, _⟩ => ⟨S1700000, .i32⟩
  | .hbm, ⟨37, _⟩ => ⟨S1700000x1, .i32⟩
  | .hbm, ⟨38, _⟩ => ⟨S1700000, .f32⟩
  | .hbm, ⟨39, _⟩ => ⟨S_, .i32⟩
  | .hbm, ⟨40, _⟩ => ⟨S1700000, .i32⟩
  | .hbm, ⟨41, _⟩ => ⟨S1700000, .i1⟩
  | .hbm, ⟨42, _⟩ => ⟨S_, .i32⟩
  | .hbm, ⟨43, _⟩ => ⟨S1700000, .i32⟩
  | .hbm, ⟨44, _⟩ => ⟨S1700000, .i32⟩
  | .hbm, ⟨45, _⟩ => ⟨S1700000, .i32⟩
  | .hbm, ⟨46, _⟩ => ⟨S1700000x1, .i32⟩
  | .hbm, ⟨47, _⟩ => ⟨S1700000, .f32⟩
  | .hbm, ⟨48, _⟩ => ⟨S1700000, .f32⟩
  | .hbm, ⟨49, _⟩ => ⟨S_, .i32⟩
  | .hbm, ⟨50, _⟩ => ⟨S_, .f32⟩
  | .hbm, ⟨51, _⟩ => ⟨S100352x128, .f32⟩
  | .hbm, ⟨52, _⟩ => ⟨S100352x128, .f32⟩
  | .hbm, ⟨53, _⟩ => ⟨S100000x128, .f32⟩
  | .hbm, ⟨54, _⟩ => ⟨S_, .i32⟩
  | .hbm, ⟨55, _⟩ => ⟨S1700000, .i32⟩
  | .hbm, ⟨56, _⟩ => ⟨S1700000, .i1⟩
  | .hbm, ⟨57, _⟩ => ⟨S_, .i32⟩
  | .hbm, ⟨58, _⟩ => ⟨S1700000, .i32⟩
  | .hbm, ⟨59, _⟩ => ⟨S1700000, .i32⟩
  | .hbm, ⟨60, _⟩ => ⟨S1700000, .i32⟩
  | .hbm, ⟨61, _⟩ => ⟨S1700000x1, .i32⟩
  | .hbm, ⟨62, _⟩ => ⟨S1700000x128, .f32⟩
  | .hbm, ⟨63, _⟩ => ⟨S1700000x1, .f32⟩
  | .hbm, ⟨64, _⟩ => ⟨S1700000x128, .f32⟩
  | .hbm, ⟨65, _⟩ => ⟨S1700000x128, .f32⟩
  | .hbm, ⟨66, _⟩ => ⟨S_, .f32⟩
  | .hbm, ⟨67, _⟩ => ⟨S100000x128, .f32⟩
  | .hbm, ⟨68, _⟩ => ⟨S1700000x1, .i32⟩
  | .hbm, ⟨69, _⟩ => ⟨S100000x128, .f32⟩
  | .hbm, ⟨70, _⟩ => ⟨S1x128, .f32⟩
  | .hbm, ⟨71, _⟩ => ⟨S100000x128, .f32⟩
  | .hbm, ⟨72, _⟩ => ⟨S100000x128, .f32⟩
  | .hbm, ⟨73, _⟩ => ⟨S_, .f32⟩
  | .hbm, ⟨74, _⟩ => ⟨S100000x128, .f32⟩
  | .hbm, ⟨75, _⟩ => ⟨S100000x128, .f32⟩
  | .hbm, ⟨76, _⟩ => ⟨S_, .i32⟩
  | .hbm, ⟨77, _⟩ => ⟨S_, .f32⟩
  | .hbm, ⟨78, _⟩ => ⟨S100352x128, .f32⟩
  | .hbm, ⟨79, _⟩ => ⟨S100352x128, .f32⟩
  | .hbm, ⟨80, _⟩ => ⟨S100000x128, .f32⟩
  | .hbm, ⟨81, _⟩ => ⟨S_, .i32⟩
  | .hbm, ⟨82, _⟩ => ⟨S1700000, .i32⟩
  | .hbm, ⟨83, _⟩ => ⟨S1700000, .i1⟩
  | .hbm, ⟨84, _⟩ => ⟨S_, .i32⟩
  | .hbm, ⟨85, _⟩ => ⟨S1700000, .i32⟩
  | .hbm, ⟨86, _⟩ => ⟨S1700000, .i32⟩
  | .hbm, ⟨87, _⟩ => ⟨S1700000, .i32⟩
  | .hbm, ⟨88, _⟩ => ⟨S1700000x1, .i32⟩
  | .hbm, ⟨89, _⟩ => ⟨S1700000x128, .f32⟩
  | .hbm, ⟨90, _⟩ => ⟨S1700000x1, .f32⟩
  | .hbm, ⟨91, _⟩ => ⟨S1700000x128, .f32⟩
  | .hbm, ⟨92, _⟩ => ⟨S1700000x128, .f32⟩
  | .hbm, ⟨93, _⟩ => ⟨S_, .f32⟩
  | .hbm, ⟨94, _⟩ => ⟨S100000x128, .f32⟩
  | .hbm, ⟨95, _⟩ => ⟨S1700000x1, .i32⟩
  | .hbm, ⟨96, _⟩ => ⟨S100000x128, .f32⟩
  | .hbm, ⟨97, _⟩ => ⟨S1x128, .f32⟩
  | .hbm, ⟨98, _⟩ => ⟨S100000x128, .f32⟩
  | .hbm, ⟨99, _⟩ => ⟨S100000x128, .f32⟩
  | .hbm, ⟨100, _⟩ => ⟨S_, .f32⟩
  | .hbm, ⟨101, _⟩ => ⟨S100000x128, .f32⟩
  | .hbm, ⟨102, _⟩ => ⟨S100000x128, .f32⟩
  | .hbm, ⟨103, _⟩ => ⟨S_, .f32⟩
  | .hbm, ⟨104, _⟩ => ⟨S100000, .f32⟩
  | .hbm, ⟨105, _⟩ => ⟨S_, .f32⟩
  | .hbm, ⟨106, _⟩ => ⟨S64, .f32⟩
  | .hbm, ⟨107, _⟩ => ⟨S100000x1, .i32⟩
  | .hbm, ⟨108, _⟩ => ⟨S64, .f32⟩
  | .hbm, ⟨109, _⟩ => ⟨S_, .f32⟩
  | .hbm, ⟨110, _⟩ => ⟨S64, .f32⟩
  | .hbm, ⟨111, _⟩ => ⟨S64, .f32⟩
  | .hbm, ⟨112, _⟩ => ⟨S_, .f32⟩
  | .hbm, ⟨113, _⟩ => ⟨S64, .f32⟩
  | .hbm, ⟨114, _⟩ => ⟨S64, .f32⟩
  | .hbm, ⟨115, _⟩ => ⟨S64x1, .f32⟩
  | .hbm, ⟨116, _⟩ => ⟨S_, .i32⟩
  | .hbm, ⟨117, _⟩ => ⟨S_, .f32⟩
  | .hbm, ⟨118, _⟩ => ⟨S100352x128, .f32⟩
  | .hbm, ⟨119, _⟩ => ⟨S_, .i32⟩
  | .hbm, ⟨120, _⟩ => ⟨S_, .i32⟩
  | .hbm, ⟨121, _⟩ => ⟨S100352, .i32⟩
  | .hbm, ⟨122, _⟩ => ⟨S100352x1, .i32⟩
  | .hbm, ⟨123, _⟩ => ⟨S64x10, .f32⟩
  | .local _ .vmem, ⟨0, _⟩ => ⟨S2048x128, .f32⟩
  | .local _ .vmem, ⟨1, _⟩ => ⟨S2048x128, .f32⟩
  | .local _ .vmem, ⟨2, _⟩ => ⟨S128x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S2048x128, .f32⟩
  | .local _ .vmem, ⟨7, _⟩ => ⟨S128x128, .f32⟩
  | .local _ .vmem, ⟨8, _⟩ => ⟨S2048x128, .f32⟩
  | .local _ .vmem, ⟨9, _⟩ => ⟨S2048x128, .f32⟩
  | .local _ .vmem, ⟨10, _⟩ => ⟨S2048x128, .f32⟩
  | .local _ .vmem, ⟨11, _⟩ => ⟨S2048x128, .f32⟩
  | .local _ .vmem, ⟨12, _⟩ => ⟨S2048x1, .i32⟩
  | .local _ .vmem, ⟨13, _⟩ => ⟨S2048x1, .i32⟩
  | .local _ .vmem, ⟨14, _⟩ => ⟨S64x1, .f32⟩
  | .local _ .vmem, ⟨15, _⟩ => ⟨S128x10, .f32⟩
  | .local _ .vmem, ⟨16, _⟩ => ⟨S10, .f32⟩
  | .local _ .vmem, ⟨17, _⟩ => ⟨S64x10, .f32⟩
  | .local _ .vmem, ⟨18, _⟩ => ⟨S64x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v14 : Ref sig .tc := ⟨.hbm, 29, rfl⟩
abbrev main_c : Ref sig .tc := ⟨.hbm, 30, rfl⟩
abbrev main_v15 : Ref sig .tc := ⟨.hbm, 31, rfl⟩
abbrev main_v16 : Ref sig .tc := ⟨.hbm, 32, rfl⟩
abbrev main_c_3 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_c_4 : Ref sig .tc := ⟨.hbm, 39, rfl⟩
abbrev main_v22 : Ref sig .tc := ⟨.hbm, 40, rfl⟩
abbrev main_v23 : Ref sig .tc := ⟨.hbm, 41, rfl⟩
abbrev main_c_5 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_c_6 : Ref sig .tc := ⟨.hbm, 49, rfl⟩
abbrev main_call1_v0 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_c_7 : Ref sig .tc := ⟨.hbm, 54, rfl⟩
abbrev main_v33 : Ref sig .tc := ⟨.hbm, 55, rfl⟩
abbrev main_v34 : Ref sig .tc := ⟨.hbm, 56, rfl⟩
abbrev main_c_8 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_cst_9 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_call2_cst : Ref sig .tc := ⟨.hbm, 73, rfl⟩
abbrev main_call2_v0 : Ref sig .tc := ⟨.hbm, 74, rfl⟩
abbrev main_v49 : Ref sig .tc := ⟨.hbm, 75, rfl⟩
abbrev main_c_10 : Ref sig .tc := ⟨.hbm, 76, rfl⟩
abbrev main_call3_v0 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_c_11 : Ref sig .tc := ⟨.hbm, 81, rfl⟩
abbrev main_v53 : Ref sig .tc := ⟨.hbm, 82, rfl⟩
abbrev main_v54 : Ref sig .tc := ⟨.hbm, 83, rfl⟩
abbrev main_c_12 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_cst_13 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_call4_cst : Ref sig .tc := ⟨.hbm, 100, rfl⟩
abbrev main_call4_v0 : Ref sig .tc := ⟨.hbm, 101, rfl⟩
abbrev main_v69 : Ref sig .tc := ⟨.hbm, 102, rfl⟩
abbrev main_cst_14 : Ref sig .tc := ⟨.hbm, 103, rfl⟩
abbrev main_v70 : Ref sig .tc := ⟨.hbm, 104, rfl⟩
abbrev main_cst_15 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_cst_16 : Ref sig .tc := ⟨.hbm, 109, rfl⟩
abbrev main_v74 : Ref sig .tc := ⟨.hbm, 110, rfl⟩
abbrev main_v75 : Ref sig .tc := ⟨.hbm, 111, rfl⟩
abbrev main_cst_17 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_c_18 : Ref sig .tc := ⟨.hbm, 116, rfl⟩
abbrev main_call5_v0 : Ref sig .tc := ⟨.hbm, 117, rfl⟩
abbrev main_v79 : Ref sig .tc := ⟨.hbm, 118, rfl⟩
abbrev main_c_19 : Ref sig .tc := ⟨.hbm, 119, rfl⟩
abbrev main_call6_v0 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg4_0 : Ref sig .tc := ⟨.vmem, 16, rfl⟩
abbrev cc2_stg5_0 : Ref sig .tc := ⟨.vmem, 17, rfl⟩
abbrev cc2_scratch0 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14
abbrev cc2_sem3_0 : DmaSem sig := 15
abbrev cc2_sem4_0 : DmaSem sig := 16
abbrev cc2_sem5_0 : DmaSem sig := 17

abbrev nD : Nat := 1
abbrev τ : Topo := Topo.v7x

variable {F : FTy → Type} [FloatOps F]

abbrev grid0 : Pipeline.Grid := ⟨1, ![49], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![49], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2048x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2048x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![49], ![false]⟩

def k2_cond2 (i : grid2.Coords) : BitVec 1 :=
  let arg0 : BitVec 32 := BitVec.ofNat 32 (i 0).val
  let c48_i32 : BitVec 32 := 48#32
  let v21 : BitVec 1 := Scalar.cmpi .eq arg0 c48_i32
  let v22 : BitVec 32 := Scalar.extui v21
  let c0_i32_8 : BitVec 32 := 0#32
  let v23 : BitVec 1 := Scalar.cmpi .ne v22 c0_i32_8
  v23

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S2048x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2048x1 .i32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x10 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S10 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S64x10 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  pads_S100000x128_S100352x128_03520_000 : S100000x128.Pads (![0, 0] : Fin 2 → Nat) ![352, 0] ![0, 0] S100352x128
  h_S_ : 0 < S_.numel
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  slices_S100352x128_S100000x128_0_0 : S100352x128.Slices ![0, 0] S100000x128
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S64 : S_.BroadcastsInDim S64 (![] : Fin 0 → Fin S64.rank)
  bcast_S100000_S100000x1_0 : S100000.BroadcastsInDim S100000x1 (![0] : Fin 1 → Fin S100000x1.rank)
  shapeCasts_S64_S64x1 : S64.ShapeCasts S64x1
  pads_S100000_S100352_03520 : S100000.Pads (![0] : Fin 1 → Nat) ![352] ![0] S100352
  shapeCasts_S100352_S100352x1 : S100352.ShapeCasts S100352x1
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  iota_S1x64_d1_w32 : S1x64.Iotas .tc 32 [1]
  broadcasts_S2048x1_S2048x64 : S2048x1.Broadcasts S2048x64
  broadcasts_S1x64_S2048x64 : S1x64.Broadcasts S2048x64
  natLt_1_32 : 1 < 32
  inb_S64x1_S64x1_0_0 : ∀ a, (![0, 0] : Fin 2 → Nat) a + S64x1.size a ≤ S64x1.size a
  h_S64x1 : 0 < S64x1.numel
  shapeCasts_S64x1_S64x1 : S64x1.ShapeCasts S64x1
  broadcasts_S64x1_S64x128 : S64x1.Broadcasts S64x128
  inb_S128x10_S128x10_0_0 : ∀ a, (![0, 0] : Fin 2 → Nat) a + S128x10.size a ≤ S128x10.size a
  h_S128x10 : 0 < S128x10.numel
  inb_S10_S10_0 : ∀ a, (![0] : Fin 1 → Nat) a + S10.size a ≤ S10.size a
  h_S10 : 0 < S10.numel
  shapeCasts_S10_S1x10 : S10.ShapeCasts S1x10
  broadcasts_S1x10_S64x10 : S1x10.Broadcasts S64x10
  inb_S64x10_S64x10_0_0 : ∀ a, (![0, 0] : Fin 2 → Nat) a + S64x10.size a ≤ S64x10.size a
  h_S64x10 : 0 < S64x10.numel
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S2048x128_S128x128_S2048x128_1_0_0_1_n_n_wf : DotDims.WF S2048x128 S128x128 S2048x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  scatter_S64_S100000x1_S100000_n_0_0_1_wf : ScatterDims.WF S64 S100000x1 S100000 [] [0] [0] 1
  dot_S2048x64_S2048x128_S64x128_0_0_1_1_n_n_wf : DotDims.WF S2048x64 S2048x128 S64x128 [0] [0] [1] [1] [] []
  dot_S64x128_S128x10_S64x10_1_0_0_1_n_n_wf : DotDims.WF S64x128 S128x10 S64x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x128.size a ≤ S100352x128.size a
  hwx0_0 : ∀ i : grid0.Coords, EltTy.bits .f32 = 32 ∨ (Rect.block (s := S100352x128) S2048x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x128.size a ≤ S100352x128.size a
  hwx0_2 : ∀ i : grid0.Coords, EltTy.bits .f32 = 32 ∨ (Rect.block (s := S100352x128) S2048x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x128.size a ≤ S100352x128.size a
  hwx1_0 : ∀ i : grid1.Coords, EltTy.bits .f32 = 32 ∨ (Rect.block (s := S100352x128) S2048x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048x128.size a ≤ S100352x128.size a
  hwx1_2 : ∀ i : grid1.Coords, EltTy.bits .f32 = 32 ∨ (Rect.block (s := S100352x128) S2048x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x128.size a ≤ S100352x128.size a
  hwx2_0 : ∀ i : grid2.Coords, EltTy.bits .f32 = 32 ∨ (Rect.block (s := S100352x128) S2048x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2048x1.size a ≤ S100352x1.size a
  hwx2_1 : ∀ i : grid2.Coords, EltTy.bits .i32 = 32 ∨ (Rect.block (s := S100352x1) S2048x1.size (cc2_transform_1 i) (hinb2_1 i)).WholeWords (EltTy.packing .i32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x1.size a ≤ S64x1.size a
  hwx2_2 : ∀ i : grid2.Coords, EltTy.bits .f32 = 32 ∨ (Rect.block (s := S64x1) S64x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x10.size a ≤ S128x10.size a
  hwx2_3 : ∀ i : grid2.Coords, EltTy.bits .f32 = 32 ∨ (Rect.block (s := S128x10) S128x10.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S10.size a ≤ S10.size a
  hwx2_4 : ∀ i : grid2.Coords, EltTy.bits .f32 = 32 ∨ (Rect.block (s := S10) S10.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S64x10.size a ≤ S64x10.size a
  hwx2_5 : ∀ i : grid2.Coords, EltTy.bits .f32 = 32 ∨ (Rect.block (s := S64x10) S64x10.size (cc2_transform_5 i) (hinb2_5 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S2048x128_S128x128_S2048x128_1_0_0_1_n_n : DotDims S2048x128 S128x128 S2048x128 where
  lhsContracting := [1]
  rhsContracting := [0]
  lhsNonContracting := [0]
  rhsNonContracting := [1]
  lhsBatch := []
  rhsBatch := []
  wf := dot_S2048x128_S128x128_S2048x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf
def dot_S2048x64_S2048x128_S64x128_0_0_1_1_n_n : DotDims S2048x64 S2048x128 S64x128 where
  lhsContracting := [0]
  rhsContracting := [0]
  lhsNonContracting := [1]
  rhsNonContracting := [1]
  lhsBatch := []
  rhsBatch := []
  wf := dot_S2048x64_S2048x128_S64x128_0_0_1_1_n_n_wf
def dot_S64x128_S128x10_S64x10_1_0_0_1_n_n : DotDims S64x128 S128x10 S64x10 where
  lhsContracting := [1]
  rhsContracting := [0]
  lhsNonContracting := [0]
  rhsNonContracting := [1]
  lhsBatch := []
  rhsBatch := []
  wf := dot_S64x128_S128x10_S64x10_1_0_0_1_n_n_wf

abbrev win0_0 : Pipeline.Window sig grid0 :=
  Pipeline.Window.ofSpec (Memref.whole main_v30) S2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S2048x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v50) S2048x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v51) S2048x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v79) S2048x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v81) S2048x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v78) S64x1.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg7) S128x10.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg8) S10.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v82) S64x10.size cc2_transform_5 reads2_5 true true 1 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev idle2 : Fin 6 → grid2.Coords → Bool := fun | 0 => fun _ => false | 1 => fun _ => false | 2 => fun _ => false | 3 => fun _ => false | 4 => fun _ => false | 5 => fun i => !(k2_cond2 i == 1#1) | ⟨_ + 6, h⟩ => absurd h (Nat.not_lt.2 (Nat.le_add_left _ _))

class Facts : Prop extends Facts₀ where

variable [Facts]
-- ==== ReferenceIdeal.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S128x10 : Shape := ⟨2, ![128, 10]⟩
abbrev S10 : Shape := ⟨1, ![10]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S64x128 : Shape := ⟨2, ![64, 128]⟩
abbrev S100000x1 : Shape := ⟨2, ![100000, 1]⟩
abbrev S64 : Shape := ⟨1, ![64]⟩
abbrev S64x1 : Shape := ⟨2, ![64, 1]⟩
abbrev S64x10 : Shape := ⟨2, ![64, 10]⟩
abbrev S1x10 : Shape := ⟨2, ![1, 10]⟩

abbrev nBuf : Space → Nat
  | .hbm => 148
  | .vmem => 0
  | .smem => 0
  | _ => 0

abbrev hbmTy0_0 (i : Nat) : BufTy := match i % 128 with
  | 0 => ⟨S100000x128, .f32⟩
  | 1 => ⟨S2x1600000, .i32⟩
  | 2 => ⟨S100000, .i32⟩
  | 3 => ⟨S128x128, .f32⟩
  | 4 => ⟨S128, .f32⟩
  | 5 => ⟨S128x128, .f32⟩
  | 6 => ⟨S128, .f32⟩
  | 7 => ⟨S128x10, .f32⟩
  | 8 => ⟨S10, .f32⟩
  | 9 => ⟨S100000, .i32⟩
  | 10 => ⟨S1x1600000, .i32⟩
  | 11 => ⟨S1600000, .i32⟩
  | 12 => ⟨S1700000, .i32⟩
  | 13 => ⟨S1x1600000, .i32⟩
  | 14 => ⟨S1600000, .i32⟩
  | 15 => ⟨S1700000, .i32⟩
  | 16 => ⟨S100000x128, .f32⟩
  | 17 => ⟨S_, .f32⟩
  | 18 => ⟨S1700000, .f32⟩
  | 19 => ⟨S_, .f32⟩
  | 20 => ⟨S100000, .f32⟩
  | 21 => ⟨S1700000x1, .i32⟩
  | 22 => ⟨S100000, .f32⟩
  | 23 => ⟨S_, .f32⟩
  | 24 => ⟨S100000, .f32⟩
  | 25 => ⟨S100000, .i1⟩
  | 26 => ⟨S100000, .f32⟩
  | 27 => ⟨S_, .f32⟩
  | 28 => ⟨S_, .f32⟩
  | 29 => ⟨S100000, .f32⟩
  | 30 => ⟨S100000, .f32⟩
  | 31 => ⟨S_, .i32⟩
  | 32 => ⟨S1700000, .i32⟩
  | 33 => ⟨S1700000, .i1⟩
  | 34 => ⟨S_, .i32⟩
  | 35 => ⟨S1700000, .i32⟩
  | 36 => ⟨S1700000, .i32⟩
  | 37 => ⟨S1700000, .i32⟩
  | 38 => ⟨S1700000x1, .i32⟩
  | 39 => ⟨S1700000, .f32⟩
  | 40 => ⟨S_, .i32⟩
  | 41 => ⟨S1700000, .i32⟩
  | 42 => ⟨S1700000, .i1⟩
  | 43 => ⟨S_, .i32⟩
  | 44 => ⟨S1700000, .i32⟩
  | 45 => ⟨S1700000, .i32⟩
  | 46 => ⟨S1700000, .i32⟩
  | 47 => ⟨S1700000x1, .i32⟩
  | 48 => ⟨S1700000, .f32⟩
  | 49 => ⟨S1700000, .f32⟩
  | 50 => ⟨S_, .i32⟩
  | 51 => ⟨S1700000, .i32⟩
  | 52 => ⟨S1700000, .i1⟩
  | 53 => ⟨S_, .i32⟩
  | 54 => ⟨S1700000, .i32⟩
  | 55 => ⟨S1700000, .i32⟩
  | 56 => ⟨S1700000, .i32⟩
  | 57 => ⟨S1700000x1, .i32⟩
  | 58 => ⟨S1700000x128, .f32⟩
  | 59 => ⟨S1700000x1, .f32⟩
  | 60 => ⟨S1700000x128, .f32⟩
  | 61 => ⟨S1700000x128, .f32⟩
  | 62 => ⟨S_, .f32⟩
  | 63 => ⟨S100000x128, .f32⟩
  | 64 => ⟨S1700000x1, .i32⟩
  | 65 => ⟨S100000x128, .f32⟩
  | 66 => ⟨S1x128, .f32⟩
  | 67 => ⟨S100000x128, .f32⟩
  | 68 => ⟨S100000x128, .f32⟩
  | 69 => ⟨S_, .f32⟩
  | 70 => ⟨S100000x128, .f32⟩
  | 71 => ⟨S100000x128, .f32⟩
  | 72 => ⟨S100000x128, .f32⟩
  | 73 => ⟨S_, .f32⟩
  | 74 => ⟨S1700000, .f32⟩
  | 75 => ⟨S_, .f32⟩
  | 76 => ⟨S100000, .f32⟩
  | 77 => ⟨S1700000x1, .i32⟩
  | 78 => ⟨S100000, .f32⟩
  | 79 => ⟨S_, .f32⟩
  | 80 => ⟨S100000, .f32⟩
  | 81 => ⟨S100000, .i1⟩
  | 82 => ⟨S100000, .f32⟩
  | 83 => ⟨S_, .f32⟩
  | 84 => ⟨S_, .f32⟩
  | 85 => ⟨S100000, .f32⟩
  | 86 => ⟨S100000, .f32⟩
  | 87 => ⟨S_, .i32⟩
  | 88 => ⟨S1700000, .i32⟩
  | 89 => ⟨S1700000, .i1⟩
  | 90 => ⟨S_, .i32⟩
  | 91 => ⟨S1700000, .i32⟩
  | 92 => ⟨S1700000, .i32⟩
  | 93 => ⟨S1700000, .i32⟩
  | 94 => ⟨S1700000x1, .i32⟩
  | 95 => ⟨S1700000, .f32⟩
  | 96 => ⟨S_, .i32⟩
  | 97 => ⟨S1700000, .i32⟩
  | 98 => ⟨S1700000, .i1⟩
  | 99 => ⟨S_, .i32⟩
  | 100 => ⟨S1700000, .i32⟩
  | 101 => ⟨S1700000, .i32⟩
  | 102 => ⟨S1700000, .i32⟩
  | 103 => ⟨S1700000x1, .i32⟩
  | 104 => ⟨S1700000, .f32⟩
  | 105 => ⟨S1700000, .f32⟩
  | 106 => ⟨S_, .i32⟩
  | 107 => ⟨S1700000, .i32⟩
  | 108 => ⟨S1700000, .i1⟩
  | 109 => ⟨S_, .i32⟩
  | 110 => ⟨S1700000, .i32⟩
  | 111 => ⟨S1700000, .i32⟩
  | 112 => ⟨S1700000, .i32⟩
  | 113 => ⟨S1700000x1, .i32⟩
  | 114 => ⟨S1700000x128, .f32⟩
  | 115 => ⟨S1700000x1, .f32⟩
  | 116 => ⟨S1700000x128, .f32⟩
  | 117 => ⟨S1700000x128, .f32⟩
  | 118 => ⟨S_, .f32⟩
  | 119 => ⟨S100000x128, .f32⟩
  | 120 => ⟨S1700000x1, .i32⟩
  | 121 => ⟨S100000x128, .f32⟩
  | 122 => ⟨S1x128, .f32⟩
  | 123 => ⟨S100000x128, .f32⟩
  | 124 => ⟨S100000x128, .f32⟩
  | 125 => ⟨S_, .f32⟩
  | 126 => ⟨S100000x128, .f32⟩
  | 127 => ⟨S100000x128, .f32⟩
  | _ => ⟨S100000x128, .f32⟩

abbrev hbmTy0_1 (i : Nat) : BufTy := match i % 128 with
  | 0 => ⟨S_, .f32⟩
  | 1 => ⟨S64x128, .f32⟩
  | 2 => ⟨S100000x1, .i32⟩
  | 3 => ⟨S64x128, .f32⟩
  | 4 => ⟨S_, .f32⟩
  | 5 => ⟨S100000, .f32⟩
  | 6 => ⟨S_, .f32⟩
  | 7 => ⟨S64, .f32⟩
  | 8 => ⟨S100000x1, .i32⟩
  | 9 => ⟨S64, .f32⟩
  | 10 => ⟨S_, .f32⟩
  | 11 => ⟨S64, .f32⟩
  | 12 => ⟨S64, .f32⟩
  | 13 => ⟨S64x1, .f32⟩
  | 14 => ⟨S64x128, .f32⟩
  | 15 => ⟨S64x128, .f32⟩
  | 16 => ⟨S64x10, .f32⟩
  | 17 => ⟨S1x10, .f32⟩
  | 18 => ⟨S64x10, .f32⟩
  | 19 => ⟨S64x10, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v15 : Ref sig .tc := ⟨.hbm, 30, rfl⟩
abbrev main_c : Ref sig .tc := ⟨.hbm, 31, rfl⟩
abbrev main_v16 : Ref sig .tc := ⟨.hbm, 32, rfl⟩
abbrev main_v17 : Ref sig .tc := ⟨.hbm, 33, rfl⟩
abbrev main_c_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_c_4 : Ref sig .tc := ⟨.hbm, 40, rfl⟩
abbrev main_v23 : Ref sig .tc := ⟨.hbm, 41, rfl⟩
abbrev main_v24 : Ref sig .tc := ⟨.hbm, 42, rfl⟩
abbrev main_c_5 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_c_6 : Ref sig .tc := ⟨.hbm, 50, rfl⟩
abbrev main_v31 : Ref sig .tc := ⟨.hbm, 51, rfl⟩
abbrev main_v32 : Ref sig .tc := ⟨.hbm, 52, rfl⟩
abbrev main_c_7 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_8 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_call1_cst : Ref sig .tc := ⟨.hbm, 69, rfl⟩
abbrev main_call1_v0 : Ref sig .tc := ⟨.hbm, 70, rfl⟩
abbrev main_v47 : Ref sig .tc := ⟨.hbm, 71, rfl⟩
abbrev main_v48 : Ref sig .tc := ⟨.hbm, 72, rfl⟩
abbrev main_cst_9 : Ref sig .tc := ⟨.hbm, 73, rfl⟩
abbrev main_v49 : Ref sig .tc := ⟨.hbm, 74, rfl⟩
abbrev main_cst_10 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_cst_11 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_cst_12 : Ref sig .tc := ⟨.hbm, 83, rfl⟩
abbrev main_call2_v0 : Ref sig .tc := ⟨.hbm, 84, rfl⟩
abbrev main_call2_v1 : Ref sig .tc := ⟨.hbm, 85, rfl⟩
abbrev main_v56 : Ref sig .tc := ⟨.hbm, 86, rfl⟩
abbrev main_c_13 : Ref sig .tc := ⟨.hbm, 87, rfl⟩
abbrev main_v57 : Ref sig .tc := ⟨.hbm, 88, rfl⟩
abbrev main_v58 : Ref sig .tc := ⟨.hbm, 89, rfl⟩
abbrev main_c_14 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_c_15 : Ref sig .tc := ⟨.hbm, 96, rfl⟩
abbrev main_v64 : Ref sig .tc := ⟨.hbm, 97, rfl⟩
abbrev main_v65 : Ref sig .tc := ⟨.hbm, 98, rfl⟩
abbrev main_c_16 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_c_17 : Ref sig .tc := ⟨.hbm, 106, rfl⟩
abbrev main_v72 : Ref sig .tc := ⟨.hbm, 107, rfl⟩
abbrev main_v73 : Ref sig .tc := ⟨.hbm, 108, rfl⟩
abbrev main_c_18 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_cst_19 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_call3_cst : Ref sig .tc := ⟨.hbm, 125, rfl⟩
abbrev main_call3_v0 : Ref sig .tc := ⟨.hbm, 126, rfl⟩
abbrev main_v88 : Ref sig .tc := ⟨.hbm, 127, rfl⟩
abbrev main_cst_20 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_cst_21 : Ref sig .tc := ⟨.hbm, 132, rfl⟩
abbrev main_v92 : Ref sig .tc := ⟨.hbm, 133, rfl⟩
abbrev main_cst_22 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_cst_23 : Ref sig .tc := ⟨.hbm, 138, rfl⟩
abbrev main_v96 : Ref sig .tc := ⟨.hbm, 139, rfl⟩
abbrev main_v97 : Ref sig .tc := ⟨.hbm, 140, rfl⟩
abbrev main_v98 : Ref sig .tc := ⟨.hbm, 141, rfl⟩
abbrev main_v99 : Ref sig .tc := ⟨.hbm, 142, rfl⟩
abbrev main_v100 : Ref sig .tc := ⟨.hbm, 143, rfl⟩
abbrev main_v101 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S64x128 : S_.BroadcastsInDim S64x128 (![] : Fin 0 → Fin S64x128.rank)
  bcast_S100000_S100000x1_0 : S100000.BroadcastsInDim S100000x1 (![0] : Fin 1 → Fin S100000x1.rank)
  bcast_S_S64 : S_.BroadcastsInDim S64 (![] : Fin 0 → Fin S64.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  bcast_S10_S1x10_1 : S10.BroadcastsInDim S1x10 (![1] : Fin 1 → Fin S1x10.rank)
  bcast_S1x10_S64x10_0_1 : S1x10.BroadcastsInDim S64x10 (![0, 1] : Fin 2 → Fin S64x10.rank)
  dot_S100000x128_S128x128_S100000x128_1_0_0_1_n_n_wf : DotDims.WF S100000x128 S128x128 S100000x128 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  scatter_S64x128_S100000x1_S100000x128_1_0_0_1_wf : ScatterDims.WF S64x128 S100000x1 S100000x128 [1] [0] [0] 1
  scatter_S64_S100000x1_S100000_n_0_0_1_wf : ScatterDims.WF S64 S100000x1 S100000 [] [0] [0] 1
  dot_S64x128_S128x10_S64x10_1_0_0_1_n_n_wf : DotDims.WF S64x128 S128x10 S64x10 [1] [0] [0] [1] [] []

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def scatter_S64x128_S100000x1_S100000x128_1_0_0_1 : ScatterDims S64x128 S100000x1 S100000x128 where
  updateWindowDims := [1]
  insertedWindowDims := [0]
  scatterDimsToOperandDims := [0]
  indexVectorDim := 1
  wf := scatter_S64x128_S100000x1_S100000x128_1_0_0_1_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf
def dot_S64x128_S128x10_S64x10_1_0_0_1_n_n : DotDims S64x128 S128x10 S64x10 where
  lhsContracting := [1]
  rhsContracting := [0]
  lhsNonContracting := [0]
  rhsNonContracting := [1]
  lhsBatch := []
  rhsBatch := []
  wf := dot_S64x128_S128x10_S64x10_1_0_0_1_n_n_wf

class Facts : Prop extends Facts₀ where

variable [Facts]
-- ==== Proof.K_RunCond.lean ====
/-
  @main's run with the result buffer named. The program is three kernel regions among stretches of host operations;
  between two items every unscoped buffer of the TensorCore is held whole at a valuation: the launch contents, then each
  host stretch's operations applied, then what a region leaves in its output array. The conditional frame reads the
  argument buffers off the last valuation; the value claim also needs the RESULT's buffer, read off the same valuation.
-/
import proofs.«428559_j43585328120189_1_alg».proof.Proof.Gen.Kernel.Regions
import Idealize.ShloMosaic.Lib.Pipeline.Frame
import Idealize.ShloMosaic.Lib.Pipeline.Regions

-- decided memberships and the launch's enumerations over 143 references recurse past the default depth
set_option maxRecDepth 1084

noncomputable section

namespace Cert.Kernel.Hand

open Cert.Kernel Cert.Kernel.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

variable (m : (ℓ : Loc nD τ sig) → Buf (Elt F) ℓ)

-- `θ_run_regions_kit_dev`'s implicit arguments are found by unifying its conclusion with this one, which takes unfolding
-- plain definitions in a metavariable's type
set_option backward.isDefEq.respectTransparency.types false in
/-- The run of @main with its RESULT named: under the same hypotheses as the conditional frame — per region a segment
    record entered from the buffers' contents before it and left at the contents after it — every weakly fair execution
    of @main terminates, the result buffer `main_v82` ends at what the last valuation holds there (what region 2 leaves in
    it) and every argument buffer as launched. The launch over the segment list is the conditional frame's; only the
    reading of the last thread state differs: the result's buffer is read beside the arguments'. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 3) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 4 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE3 : ∀ c : Dev nD, E 3 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V4 m c) ∗ E 0 c) ⊢ R0.pre c)
    (hpost0 : ∀ c : Dev nD, R0.post c ⊢ iprop(StableHlo.held (c : Thread nD τ) (Pipeline.ucRefs τ sig) (V5 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V9 m outs c) ∗ E 1 c) ⊢ R1.pre c)
    (hpost1 : ∀ c : Dev nD, R1.post c ⊢ iprop(StableHlo.held (c : Thread nD τ) (Pipeline.ucRefs τ sig) (V10 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V17 m outs c) ∗ E 2 c) ⊢ R2.pre c)
    (hpost2 : ∀ c : Dev nD, R2.post c ⊢ iprop(StableHlo.held (c : Thread nD τ) (Pipeline.ucRefs τ sig) (V18 m outs c) ∗ E 3 c)) :
    θ_run defs (onTc (τ := τ) (main (F := F))) ⟨m, fun _ => 0, ρ⟩ (fun r => ∀ c : Dev nD,
      r.2.mem ((c.tc : Thread nD τ).loc main_v82) = V18 m outs c main_v82
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) := by
  refine Pipeline.θ_run_regions_kit_dev (pcfgs (F := F)) adm pdats ι cellOf_inj EP defs₀ 𝒱₀ L lv m ρ main
    (segs m outs 𝒱₀ L lv E ι pdats R0 R1 R2)
    (fun c Q => by
      rewrite [main_chain c, Seg.run_eq_chain,
        show (segs m outs 𝒱₀ L lv E ι pdats R0 R1 R2 c).map Seg.prog = [
          StableHlo.seq hostOps0,
          StableHlo.seq hostOps0_1,
          StableHlo.seq hostOps0_2,
          StableHlo.seq hostOps0_3,
          Prog.lift (.customCall (Pipeline.entry 0) ()),
          StableHlo.seq hostOps1,
          StableHlo.seq hostOps1_1,
          StableHlo.seq hostOps1_2,
          StableHlo.seq hostOps1_3,
          Prog.lift (.customCall (Pipeline.entry 1) ()),
          StableHlo.seq hostOps2,
          StableHlo.seq hostOps2_1,
          StableHlo.seq hostOps2_2,
          StableHlo.seq hostOps2_3,
          StableHlo.seq hostOps2_4,
          StableHlo.seq hostOps2_5,
          StableHlo.seq hostOps2_6,
          Prog.lift (.customCall (Pipeline.entry 2) ()) ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V18 m outs c))
    (hch := fun c => ⟨.rfl, .rfl, .rfl, .rfl, hpre0 c, hpost0 c, .rfl, .rfl, .rfl, hpre1 c, hpost1 c, .rfl, .rfl, .rfl, .rfl, .rfl, .rfl, hpre2 c, (hpost2 c).trans (sep_mono .rfl (hE3 c))⟩)
    (hinit := ?_) (QY := fun c s => s.mem ((c.tc : Thread nD τ).loc main_v82) = V18 m outs c main_v82 ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6) ∧ s.mem ((c.tc : Thread nD τ).loc main_arg7) = m ((c.tc : Thread nD τ).loc main_arg7) ∧ s.mem ((c.tc : Thread nD τ).loc main_arg8) = m ((c.tc : Thread nD τ).loc main_arg8))
    (hfin := fun c s' => ?_) (hQ := fun _ h => h)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: each argument's buffer read off the last valuation
    unfold StableHlo.held
    iintro ⟨Hh, HSI⟩
    ihave Hr := (pointsTo_read_all (Pipeline.ucRefs τ sig) (fun b => ((c : Thread nD τ).1, b)) (V18 m outs c) s') $$ [Hh HSI]
    · isplitl [Hh] <;> iassumption
    icases Hr with ⟨%h, HSI⟩
    imodintro
    isplitr
    · ipureintro
      exact ⟨h (Proc.devRef .tc main_v82) (Finset.mem_filter.mpr ⟨StableHlo.devRef_mem_tcRefs main_v82, by decide⟩),
        (h (Proc.devRef .tc main_arg0) (Finset.mem_filter.mpr ⟨StableHlo.devRef_mem_tcRefs main_arg0, by decide⟩)).trans (V18_main_arg0 m outs c),
        (h (Proc.devRef .tc main_arg1) (Finset.mem_filter.mpr ⟨StableHlo.devRef_mem_tcRefs main_arg1, by decide⟩)).trans (V18_main_arg1 m outs c),
        (h (Proc.devRef .tc main_arg2) (Finset.mem_filter.mpr ⟨StableHlo.devRef_mem_tcRefs main_arg2, by decide⟩)).trans (V18_main_arg2 m outs c),
        (h (Proc.devRef .tc main_arg3) (Finset.mem_filter.mpr ⟨StableHlo.devRef_mem_tcRefs main_arg3, by decide⟩)).trans (V18_main_arg3 m outs c),
        (h (Proc.devRef .tc main_arg4) (Finset.mem_filter.mpr ⟨StableHlo.devRef_mem_tcRefs main_arg4, by decide⟩)).trans (V18_main_arg4 m outs c),
        (h (Proc.devRef .tc main_arg5) (Finset.mem_filter.mpr ⟨StableHlo.devRef_mem_tcRefs main_arg5, by decide⟩)).trans (V18_main_arg5 m outs c),
        (h (Proc.devRef .tc main_arg6) (Finset.mem_filter.mpr ⟨StableHlo.devRef_mem_tcRefs main_arg6, by decide⟩)).trans (V18_main_arg6 m outs c),
        (h (Proc.devRef .tc main_arg7) (Finset.mem_filter.mpr ⟨StableHlo.devRef_mem_tcRefs main_arg7, by decide⟩)).trans (V18_main_arg7 m outs c),
        (h (Proc.devRef .tc main_arg8) (Finset.mem_filter.mpr ⟨StableHlo.devRef_mem_tcRefs main_arg8, by decide⟩)).trans (V18_main_arg8 m outs c)⟩
    · iexact HSI

end Cert.Kernel.Hand

end
-- ==== Proof.K_Reg0.lean ====
/- REGION 0 of @main (pipeline 0: a row-tile linear map, left operand times weight matrix, 49 row tiles of 2048 rows), at a
   PARAMETER `V`: the TensorCore's buffer contents when the region is entered.

   Three windows. Window 0 is the row tile of the left operand (block 2048×128 at block index (i, 0)), moved in at
   every point; window 1 is the whole weight matrix (128×128, a constant block index), moved in at the first point only; window 2 is the
   row tile of the result, written back at every point. The body reads the two input buffers whole, reads the
   result buffer (a value it never uses) and then overwrites the whole of it with the product of the two blocks
   rounded to bf16 and accumulated in f32 (`k0_pay1`). So what the body leaves in the result buffer is a closed
   function of the two input blocks at the point (`out0_2`, equal to the payload `k0_pay1`: `out0_2_eq`), and what
   it finds in an input buffer is that window's block at the point whether or not the block was moved in there
   (an input whose block index has not moved still holds the block of the point before, which is this point's).

   Every statement is generic in the float family `F`. -/
import proofs.«428559_j43585328120189_1_alg».proof.Proof.Gen.Kernel.Launch
import proofs.«428559_j43585328120189_1_alg».proof.Proof.Gen.Kernel.Skeleton
import proofs.«428559_j43585328120189_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic
import Mathlib.Tactic.FinCases

-- membership in a rectangle with a 2048-long axis is decided by a recursion once per coordinate of that axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`: its array, as the region finds it (`V`), read through the block's view. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The buffer of window 0 (the row tile of the left operand) holds the tile at every point, for any proof data whose array for the
    window is `V`'s (`hA`) and whose body leaves the tile in place (`hafter`). The window is an input, uncut and
    never idle; where it is moved in the buffer holds what was moved, and where it is not the block index has not
    moved since the point before. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t := by
  have hkeep : ∀ t, (cfg0.win 0).cut (cfg0.grid.coords t) (dat.after 0 t) = dat.blockOf 0 t := fun t => by
    rw [hafter]; unfold Dat.blockOf iblk0; rw [hA]; try rfl
  refine (dat.before_in_eq_fetched 0 rfl (fun _ => rfl) (fun _ _ _ => rfl) hkeep t d).trans ?_
  unfold Dat.fetched Dat.blockOf iblk0; rw [hA]; try rfl

/-- The buffer of window 1 (the whole weight matrix) holds it at every point, under the same two hypotheses. The window is
    moved in at the first point only: its block index is constant, so at every later point the buffer still holds
    the block of the point before, which is the same block. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t := by
  have hkeep : ∀ t, (cfg0.win 1).cut (cfg0.grid.coords t) (dat.after 1 t) = dat.blockOf 1 t := fun t => by
    rw [hafter]; unfold Dat.blockOf iblk0; rw [hA]; try rfl
  refine (dat.before_in_eq_fetched 1 rfl (fun _ => rfl) (fun _ _ _ => rfl) hkeep t d).trans ?_
  unfold Dat.fetched Dat.blockOf iblk0; rw [hA]; try rfl

/-! ## The body's accesses: each buffer whole, through the rectangle of its own extents at offset zero -/

abbrev r0_0 : Rect S2048x128 := Rect.unit (s := S2048x128) ![0, 0] S2048x128.size inb_S2048x128_S2048x128_0_0
abbrev r0_1 : Rect S128x128 := Rect.unit (s := S128x128) ![0, 0] S128x128.size inb_S128x128_S128x128_0_0
abbrev r0_2 : Rect S2048x128 := Rect.unit (s := S2048x128) ![0, 0] S2048x128.size inb_S2048x128_S2048x128_0_0

/-! ## What the body leaves in the result window's buffer -/

/-- The result buffer after the body, from the two input blocks: the contents its one store leaves, the payload
    `k0_pay1` of the two loaded blocks laid through the store's rectangle. -/
def out0_2 (x0 : Vec F S2048x128 .f32) (x1 : Vec F S128x128 .f32) : Vec F S2048x128 .f32 :=
  View.canon [⟨r0_2, k0_pay1 (View.ld x0 r0_0) (View.ld x1 r0_1)⟩]

/-- The one store's rectangle is the whole buffer, so it covers it. -/
theorem cover0_2 (p0 : Vec F S2048x128 .f32) (y : S2048x128.Idx) :
    ∃ pc ∈ ([⟨r0_2, p0⟩] : List (View.Piece (Elt F) S2048x128 .f32)), y ∈ pc.1.set :=
  View.cover_of_tiled [⟨r0_2, p0⟩] S2048x128.size (by rfl) y

/-- A load through the whole-buffer rectangle reads the contents and the one covering store leaves its payload: the
    result buffer after the body is the payload of the two input blocks. -/
theorem out0_2_eq (x0 : Vec F S2048x128 .f32) (x1 : Vec F S128x128 .f32) : out0_2 x0 x1 = k0_pay1 x0 x1 := by
  have hz0 : (![0, 0] : Fin S2048x128.rank → Nat) = fun _ => 0 := funext fun a => by fin_cases a <;> rfl
  have hz1 : (![0, 0] : Fin S128x128.rank → Nat) = fun _ => 0 := funext fun a => by fin_cases a <;> rfl
  unfold out0_2
  rw [View.canon_unit_zero hz0, View.ld_unit_zero hz0, View.ld_unit_zero hz1]

/-! ## The body's triple -/

set_option maxHeartbeats 1000000 in
/-- The body on whole buffers — the inputs' reading `x0` and `x1`, the result's holding anything — runs to a
    continuation that is handed the inputs' as they were and the result's at `out0_2 x0 x1`. The two input loads
    read `x0` and `x1`; the load of the result buffer reads a value no later operation uses; the store overwrites
    the whole buffer, so what any view reads of it afterwards is the canonical contents of the one piece. -/
theorem sound_kernel0 (c : Dev nD) (E : Set ℕ) (i : grid0.Coords)
    (arg1 : Memref sig .tc .vmem S2048x128 .f32) (harg1 : arg1.IsWhole)
    (arg2 : Memref sig .tc .vmem S128x128 .f32) (harg2 : arg2.IsWhole)
    (arg3 : Memref sig .tc .vmem S2048x128 .f32) (harg3 : arg3.IsWhole)
    (x0 : Vec F S2048x128 .f32) (x1 : Vec F S128x128 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__linear_kernel i arg1 harg1 arg2 harg2 arg3 harg3) K := by
  simp only [cc0__linear_kernel_eq_skeleton]; unfold cc0__linear_kernel_skel
  unfold owns
  iintro ⟨⟨%f1, %hf1, H1⟩, ⟨%f2, %hf2, H2⟩, ⟨%d3, %f3, -, H3⟩, Hk⟩
  subst hf1 hf2
  sl_exec
  sl_step
  iapply Hk
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_2 _)

/-! ## The pipeline's proof data -/

/-- The proof data of pipeline 0 on core `c`: the arrays as the region finds them (`V`); after the body at point
    `t` each input's buffer at its block and the result's at `out0_2` of the two input blocks; the invariant is the
    untouched rest (the scoped buffers and the generator register); nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input's buffer holds its block at every point, moved in there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`: the invariant, what is owed, and each window's current buffer at
    what the pipeline left in it, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns: the same invariant and debt, each buffer at the proof data's `after`. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the input buffers hold their blocks (`before0_0`, `before0_1`), so the body's triple
    applies at those blocks; the invariant and what is owed pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the pipeline, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K_Reg1.lean ====
/- REGION 1 of @main (pipeline 1: a row-tile linear map, left operand times weight matrix, 49 row tiles of 2048 rows), at a
   PARAMETER `V`: the TensorCore's buffer contents when the region is entered.

   Three windows. Window 0 is the row tile of the left operand (block 2048×128 at block index (i, 0)), moved in at
   every point; window 1 is the whole weight matrix (128×128, a constant block index), moved in at the first point only; window 2 is the
   row tile of the result, written back at every point. The body reads the two input buffers whole, reads the
   result buffer (a value it never uses) and then overwrites the whole of it with the product of the two blocks
   rounded to bf16 and accumulated in f32 (`k1_pay1`). So what the body leaves in the result buffer is a closed
   function of the two input blocks at the point (`out1_2`, equal to the payload `k1_pay1`: `out1_2_eq`), and what
   it finds in an input buffer is that window's block at the point whether or not the block was moved in there
   (an input whose block index has not moved still holds the block of the point before, which is this point's).

   Every statement is generic in the float family `F`. -/
import proofs.«428559_j43585328120189_1_alg».proof.Proof.Gen.Kernel.Launch
import proofs.«428559_j43585328120189_1_alg».proof.Proof.Gen.Kernel.Skeleton
import proofs.«428559_j43585328120189_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic
import Mathlib.Tactic.FinCases

-- membership in a rectangle with a 2048-long axis is decided by a recursion once per coordinate of that axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`: its array, as the region finds it (`V`), read through the block's view. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The buffer of window 0 (the row tile of the left operand) holds the tile at every point, for any proof data whose array for the
    window is `V`'s (`hA`) and whose body leaves the tile in place (`hafter`). The window is an input, uncut and
    never idle; where it is moved in the buffer holds what was moved, and where it is not the block index has not
    moved since the point before. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t := by
  have hkeep : ∀ t, (cfg1.win 0).cut (cfg1.grid.coords t) (dat.after 0 t) = dat.blockOf 0 t := fun t => by
    rw [hafter]; unfold Dat.blockOf iblk1; rw [hA]; try rfl
  refine (dat.before_in_eq_fetched 0 rfl (fun _ => rfl) (fun _ _ _ => rfl) hkeep t d).trans ?_
  unfold Dat.fetched Dat.blockOf iblk1; rw [hA]; try rfl

/-- The buffer of window 1 (the whole weight matrix) holds it at every point, under the same two hypotheses. The window is
    moved in at the first point only: its block index is constant, so at every later point the buffer still holds
    the block of the point before, which is the same block. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t := by
  have hkeep : ∀ t, (cfg1.win 1).cut (cfg1.grid.coords t) (dat.after 1 t) = dat.blockOf 1 t := fun t => by
    rw [hafter]; unfold Dat.blockOf iblk1; rw [hA]; try rfl
  refine (dat.before_in_eq_fetched 1 rfl (fun _ => rfl) (fun _ _ _ => rfl) hkeep t d).trans ?_
  unfold Dat.fetched Dat.blockOf iblk1; rw [hA]; try rfl

/-! ## The body's accesses: each buffer whole, through the rectangle of its own extents at offset zero -/

abbrev r1_0 : Rect S2048x128 := Rect.unit (s := S2048x128) ![0, 0] S2048x128.size inb_S2048x128_S2048x128_0_0
abbrev r1_1 : Rect S128x128 := Rect.unit (s := S128x128) ![0, 0] S128x128.size inb_S128x128_S128x128_0_0
abbrev r1_2 : Rect S2048x128 := Rect.unit (s := S2048x128) ![0, 0] S2048x128.size inb_S2048x128_S2048x128_0_0

/-! ## What the body leaves in the result window's buffer -/

/-- The result buffer after the body, from the two input blocks: the contents its one store leaves, the payload
    `k1_pay1` of the two loaded blocks laid through the store's rectangle. -/
def out1_2 (x0 : Vec F S2048x128 .f32) (x1 : Vec F S128x128 .f32) : Vec F S2048x128 .f32 :=
  View.canon [⟨r1_2, k1_pay1 (View.ld x0 r1_0) (View.ld x1 r1_1)⟩]

/-- The one store's rectangle is the whole buffer, so it covers it. -/
theorem cover1_2 (p0 : Vec F S2048x128 .f32) (y : S2048x128.Idx) :
    ∃ pc ∈ ([⟨r1_2, p0⟩] : List (View.Piece (Elt F) S2048x128 .f32)), y ∈ pc.1.set :=
  View.cover_of_tiled [⟨r1_2, p0⟩] S2048x128.size (by rfl) y

/-- A load through the whole-buffer rectangle reads the contents and the one covering store leaves its payload: the
    result buffer after the body is the payload of the two input blocks. -/
theorem out1_2_eq (x0 : Vec F S2048x128 .f32) (x1 : Vec F S128x128 .f32) : out1_2 x0 x1 = k1_pay1 x0 x1 := by
  have hz0 : (![0, 0] : Fin S2048x128.rank → Nat) = fun _ => 0 := funext fun a => by fin_cases a <;> rfl
  have hz1 : (![0, 0] : Fin S128x128.rank → Nat) = fun _ => 0 := funext fun a => by fin_cases a <;> rfl
  unfold out1_2
  rw [View.canon_unit_zero hz0, View.ld_unit_zero hz0, View.ld_unit_zero hz1]

/-! ## The body's triple -/

set_option maxHeartbeats 1000000 in
/-- The body on whole buffers — the inputs' reading `x0` and `x1`, the result's holding anything — runs to a
    continuation that is handed the inputs' as they were and the result's at `out1_2 x0 x1`. The two input loads
    read `x0` and `x1`; the load of the result buffer reads a value no later operation uses; the store overwrites
    the whole buffer, so what any view reads of it afterwards is the canonical contents of the one piece. -/
theorem sound_kernel1 (c : Dev nD) (E : Set ℕ) (i : grid1.Coords)
    (arg1 : Memref sig .tc .vmem S2048x128 .f32) (harg1 : arg1.IsWhole)
    (arg2 : Memref sig .tc .vmem S128x128 .f32) (harg2 : arg2.IsWhole)
    (arg3 : Memref sig .tc .vmem S2048x128 .f32) (harg3 : arg3.IsWhole)
    (x0 : Vec F S2048x128 .f32) (x1 : Vec F S128x128 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out1_2 x0 x1)) -∗ K ⟨⟩))
      ⊢ wp frame (wpE (defs₀ (F := F)) Variants.none c none) E (cc1__linear_kernel i arg1 harg1 arg2 harg2 arg3 harg3) K := by
  simp only [cc1__linear_kernel_eq_skeleton]; unfold cc1__linear_kernel_skel
  unfold owns
  iintro ⟨⟨%f1, %hf1, H1⟩, ⟨%f2, %hf2, H2⟩, ⟨%d3, %f3, -, H3⟩, Hk⟩
  subst hf1 hf2
  sl_exec
  sl_step
  iapply Hk
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_2 _)

/-! ## The pipeline's proof data -/

/-- The proof data of pipeline 1 on core `c`: the arrays as the region finds them (`V`); after the body at point
    `t` each input's buffer at its block and the result's at `out1_2` of the two input blocks; the invariant is the
    untouched rest (the scoped buffers and the generator register); nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

/-- Each input's buffer holds its block at every point, moved in there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point `t`: the invariant, what is owed, and each window's current buffer at
    what the pipeline left in it, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns: the same invariant and debt, each buffer at the proof data's `after`. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the input buffers hold their blocks (`before1_0`, `before1_1`), so the body's triple
    applies at those blocks; the invariant and what is owed pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the pipeline, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K_Reg2Defs.lean ====
import proofs.«428559_j43585328120189_1_alg».proof.Proof.Gen.Kernel.Launch
import proofs.«428559_j43585328120189_1_alg».proof.Proof.Gen.Kernel.Skeleton
import proofs.«428559_j43585328120189_1_alg».proof.Proof.Gen.Kernel.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter everything below is stated at
variable (V : (c : Dev nD) → (b : Ref sig .tc) → Buf (Elt F) ((c : Thread nD τ).loc b))

/-! # Region 2: the pooling and classifier kernel over 49 row tiles, at the entry contents `V`

The kernel keeps a 64×128 accumulator in a scratch buffer across the grid: cleared at the first tile, at every tile
increased by the one-hot segment matrix (transposed) times the tile of node features, and at the last tile scaled row by
row by the reciprocal counts, multiplied by the classifier weights and offset by the bias into the 64×10 output. -/

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! ## The two conditions on the grid coordinate -/

/-- "This is the first tile": the condition under which the accumulator is cleared. -/
abbrev cond2_0 (i : grid2.Coords) : Prop := (Scalar.cmpi .ne (Scalar.extui (Scalar.cmpi .eq (BitVec.ofNat 32 (i 0).val) 0#32)) 0#32) = 1#1
/-- It holds at point 0 only. -/
theorem hcond2_0 : ∀ t : Fin cfg2.N, cond2_0 (grid2.coords t) ↔ t.val = 0 :=
  (by decide +kernel : ∀ t : Fin grid2.N, cond2_0 (grid2.coords t) ↔ t.val = 0)

/-- "This is the last tile": the condition under which the output is computed and stored. -/
abbrev cond2_1 (i : grid2.Coords) : Prop := k2_cond2 i = 1#1
/-- It holds at point 48 only. -/
theorem hcond2_1 : ∀ t : Fin cfg2.N, cond2_1 (grid2.coords t) ↔ t.val = 48 :=
  (by decide +kernel : ∀ t : Fin grid2.N, cond2_1 (grid2.coords t) ↔ t.val = 48)

/-! ## Where the windows are idle -/

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem liveAt2_3 : ∀ t : Fin cfg2.N, cfg2.idle 3 (grid2.coords t) = false := by decide +kernel
theorem liveAt2_4 : ∀ t : Fin cfg2.N, cfg2.idle 4 (grid2.coords t) = false := by decide +kernel
/-- Off the last tile nothing is stored into the output's buffer: the window is idle there, -/
theorem idleAt2_5 : ∀ t : Fin cfg2.N, ¬cond2_1 (grid2.coords t) → cfg2.idle 5 (grid2.coords t) = true := by decide +kernel
/-- and its block is not written back there. -/
theorem noFlush2_5 : ∀ t : Fin cfg2.N, ¬cond2_1 (grid2.coords t) → (cfg2.win 5).flush t = false := by decide +kernel
/-- At the last tile the output is stored: the window is live. -/
theorem liveAt2_5 : ∀ t : Fin cfg2.N, cond2_1 (grid2.coords t) → cfg2.idle 5 (grid2.coords t) = false := by decide +kernel

/-! ## The staging memrefs and the scratch -/

abbrev ms2_0 (t : Fin cfg2.N) : Memref sig .tc .vmem S2048x128 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S2048x1 .i32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S64x1 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S128x10 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S10 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S64x10 .f32 := win2_5.stage (cfg2.slots t 5)
abbrev hs2_5 (t : Fin cfg2.N) : (ms2_5 t).IsWhole := hstage2_5 ((cfg2.slots t 5).cast nbuf2_5)
/-- The accumulator: a whole scoped buffer of the kernel's own, passed beside the windows. -/
abbrev scM2 : Memref sig .tc .vmem S64x128 .f32 := Memref.whole cc2_scratch0

/-! ## What the accumulator holds after each tile -/

/-- The accumulator after tile `n`: the tile's contribution added to what the tile before left — to the cleared
    accumulator at the first tile. -/
def accAt2 (c : Dev nD) : (n : ℕ) → n < cfg2.N → Vec F S64x128 .f32
  | 0, h => k2_pay2 (iblk2 V c 0 ⟨0, h⟩) (iblk2 V c 1 ⟨0, h⟩) (k2_pay1 (F := F))
  | n + 1, h => k2_pay2 (iblk2 V c 0 ⟨n + 1, h⟩) (iblk2 V c 1 ⟨n + 1, h⟩) (accAt2 c n (Nat.lt_of_succ_lt h))

theorem accAt2_zero (c : Dev nD) (h : 0 < cfg2.N) :
    accAt2 V c 0 h = k2_pay2 (iblk2 V c 0 ⟨0, h⟩) (iblk2 V c 1 ⟨0, h⟩) (k2_pay1 (F := F)) := rfl

theorem accAt2_succ (c : Dev nD) (n : ℕ) (h : n + 1 < cfg2.N) :
    accAt2 V c (n + 1) h = k2_pay2 (iblk2 V c 0 ⟨n + 1, h⟩) (iblk2 V c 1 ⟨n + 1, h⟩) (accAt2 V c n (Nat.lt_of_succ_lt h)) := rfl

/-- The accumulator before tile `t`, when that is not the first. -/
theorem accAt2_pos (c : Dev nD) (t : Fin cfg2.N) (ht : t.val ≠ 0) :
    accAt2 V c t.val t.isLt = k2_pay2 (iblk2 V c 0 t) (iblk2 V c 1 t) (accAt2 V c (t.val - 1) (Nat.lt_of_le_of_lt (Nat.sub_le _ _) t.isLt)) := by
  obtain ⟨n, hn⟩ := t
  cases n with
  | zero => exact absurd rfl ht
  | succ n => rfl

/-- What the last tile's epilogue would make of the accumulator after tile `t`: the pooled rows scaled, through the
    classifier. The output window's buffer holds it after the last tile (the only one that stores it). -/
def out2_5 (c : Dev nD) (t : Fin cfg2.N) : Vec F S64x10 .f32 :=
  k2_pay3 (accAt2 V c t.val t.isLt) (iblk2 V c 2 t) (iblk2 V c 3 t) (iblk2 V c 4 t)

/-! ## The region invariant -/

/-- The core's scoped buffers that belong to the other two kernels' pipelines, each whole at some contents: this
    region never touches them. -/
def others2 (c : Dev nD) : sProp 𝕄 :=
  iprop((∃ f : Buf (Elt F) ((c : Thread nD τ).loc cc0_stg0_0), ((c : Thread nD τ).loc cc0_stg0_0) ↦{fullShare} f)
      ∗ (∃ f : Buf (Elt F) ((c : Thread nD τ).loc cc0_stg0_1), ((c : Thread nD τ).loc cc0_stg0_1) ↦{fullShare} f)
      ∗ (∃ f : Buf (Elt F) ((c : Thread nD τ).loc cc0_stg1_0), ((c : Thread nD τ).loc cc0_stg1_0) ↦{fullShare} f)
      ∗ (∃ f : Buf (Elt F) ((c : Thread nD τ).loc cc0_stg2_0), ((c : Thread nD τ).loc cc0_stg2_0) ↦{fullShare} f)
      ∗ (∃ f : Buf (Elt F) ((c : Thread nD τ).loc cc0_stg2_1), ((c : Thread nD τ).loc cc0_stg2_1) ↦{fullShare} f)
      ∗ (∃ f : Buf (Elt F) ((c : Thread nD τ).loc cc1_stg0_0), ((c : Thread nD τ).loc cc1_stg0_0) ↦{fullShare} f)
      ∗ (∃ f : Buf (Elt F) ((c : Thread nD τ).loc cc1_stg0_1), ((c : Thread nD τ).loc cc1_stg0_1) ↦{fullShare} f)
      ∗ (∃ f : Buf (Elt F) ((c : Thread nD τ).loc cc1_stg1_0), ((c : Thread nD τ).loc cc1_stg1_0) ↦{fullShare} f)
      ∗ (∃ f : Buf (Elt F) ((c : Thread nD τ).loc cc1_stg2_0), ((c : Thread nD τ).loc cc1_stg2_0) ↦{fullShare} f)
      ∗ (∃ f : Buf (Elt F) ((c : Thread nD τ).loc cc1_stg2_1), ((c : Thread nD τ).loc cc1_stg2_1) ↦{fullShare} f))

/-- What the region is entered with, opened: the other kernels' staging buffers, the accumulator as a memref owned at
    some contents, and the generator register at some state. -/
theorem PhiA2_open (c : Dev nD) :
    (Pipeline.ΦA spec2 c : sProp 𝕄)
      ⊢ iprop(iprop(others2 (F := F) c ∗ (∃ d, owns (c : Thread nD τ) scM2 fullShare d)) ∗ (∃ r, prngReg c r)) := by
  unfold Pipeline.ΦA; rw [scopedRest2_eq]; simp only [scM2, owns_whole]
  unfold others2
  iintro ⟨⟨R0, R1, R2, R3, R4, R5, R6, R7, R8, R9, HS⟩, Hg⟩
  isplitr [Hg]
  · isplitr [HS]
    ·
      isplitl [R0]; · iexact R0
      isplitl [R1]; · iexact R1
      isplitl [R2]; · iexact R2
      isplitl [R3]; · iexact R3
      isplitl [R4]; · iexact R4
      isplitl [R5]; · iexact R5
      isplitl [R6]; · iexact R6
      isplitl [R7]; · iexact R7
      isplitl [R8]; · iexact R8
      iexact R9
    · iexact HS
  · iexact Hg

/-- and closed again. -/
theorem PhiA2_close (c : Dev nD) :
    iprop(iprop(others2 (F := F) c ∗ (∃ d, owns (c : Thread nD τ) scM2 fullShare d)) ∗ (∃ r, prngReg c r))
      ⊢ (Pipeline.ΦA spec2 c : sProp 𝕄) := by
  unfold Pipeline.ΦA; rw [scopedRest2_eq]; simp only [scM2, owns_whole]
  unfold others2
  iintro ⟨⟨⟨R0, R1, R2, R3, R4, R5, R6, R7, R8, R9⟩, HS⟩, Hg⟩
  isplitr [Hg]
  ·
    isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    iexact HS
  · iexact Hg

theorem PhiA2_eq (c : Dev nD) :
    (Pipeline.ΦA spec2 c : sProp 𝕄)
      = iprop(iprop(others2 (F := F) c ∗ (∃ d, owns (c : Thread nD τ) scM2 fullShare d)) ∗ (∃ r, prngReg c r)) :=
  BI.equiv_iff.mp ⟨PhiA2_open c, PhiA2_close c⟩

/-- The invariant before position `n`: before the first tile whatever the region was entered with; afterwards the
    accumulator at what the tile before left in it. -/
def PhiS2 (c : Dev nD) : (n : ℕ) → n ≤ cfg2.N → sProp 𝕄
  | 0, _ => Pipeline.ΦA spec2 c
  | n + 1, hn => iprop(iprop(others2 (F := F) c ∗ owns (c : Thread nD τ) scM2 fullShare (accAt2 V c n hn)) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(others2 (F := F) c ∗ owns (c : Thread nD τ) scM2 fullShare (accAt2 V c n hn)) ∗ (∃ r, prngReg c r)) := rfl

theorem PhiS2_pos (c : Dev nD) (n : ℕ) (h : n ≤ cfg2.N) (hz : n ≠ 0) :
    PhiS2 V c n h = iprop(iprop(others2 (F := F) c ∗ owns (c : Thread nD τ) scM2 fullShare (accAt2 V c (n - 1) (by omega))) ∗ (∃ r, prngReg c r)) := by
  cases n with
  | zero => exact absurd rfl hz
  | succ n => rfl

/-! ## The pipeline's proof data -/

/-- The proof data of the pooling pipeline on core `c`: the arrays as the region finds them (`V`); after the body at
    tile `t` each input's buffer at its block and the output's at the epilogue of the accumulator after `t`; the
    invariant `PhiS2`; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 V c t
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = out2_5 V c t := by dsimp only [dat2]

/-- After the last tile the output's buffer holds the epilogue of the full accumulation. -/
theorem after2_5_last (c : Dev nD) :
    (dat2 V c).after 5 ⟨48, by decide⟩
      = k2_pay3 (accAt2 V c 48 (by decide)) (iblk2 V c 2 ⟨48, by decide⟩) (iblk2 V c 3 ⟨48, by decide⟩) (iblk2 V c 4 ⟨48, by decide⟩) := by
  rw [after2_5]; rfl

end Cert.Kernel.Hand

end
-- ==== Proof.K_Reg2IO.lean ====
/- REGION 2 of @main (the pooling and classifier pipeline) at its two ends: what the region is entered with is the
   invariant before the first tile, and the invariant after the last tile gives back what the region is left with.

   Before the first tile the invariant IS the untouched rest (the scoped buffers and the generator register). After
   any tile it holds the accumulator at named contents beside the other kernels' buffers and the generator register;
   forgetting the accumulator's contents (they are some contents) gives the untouched rest again. -/
import proofs.«428559_j43585328120189_1_alg».proof.Proof.K_Reg2Defs

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- What the region is entered with is the invariant before the first tile. -/
theorem hin2 (c : Dev nD) : (Pipeline.ΦA spec2 c : sProp 𝕄) ⊢ (dat2 V c).Φ 0 := by
  rw [show (dat2 V c).Φ 0 = PhiS2 V c 0 (Nat.zero_le _) from rfl, PhiS2_zero V c 0 _ rfl]

/-- After any tile the invariant gives the untouched rest back: the accumulator's named contents are forgotten. -/
theorem Phi_out2 (c : Dev nD) (t : Fin (cfg2.N + 1)) (ht : t.val ≠ 0) :
    (dat2 V c).Φ t ⊢ (Pipeline.ΦA spec2 c : sProp 𝕄) := by
  rw [show (dat2 V c).Φ t = PhiS2 V c t.val (Nat.le_of_lt_succ t.isLt) from rfl, PhiS2_pos V c _ _ ht, PhiA2_eq]
  iintro ⟨⟨Hr, HS⟩, Hg⟩
  isplitr [Hg]
  · isplitl [Hr]
    · iexact Hr
    iexists _; iexact HS
  iexact Hg

/-- The same after the last tile. -/
theorem hout2 (c : Dev nD) : (dat2 V c).Φ (Fin.last cfg2.N) ⊢ (Pipeline.ΦA spec2 c : sProp 𝕄) :=
  Phi_out2 V c _ (by rw [Fin.val_last]; have : cfg2.N = 49 := N_2; omega)

end Cert.Kernel.Hand

end
-- ==== Proof.K_Reg2Run.lean ====
import proofs.«428559_j43585328120189_1_alg».proof.Proof.Gen.Kernel.Launch
import proofs.«428559_j43585328120189_1_alg».proof.Proof.Gen.Kernel.Skeleton
import proofs.«428559_j43585328120189_1_alg».proof.Proof.Gen.Kernel.Points
import Idealize.ShloMosaic.Lib.Pipeline.FrameBody
import Idealize.ShloMosaic.Lib.Pipeline.Value
import Idealize.ShloMosaic.Lib.Ring
import Idealize.ShloMosaic.Lib.Tactic
import Idealize.ShloMosaic.Lib.WholeRead

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 2: the body of the pooling and classifier kernel, run in each of its three cases

The body's two conditionals are decided by the tile's number: the first tile clears the accumulator before adding to it,
the last tile computes the output after adding, the tiles between only add. Every load and store is of a whole buffer. -/

/-- The zero offsets of a rank-2 and of a rank-1 whole-buffer access, as constant functions. -/
theorem hz2 : (![0, 0] : Fin 2 → Nat) = fun _ => 0 := funext fun a => by fin_cases a <;> rfl
theorem hz1 : (![0] : Fin 1 → Nat) = fun _ => 0 := funext fun a => by fin_cases a <;> rfl

/-- A load of a whole buffer through the whole-shape rectangle at zero offsets reads its contents. -/
theorem readAt_whole {S : Shape} {e : EltTy} {m : Memref sig .tc .vmem S e} (hm : m.IsWhole) {off : Fin S.rank → Nat}
    (h : off = fun _ => 0) (inb : ∀ a, off a + S.size a ≤ S.size a) (x : S.Idx → Elt F e) :
    View.readAt (Elt F) m.view (Rect.unit off S.size inb).toLoadRect (hm.unread x) = x :=
  (funext fun j => hm.readAt_unread x _ j).trans (View.ld_unit_zero h inb x)

set_option maxHeartbeats 1000000 in
/-- A MIDDLE TILE (neither condition holds). On whole staging memrefs — the five inputs' at their contents, the output's
    at contents `xi5` it does not touch, the accumulator at `xs` — the body runs to the continuation holding the inputs'
    and the output's as they were and the accumulator at `xs` increased by the tile's contribution. -/
theorem kernelRun2_B (c : Dev nD) (i : grid2.Coords) (arg1 : Memref sig .tc .vmem S2048x128 .f32) (harg1 : arg1.IsWhole) (arg2 : Memref sig .tc .vmem S2048x1 .i32) (harg2 : arg2.IsWhole) (arg3 : Memref sig .tc .vmem S64x1 .f32) (harg3 : arg3.IsWhole) (arg4 : Memref sig .tc .vmem S128x10 .f32) (harg4 : arg4.IsWhole) (arg5 : Memref sig .tc .vmem S10 .f32) (harg5 : arg5.IsWhole) (arg6 : Memref sig .tc .vmem S64x10 .f32) (harg6 : arg6.IsWhole) (arg7 : Memref sig .tc .vmem S64x128 .f32) (harg7 : arg7.IsWhole)
    (hc0 : ¬((Scalar.cmpi .ne (Scalar.extui (Scalar.cmpi .eq (BitVec.ofNat 32 (i 0).val) 0#32)) 0#32) = 1#1)) (hc1 : ¬(k2_cond2 i = 1#1))
    (x0 : Vec F S2048x128 .f32) (x1 : Vec F S2048x1 .i32) (x2 : Vec F S64x1 .f32) (x3 : Vec F S128x10 .f32) (x4 : Vec F S10 .f32) (xi5 : Vec F S64x10 .f32) (xs : Vec F S64x128 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ owns (c : Thread nD τ) arg7 fullShare xs
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ owns (c : Thread nD τ) arg7 fullShare (k2_pay2 x0 x1 xs)) -∗ K ⟨⟩))
      ⊢ wp frame (wpE (defs₀ (F := F)) Variants.none c none) E (cc2__pool_fc_kernel i arg1 harg1 arg2 harg2 arg3 harg3 arg4 harg4 arg5 harg5 arg6 harg6 arg7 harg7) K := by
  simp only [cc2__pool_fc_kernel_eq_skeleton]; unfold cc2__pool_fc_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs, %hfs, HS⟩, Hk⟩
  obtain rfl := harg1.eq_unread hf0; obtain rfl := harg2.eq_unread hf1; obtain rfl := harg3.eq_unread hf2
  obtain rfl := harg4.eq_unread hf3; obtain rfl := harg5.eq_unread hf4; obtain rfl := harg6.eq_unread hf5
  obtain rfl := harg7.eq_unread hfs
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  iexists _; isplitr
  swap; · iexact HS
  ipureintro
  rw [View.read_writes_eq_canon _ _ _ (fun y => ⟨_, List.mem_singleton_self _, View.mem_set_unit_zero hz2 inb_S64x128_S64x128_0_0 y⟩), View.canon_unit_zero hz2]
  rw [readAt_whole harg1 hz2, readAt_whole harg2 hz2, readAt_whole harg7 hz2]

set_option maxHeartbeats 1000000 in
/-- THE FIRST TILE (the first condition holds, the second does not). On whole staging memrefs — the five inputs' at their
    contents, the output's at contents `xi5` it does not touch, the accumulator at anything — the body runs to the
    continuation holding the inputs' and the output's as they were and the accumulator at the tile's contribution added to
    the cleared accumulator. -/
theorem kernelRun2_A (c : Dev nD) (i : grid2.Coords) (arg1 : Memref sig .tc .vmem S2048x128 .f32) (harg1 : arg1.IsWhole) (arg2 : Memref sig .tc .vmem S2048x1 .i32) (harg2 : arg2.IsWhole) (arg3 : Memref sig .tc .vmem S64x1 .f32) (harg3 : arg3.IsWhole) (arg4 : Memref sig .tc .vmem S128x10 .f32) (harg4 : arg4.IsWhole) (arg5 : Memref sig .tc .vmem S10 .f32) (harg5 : arg5.IsWhole) (arg6 : Memref sig .tc .vmem S64x10 .f32) (harg6 : arg6.IsWhole) (arg7 : Memref sig .tc .vmem S64x128 .f32) (harg7 : arg7.IsWhole)
    (hc0 : (Scalar.cmpi .ne (Scalar.extui (Scalar.cmpi .eq (BitVec.ofNat 32 (i 0).val) 0#32)) 0#32) = 1#1) (hc1 : ¬(k2_cond2 i = 1#1))
    (x0 : Vec F S2048x128 .f32) (x1 : Vec F S2048x1 .i32) (x2 : Vec F S64x1 .f32) (x3 : Vec F S128x10 .f32) (x4 : Vec F S10 .f32) (xi5 : Vec F S64x10 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ owns (c : Thread nD τ) arg7 fullShare (k2_pay2 x0 x1 (k2_pay1 (F := F)))) -∗ K ⟨⟩))
      ⊢ wp frame (wpE (defs₀ (F := F)) Variants.none c none) E (cc2__pool_fc_kernel i arg1 harg1 arg2 harg2 arg3 harg3 arg4 harg4 arg5 harg5 arg6 harg6 arg7 harg7) K := by
  simp only [cc2__pool_fc_kernel_eq_skeleton]; unfold cc2__pool_fc_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds, %fs, -, HS⟩, Hk⟩
  obtain rfl := harg1.eq_unread hf0; obtain rfl := harg2.eq_unread hf1; obtain rfl := harg3.eq_unread hf2
  obtain rfl := harg4.eq_unread hf3; obtain rfl := harg5.eq_unread hf4; obtain rfl := harg6.eq_unread hf5
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  iexists _; isplitr
  swap; · iexact HS
  ipureintro
  rw [View.read_writes_eq_canon _ _ _ (fun y => ⟨_, List.Mem.head _, View.mem_set_unit_zero hz2 inb_S64x128_S64x128_0_0 y⟩), View.canon_cons_unit_zero hz2]
  unfold kernelRun2_A.sl.v16 kernelRun2_A.sl.HS_1
  rw [View.readCov_unit_zero _ hz2, readAt_whole harg1 hz2, readAt_whole harg2 hz2]

set_option maxHeartbeats 1000000 in
/-- THE LAST TILE (the first condition fails, the second holds). On whole staging memrefs — the five inputs' at their
    contents, the output's at anything, the accumulator at `xs` — the body runs to the continuation holding the inputs' as
    they were, the accumulator at `xs` increased by the tile's contribution, and the output's buffer at the epilogue of
    that: the rows scaled by the reciprocal counts, times the classifier weights, plus the bias. -/
theorem kernelRun2_C (c : Dev nD) (i : grid2.Coords) (arg1 : Memref sig .tc .vmem S2048x128 .f32) (harg1 : arg1.IsWhole) (arg2 : Memref sig .tc .vmem S2048x1 .i32) (harg2 : arg2.IsWhole) (arg3 : Memref sig .tc .vmem S64x1 .f32) (harg3 : arg3.IsWhole) (arg4 : Memref sig .tc .vmem S128x10 .f32) (harg4 : arg4.IsWhole) (arg5 : Memref sig .tc .vmem S10 .f32) (harg5 : arg5.IsWhole) (arg6 : Memref sig .tc .vmem S64x10 .f32) (harg6 : arg6.IsWhole) (arg7 : Memref sig .tc .vmem S64x128 .f32) (harg7 : arg7.IsWhole)
    (hc0 : ¬((Scalar.cmpi .ne (Scalar.extui (Scalar.cmpi .eq (BitVec.ofNat 32 (i 0).val) 0#32)) 0#32) = 1#1)) (hc1 : k2_cond2 i = 1#1)
    (x0 : Vec F S2048x128 .f32) (x1 : Vec F S2048x1 .i32) (x2 : Vec F S64x1 .f32) (x3 : Vec F S128x10 .f32) (x4 : Vec F S10 .f32) (xs : Vec F S64x128 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare xs
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (k2_pay3 (k2_pay2 x0 x1 xs) x2 x3 x4) ∗ owns (c : Thread nD τ) arg7 fullShare (k2_pay2 x0 x1 xs)) -∗ K ⟨⟩))
      ⊢ wp frame (wpE (defs₀ (F := F)) Variants.none c none) E (cc2__pool_fc_kernel i arg1 harg1 arg2 harg2 arg3 harg3 arg4 harg4 arg5 harg5 arg6 harg6 arg7 harg7) K := by
  simp only [cc2__pool_fc_kernel_eq_skeleton]; unfold cc2__pool_fc_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs, %hfs, HS⟩, Hk⟩
  obtain rfl := harg1.eq_unread hf0; obtain rfl := harg2.eq_unread hf1; obtain rfl := harg3.eq_unread hf2
  obtain rfl := harg4.eq_unread hf3; obtain rfl := harg5.eq_unread hf4
  obtain rfl := harg7.eq_unread hfs
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr
    swap; · iexact H5
    ipureintro
    rw [View.read_writes_eq_canon _ _ _ (fun y => ⟨_, List.mem_singleton_self _, View.mem_set_unit_zero hz2 inb_S64x10_S64x10_0_0 y⟩), View.canon_unit_zero hz2]
    unfold kernelRun2_C.sl.v24 kernelRun2_C.sl.HS_1
    rw [View.readCov_unit_zero _ hz2, readAt_whole harg1 hz2, readAt_whole harg2 hz2, readAt_whole harg7 hz2,
      readAt_whole harg3 hz2, readAt_whole harg4 hz2, readAt_whole harg5 hz1]
  iexists _; isplitr
  swap; · iexact HS
  ipureintro
  unfold kernelRun2_C.sl.HS_1
  rw [View.read_writes_eq_canon _ _ _ (fun y => ⟨_, List.mem_singleton_self _, View.mem_set_unit_zero hz2 inb_S64x128_S64x128_0_0 y⟩), View.canon_unit_zero hz2]
  rw [readAt_whole harg1 hz2, readAt_whole harg2 hz2, readAt_whole harg7 hz2]

end Cert.Kernel.Hand

end
-- ==== Proof.K_Reg2.lean ====
import proofs.«428559_j43585328120189_1_alg».proof.Proof.K_Reg2Defs
import proofs.«428559_j43585328120189_1_alg».proof.Proof.K_Reg2Run

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter everything below is stated at
variable (V : (c : Dev nD) → (b : Ref sig .tc) → Buf (Elt F) ((c : Thread nD τ).loc b))

/-! # Region 2: the body obligation of the pooling and classifier kernel, tile by tile -/

/-! ## What the body finds in the inputs' buffers -/

/-- Each input's current staging buffer holds its block at every tile, fetched there or not: the row tiles are fetched at
    every tile; the reciprocal counts, the classifier weights and the bias are fetched once, their block index never moves,
    and the body leaves them in place. -/
theorem before2_0 (c : Dev nD) (t : Fin cfg2.N) (d) : (dat2 V c).before 0 t d = iblk2 V c 0 t :=
  ((dat2 V c).before_in_eq_fetched 0 rfl (fun _ => rfl) (fun _ _ _ => rfl) (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl) (fun t => by rw [after2_1]; unfold Dat.blockOf iblk2; rw [A_eq2]; try rfl) t d).trans
    (by unfold Dat.fetched Dat.blockOf iblk2; rw [A_eq2]; try rfl)
theorem before2_2 (c : Dev nD) (t : Fin cfg2.N) (d) : (dat2 V c).before 2 t d = iblk2 V c 2 t :=
  ((dat2 V c).before_in_eq_fetched 2 rfl (fun _ => rfl) (fun _ _ _ => rfl) (fun t => by rw [after2_2]; unfold Dat.blockOf iblk2; rw [A_eq2]; try rfl) t d).trans
    (by unfold Dat.fetched Dat.blockOf iblk2; rw [A_eq2]; try rfl)
theorem before2_3 (c : Dev nD) (t : Fin cfg2.N) (d) : (dat2 V c).before 3 t d = iblk2 V c 3 t :=
  ((dat2 V c).before_in_eq_fetched 3 rfl (fun _ => rfl) (fun _ _ _ => rfl) (fun t => by rw [after2_3]; unfold Dat.blockOf iblk2; rw [A_eq2]; try rfl) t d).trans
    (by unfold Dat.fetched Dat.blockOf iblk2; rw [A_eq2]; try rfl)
theorem before2_4 (c : Dev nD) (t : Fin cfg2.N) (d) : (dat2 V c).before 4 t d = iblk2 V c 4 t :=
  ((dat2 V c).before_in_eq_fetched 4 rfl (fun _ => rfl) (fun _ _ _ => rfl) (fun t => by rw [after2_4]; unfold Dat.blockOf iblk2; rw [A_eq2]; try rfl) t d).trans
    (by unfold Dat.fetched Dat.blockOf iblk2; rw [A_eq2]; try rfl)

/-- The accumulator after the first tile. -/
theorem accAt2_first (c : Dev nD) (t : Fin cfg2.N) (h0 : t.val = 0) :
    accAt2 V c t.val t.isLt = k2_pay2 (iblk2 V c 0 t) (iblk2 V c 1 t) (k2_pay1 (F := F)) := by
  obtain ⟨n, hn⟩ := t
  cases n with
  | zero => rfl
  | succ n => exact absurd h0 (Nat.succ_ne_zero n)

/-! ## The body obligation, at a generic tile -/

/-- What the body is called with at tile `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t)

set_option maxHeartbeats 4800000 in
/-- The body at any tile. The inputs' memrefs hold their blocks; the tile's number says which of the three cases it is in;
    the invariant hands the body the accumulator at what the tile before left (at anything at the first tile) and takes it
    back at this tile's contents; off the last tile the output's buffer is handed back untouched, at the last tile it is
    left at the epilogue of the full accumulation; the core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).owesAt () t.succ = (dat2 V c).owesAt () t.castSucc from rfl]
  rw [show (dat2 V c).Φ t.succ = PhiS2 V c (t.val + 1) t.isLt from rfl, PhiS2_succ]
  have hN : t.val < 49 := lt_of_lt_of_eq t.isLt (show cfg2.N = 49 from N_2)
  by_cases h0 : t.val = 0
  · have h1 : ¬t.val = 48 := by omega
    rw [show (dat2 V c).leavesExact 0 t = owns (c : Thread nD τ) (ms2_0 t) fullShare ((dat2 V c).after 0 t) from by
      unfold Dat.leavesExact; rw [liveAt2_0 t], after2_0]
    rw [show (dat2 V c).leavesExact 1 t = owns (c : Thread nD τ) (ms2_1 t) fullShare ((dat2 V c).after 1 t) from by
      unfold Dat.leavesExact; rw [liveAt2_1 t], after2_1]
    rw [show (dat2 V c).leavesExact 2 t = owns (c : Thread nD τ) (ms2_2 t) fullShare ((dat2 V c).after 2 t) from by
      unfold Dat.leavesExact; rw [liveAt2_2 t], after2_2]
    rw [show (dat2 V c).leavesExact 3 t = owns (c : Thread nD τ) (ms2_3 t) fullShare ((dat2 V c).after 3 t) from by
      unfold Dat.leavesExact; rw [liveAt2_3 t], after2_3]
    rw [show (dat2 V c).leavesExact 4 t = owns (c : Thread nD τ) (ms2_4 t) fullShare ((dat2 V c).after 4 t) from by
      unfold Dat.leavesExact; rw [liveAt2_4 t], after2_4]
    rw [Dat.leavesExact_idle (dat2 V c) 5 t (idleAt2_5 t (fun h => h1 ((hcond2_1 t).mp h))) (noFlush2_5 t (fun h => h1 ((hcond2_1 t).mp h)))]
    rw [accAt2_first V c t h0]
    rw [PhiS2_castSucc V c t, PhiS2_zero V c _ _ h0, PhiA2_eq]
    iintro ⟨⟨⟨HR, HS⟩, Hg⟩, Ho, ⟨%d0, H0⟩, ⟨%d1, H1⟩, ⟨%d2, H2⟩, ⟨%d3, H3⟩, ⟨%d4, H4⟩, ⟨%d5, H5⟩⟩
    iapply (kernelRun2_A c (grid2.coords t) _ _ _ _ _ _ _ _ _ _ _ _ _ _ ((hcond2_0 t).mpr h0) (fun h => h1 ((hcond2_1 t).mp h)) (iblk2 V c 0 t) (iblk2 V c 1 t) (iblk2 V c 2 t) (iblk2 V c 3 t) (iblk2 V c 4 t) _ Set.univ _)
    isplitl [H0]; · iexact H0
    isplitl [H1]; · iexact H1
    isplitl [H2]; · iexact H2
    isplitl [H3]; · iexact H3
    isplitl [H4]; · iexact H4
    isplitl [H5]; · iexact H5
    isplitl [HS]; · iexact HS
    iintro ⟨H0, H1, H2, H3, H4, H5, HS⟩
    isplitl [HR HS Hg]
    · isplitr [Hg]
      · isplitl [HR]; · iexact HR
        iexact HS
      · iexact Hg
    isplitl [Ho]; · iexact Ho
    isplitl [H0]; · iexact H0
    isplitl [H1]; · iexact H1
    isplitl [H2]; · iexact H2
    isplitl [H3]; · iexact H3
    isplitl [H4]; · iexact H4
    iexists _; iexact H5
  · by_cases h1 : t.val = 48
    ·
      rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [show (dat2 V c).leavesExact 3 t = owns (c : Thread nD τ) (ms2_3 t) fullShare ((dat2 V c).after 3 t) from by
        unfold Dat.leavesExact; rw [liveAt2_3 t], after2_3]
      rw [show (dat2 V c).leavesExact 4 t = owns (c : Thread nD τ) (ms2_4 t) fullShare ((dat2 V c).after 4 t) from by
        unfold Dat.leavesExact; rw [liveAt2_4 t], after2_4]
      rw [show (dat2 V c).leavesExact 5 t = owns (c : Thread nD τ) (ms2_5 t) fullShare ((dat2 V c).after 5 t) from by
        unfold Dat.leavesExact; rw [liveAt2_5 t ((hcond2_1 t).mpr h1)], after2_5]
      unfold out2_5
      rw [accAt2_pos V c t h0]
      rw [PhiS2_castSucc V c t, PhiS2_pos V c _ _ h0]
      iintro ⟨⟨⟨HR, HS⟩, Hg⟩, Ho, ⟨%d0, H0⟩, ⟨%d1, H1⟩, ⟨%d2, H2⟩, ⟨%d3, H3⟩, ⟨%d4, H4⟩, ⟨%d5, H5⟩⟩
      iapply (kernelRun2_C c (grid2.coords t) _ _ _ _ _ _ _ _ _ _ _ _ _ _ (fun h => h0 ((hcond2_0 t).mp h)) ((hcond2_1 t).mpr h1) (iblk2 V c 0 t) (iblk2 V c 1 t) (iblk2 V c 2 t) (iblk2 V c 3 t) (iblk2 V c 4 t) _ Set.univ _)
      isplitl [H0]; · iexact H0
      isplitl [H1]; · iexact H1
      isplitl [H2]; · iexact H2
      isplitl [H3]; · iexact H3
      isplitl [H4]; · iexact H4
      isplitl [H5]; · iexists _; iexact H5
      isplitl [HS]; · iexact HS
      iintro ⟨H0, H1, H2, H3, H4, H5, HS⟩
      isplitl [HR HS Hg]
      · isplitr [Hg]
        · isplitl [HR]; · iexact HR
          iexact HS
        · iexact Hg
      isplitl [Ho]; · iexact Ho
      isplitl [H0]; · iexact H0
      isplitl [H1]; · iexact H1
      isplitl [H2]; · iexact H2
      isplitl [H3]; · iexact H3
      isplitl [H4]; · iexact H4
      iexact H5
    ·
      rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [show (dat2 V c).leavesExact 3 t = owns (c : Thread nD τ) (ms2_3 t) fullShare ((dat2 V c).after 3 t) from by
        unfold Dat.leavesExact; rw [liveAt2_3 t], after2_3]
      rw [show (dat2 V c).leavesExact 4 t = owns (c : Thread nD τ) (ms2_4 t) fullShare ((dat2 V c).after 4 t) from by
        unfold Dat.leavesExact; rw [liveAt2_4 t], after2_4]
      rw [Dat.leavesExact_idle (dat2 V c) 5 t (idleAt2_5 t (fun h => h1 ((hcond2_1 t).mp h))) (noFlush2_5 t (fun h => h1 ((hcond2_1 t).mp h)))]
      rw [accAt2_pos V c t h0]
      rw [PhiS2_castSucc V c t, PhiS2_pos V c _ _ h0]
      iintro ⟨⟨⟨HR, HS⟩, Hg⟩, Ho, ⟨%d0, H0⟩, ⟨%d1, H1⟩, ⟨%d2, H2⟩, ⟨%d3, H3⟩, ⟨%d4, H4⟩, ⟨%d5, H5⟩⟩
      iapply (kernelRun2_B c (grid2.coords t) _ _ _ _ _ _ _ _ _ _ _ _ _ _ (fun h => h0 ((hcond2_0 t).mp h)) (fun h => h1 ((hcond2_1 t).mp h)) (iblk2 V c 0 t) (iblk2 V c 1 t) (iblk2 V c 2 t) (iblk2 V c 3 t) (iblk2 V c 4 t) _ _ Set.univ _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, HS⟩
      isplitl [HR HS Hg]
      · isplitr [Hg]
        · isplitl [HR]; · iexact HR
          iexact HS
        · iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The library's body obligation, at every tile. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.K_Run.lean ====
/-
  The three kernel regions as segments of @main, and the program's run. Each region's proof data is taken at the
  buffers' contents when the region is entered; what a region leaves in its arrays is what its write-backs leave (the
  inputs as entered, the output's blocks folded), and the contents after the region are those before it with the output
  array replaced. The launch makes, on every core, the unscoped buffers held at the launch memory beside the generator
  register and the core owing nothing; that rest rides unchanged through every host stretch and is lent to each region's
  body invariant and taken back.
-/
import proofs.«428559_j43585328120189_1_alg».proof.Proof.K_RunCond
import proofs.«428559_j43585328120189_1_alg».proof.Proof.K_Reg0
import proofs.«428559_j43585328120189_1_alg».proof.Proof.K_Reg1
import proofs.«428559_j43585328120189_1_alg».proof.Proof.K_Reg2IO
import proofs.«428559_j43585328120189_1_alg».proof.Proof.K_Reg2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents the regions are entered from and leave -/

/-- Region 0 is entered from the launch memory after the first four host stretches. -/
abbrev Ve0 : (c : Dev nD) → (b : Ref sig .tc) → Buf (Elt F) ((c : Thread nD τ).loc b) := fun c b => V4 m c b
/-- At region 0's exit: its arrays at what the pipeline leaves, every other buffer as entered. -/
def Wx0 (c : Dev nD) : Valuation τ sig (Elt F) :=
  Pipeline.withArrays spec0 c (V4 m c) fun w => (dat0 (Ve0 m) c).arrAt w cfg0.N
/-- What region 0 leaves, as the family the generated valuations are written over (only `main_v31` is read of it). -/
def outsA : Outs (F := F) := fun _ r c => Wx0 m c (Proc.devRef .tc r)
/-- Region 1 is entered after the next four host stretches. -/
abbrev Ve1 : (c : Dev nD) → (b : Ref sig .tc) → Buf (Elt F) ((c : Thread nD τ).loc b) := fun c b => V9 m (outsA m) c b
def Wx1 (c : Dev nD) : Valuation τ sig (Elt F) :=
  Pipeline.withArrays spec1 c (V9 m (outsA m) c) fun w => (dat1 (Ve1 m) c).arrAt w cfg1.N
/-- What regions 0 and 1 leave (item 5: `main_v31`; item 10: `main_v51`). -/
def outsB : Outs (F := F) := fun J r c => if J = 5 then Wx0 m c (Proc.devRef .tc r) else Wx1 m c (Proc.devRef .tc r)
/-- Region 2 is entered after the last seven host stretches. -/
abbrev Ve2 : (c : Dev nD) → (b : Ref sig .tc) → Buf (Elt F) ((c : Thread nD τ).loc b) := fun c b => V17 m (outsB m) c b
def Wx2 (c : Dev nD) : Valuation τ sig (Elt F) :=
  Pipeline.withArrays spec2 c (V17 m (outsB m) c) fun w => (dat2 (Ve2 m) c).arrAt w cfg2.N
/-- What the three regions leave (item 5: `main_v31`; item 10: `main_v51`; item 18: `main_v82`). -/
def outs : Outs (F := F) := fun J r c =>
  if J = 5 then Wx0 m c (Proc.devRef .tc r) else if J = 10 then Wx1 m c (Proc.devRef .tc r) else Wx2 m c (Proc.devRef .tc r)

/-- The valuations before region 1 and before region 2 read the family only at the items already fixed: the family is
    read at item 5 for `main_v31` and at item 10 for `main_v51`, where the staged families agree. -/
theorem V5_outs (c : Dev nD) : V5 m (outs m) c = V5 m (outsA m) c := rfl
theorem V5_outsB (c : Dev nD) : V5 m (outsB m) c = V5 m (outsA m) c := rfl
theorem V9_outs (c : Dev nD) : V9 m (outs m) c = V9 m (outsA m) c :=
  congrArg (fun W => StableHlo.after hostOps1_3 (StableHlo.after hostOps1_2 (StableHlo.after hostOps1_1 (StableHlo.after hostOps1 W)))) (V5_outs m c)
theorem V9_outsB (c : Dev nD) : V9 m (outsB m) c = V9 m (outsA m) c :=
  congrArg (fun W => StableHlo.after hostOps1_3 (StableHlo.after hostOps1_2 (StableHlo.after hostOps1_1 (StableHlo.after hostOps1 W)))) (V5_outsB m c)
theorem V10_outs (c : Dev nD) : V10 m (outs m) c = V10 m (outsB m) c := by
  show Function.update (V9 m (outs m) c) (Proc.devRef .tc main_v51) (outs m 10 main_v51 c) = Function.update (V9 m (outsB m) c) (Proc.devRef .tc main_v51) (outsB m 10 main_v51 c)
  rw [V9_outs, V9_outsB]; rfl
theorem V17_outs (c : Dev nD) : V17 m (outs m) c = V17 m (outsB m) c :=
  congrArg (fun W => StableHlo.after hostOps2_6 (StableHlo.after hostOps2_5 (StableHlo.after hostOps2_4 (StableHlo.after hostOps2_3 (StableHlo.after hostOps2_2 (StableHlo.after hostOps2_1 (StableHlo.after hostOps2 W))))))) (V10_outs m c)

/-- The contents after each region, read at the TensorCore's references. -/
abbrev Vx0 : (c : Dev nD) → (b : Ref sig .tc) → Buf (Elt F) ((c : Thread nD τ).loc b) := fun c b => V5 m (outs m) c b
abbrev Vx1 : (c : Dev nD) → (b : Ref sig .tc) → Buf (Elt F) ((c : Thread nD τ).loc b) := fun c b => V10 m (outs m) c b
abbrev Vx2 : (c : Dev nD) → (b : Ref sig .tc) → Buf (Elt F) ((c : Thread nD τ).loc b) := fun c b => V18 m (outs m) c b

/-! ## The proof data family and the rest that rides along -/

/-- Every pipeline's proof data, each at its region's entry contents: a literal match, so that the pinned
    configuration at a numeral reduces to the printed one. -/
def pdats : (p : Fin 3) → (c : Dev nD) → Dat τ (Elt F) Unit ℕ (UR sig nD τ) ℕ (cfgs p) c
  | ⟨0, _⟩ => fun c => dat0 (Ve0 m) c
  | ⟨1, _⟩ => fun c => dat1 (Ve1 m) c
  | ⟨2, _⟩ => fun c => dat2 (Ve2 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state and the core owing nothing. -/
abbrev R (c : Dev nD) : sProp 𝕄 := iprop((∃ r, prngReg c r) ∗ ∃ W, owes (c : Thread nD τ) (0 : CellTallies nD τ sig Unit) W)

/-! ## Each region's arrays at its exit -/

/-- An input window's array is as entered; no later item before the region's exit writes it. -/
theorem hF0_in (c : Dev nD) (w : Fin cfg0.W) (hin : (cfg0.win w).isOut = false) (hne : Pipeline.arrRef spec0 w ∉ ([main_v31] : List (Ref sig .tc))) :
    (dat0 (Ve0 m) c).arrAt w cfg0.N = V5 m (outs m) c (Pipeline.arrRef spec0 w) :=
  ((dat0 (Ve0 m) c).arrAt_in w hin _).trans ((A_eq0 (Ve0 m) c w).trans (V5_of m (outs m) c _ hne).symm)
theorem hF0_out (c : Dev nD) : (dat0 (Ve0 m) c).arrAt 2 cfg0.N = V5 m (outs m) c main_v31 := by
  show _ = Function.update (V4 m c) (Proc.devRef .tc main_v31) (Wx0 m c (Proc.devRef .tc main_v31)) (Proc.devRef .tc main_v31)
  rw [Function.update_self]; unfold Wx0
  exact (Pipeline.withArrays_arr spec0 launch0.win.arr_inj c (V4 m c) (fun w => (dat0 (Ve0 m) c).arrAt w cfg0.N) 2).symm
/-- After region 0 its output array holds the folded write-backs and its two input arrays what they held. -/
theorem hF0 (c : Dev nD) (w : Fin cfg0.W) : (pdats m 0 c).arrAt w cfg0.N = Vx0 m c (Pipeline.arrRef spec0 w) := by
  show (dat0 (Ve0 m) c).arrAt w cfg0.N = V5 m (outs m) c (Pipeline.arrRef spec0 w)
  match w with
  | ⟨0, _⟩ => exact hF0_in m c 0 rfl (by decide)
  | ⟨1, _⟩ => exact hF0_in m c 1 rfl (by decide)
  | ⟨2, _⟩ => exact hF0_out m c
theorem hrest0 (c : Dev nD) : ∀ b, b ∉ Finset.univ.image (Pipeline.arrRef spec0) → Vx0 m c b = Ve0 m c b := fun b hb =>
  V5_of m (outs m) c b (fun h => hb (Finset.mem_image.mpr ⟨2, Finset.mem_univ _, (List.mem_singleton.mp h).symm⟩))

theorem hF1_in (c : Dev nD) (w : Fin cfg1.W) (hin : (cfg1.win w).isOut = false) (hne : Pipeline.arrRef spec1 w ∉ ([main_v51] : List (Ref sig .tc))) :
    (dat1 (Ve1 m) c).arrAt w cfg1.N = V10 m (outs m) c (Pipeline.arrRef spec1 w) :=
  ((dat1 (Ve1 m) c).arrAt_in w hin _).trans ((A_eq1 (Ve1 m) c w).trans ((congrFun (V9_outs m c) _).symm.trans (V10_of m (outs m) c _ hne).symm))
theorem hF1_out (c : Dev nD) : (dat1 (Ve1 m) c).arrAt 2 cfg1.N = V10 m (outs m) c main_v51 := by
  show _ = Function.update (V9 m (outs m) c) (Proc.devRef .tc main_v51) (Wx1 m c (Proc.devRef .tc main_v51)) (Proc.devRef .tc main_v51)
  rw [Function.update_self]; unfold Wx1
  exact (Pipeline.withArrays_arr spec1 launch1.win.arr_inj c (V9 m (outsA m) c) (fun w => (dat1 (Ve1 m) c).arrAt w cfg1.N) 2).symm
theorem hF1 (c : Dev nD) (w : Fin cfg1.W) : (pdats m 1 c).arrAt w cfg1.N = Vx1 m c (Pipeline.arrRef spec1 w) := by
  show (dat1 (Ve1 m) c).arrAt w cfg1.N = V10 m (outs m) c (Pipeline.arrRef spec1 w)
  match w with
  | ⟨0, _⟩ => exact hF1_in m c 0 rfl (by decide)
  | ⟨1, _⟩ => exact hF1_in m c 1 rfl (by decide)
  | ⟨2, _⟩ => exact hF1_out m c
theorem hrest1 (c : Dev nD) : ∀ b, b ∉ Finset.univ.image (Pipeline.arrRef spec1) → Vx1 m c b = Ve1 m c b := fun b hb =>
  (V10_of m (outs m) c b (fun h => hb (Finset.mem_image.mpr ⟨2, Finset.mem_univ _, (List.mem_singleton.mp h).symm⟩))).trans (congrFun (V9_outs m c) _)

theorem hF2_in (c : Dev nD) (w : Fin cfg2.W) (hin : (cfg2.win w).isOut = false) (hne : Pipeline.arrRef spec2 w ∉ ([main_v82] : List (Ref sig .tc))) :
    (dat2 (Ve2 m) c).arrAt w cfg2.N = V18 m (outs m) c (Pipeline.arrRef spec2 w) :=
  ((dat2 (Ve2 m) c).arrAt_in w hin _).trans ((A_eq2 (Ve2 m) c w).trans ((congrFun (V17_outs m c) _).symm.trans (V18_of m (outs m) c _ hne).symm))
theorem hF2_out (c : Dev nD) : (dat2 (Ve2 m) c).arrAt 5 cfg2.N = V18 m (outs m) c main_v82 := by
  show _ = Function.update (V17 m (outs m) c) (Proc.devRef .tc main_v82) (Wx2 m c (Proc.devRef .tc main_v82)) (Proc.devRef .tc main_v82)
  rw [Function.update_self]; unfold Wx2
  exact (Pipeline.withArrays_arr spec2 launch2.win.arr_inj c (V17 m (outsB m) c) (fun w => (dat2 (Ve2 m) c).arrAt w cfg2.N) 5).symm
theorem hF2 (c : Dev nD) (w : Fin cfg2.W) : (pdats m 2 c).arrAt w cfg2.N = Vx2 m c (Pipeline.arrRef spec2 w) := by
  show (dat2 (Ve2 m) c).arrAt w cfg2.N = V18 m (outs m) c (Pipeline.arrRef spec2 w)
  match w with
  | ⟨0, _⟩ => exact hF2_in m c 0 rfl (by decide)
  | ⟨1, _⟩ => exact hF2_in m c 1 rfl (by decide)
  | ⟨2, _⟩ => exact hF2_in m c 2 rfl (by decide)
  | ⟨3, _⟩ => exact hF2_in m c 3 rfl (by decide)
  | ⟨4, _⟩ => exact hF2_in m c 4 rfl (by decide)
  | ⟨5, _⟩ => exact hF2_out m c
theorem hrest2 (c : Dev nD) : ∀ b, b ∉ Finset.univ.image (Pipeline.arrRef spec2) → Vx2 m c b = Ve2 m c b := fun b hb =>
  (V18_of m (outs m) c b (fun h => hb (Finset.mem_image.mpr ⟨5, Finset.mem_univ _, (List.mem_singleton.mp h).symm⟩))).trans (congrFun (V17_outs m c) _)

/-- The body's invariant of region 2 before its first point takes the generator register and the scoped buffers no
    window stages, and gives them back after its last. -/
theorem PhiA_join2 (c : Dev nD) (P : sProp 𝕄) :
    (iprop((∃ r, prngReg c r) ∗ P ∗ Pipeline.scopedRest spec2 c) : sProp 𝕄) ⊢ Pipeline.ΦA spec2 c := by
  unfold Pipeline.ΦA
  iintro ⟨Hp, -, Hr⟩
  isplitl [Hr]; · iexact Hr
  iexact Hp
theorem PhiA_split2 (c : Dev nD) :
    (Pipeline.ΦA spec2 c : sProp 𝕄) ⊢ iprop((∃ r, prngReg c r) ∗ BI.emp ∗ Pipeline.scopedRest spec2 c) := by
  unfold Pipeline.ΦA
  iintro ⟨Hr, Hp⟩
  isplitl [Hp]; · iexact Hp
  isplitr; · iempintro
  iexact Hr

/-! ## The regions as segments -/

-- `iapply` of a library lemma stated over the pinned configuration unifies only when unification may unfold plain
-- definitions in a metavariable's type
set_option backward.isDefEq.respectTransparency.types false in
/-- Region 0 as a segment: entered from every unscoped buffer at the contents before it, left at the contents after it.
    Its arrays are split out of the unscoped buffers and put back at what the write-backs leave; the generator register
    goes into the body's invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Ve0 m) c).loose
  hwaits := Pipeline.hwaits_of_owed_zero _ _ _ _ L lv 0 fun _ _ => rfl
  pre c := iprop(StableHlo.held (c : Thread nD τ) (Pipeline.ucRefs τ sig) (V4 m c) ∗ R c)
  post c := iprop(StableHlo.held (c : Thread nD τ) (Pipeline.ucRefs τ sig) (V5 m (outs m) c) ∗ R c)
  X c := iprop(∃ r, prngReg c r)
  Y c := iprop(∃ r, prngReg c r)
  Z c := Pipeline.unscopedRest (Ix := Unit) (Name := ℕ) (U := UR sig nD τ) (Lvl := ℕ) spec0 c (Ve0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Ve0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Ve0 m c) (Vx0 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over the pinned configuration unifies only when unification may unfold plain
-- definitions in a metavariable's type
set_option backward.isDefEq.respectTransparency.types false in
/-- Region 1 as a segment: entered from every unscoped buffer at the contents before it, left at the contents after it.
    Its arrays are split out of the unscoped buffers and put back at what the write-backs leave; the generator register
    goes into the body's invariant and comes back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Ve1 m) c).loose
  hwaits := Pipeline.hwaits_of_owed_zero _ _ _ _ L lv 1 fun _ _ => rfl
  pre c := iprop(StableHlo.held (c : Thread nD τ) (Pipeline.ucRefs τ sig) (V9 m (outs m) c) ∗ R c)
  post c := iprop(StableHlo.held (c : Thread nD τ) (Pipeline.ucRefs τ sig) (V10 m (outs m) c) ∗ R c)
  X c := iprop(∃ r, prngReg c r)
  Y c := iprop(∃ r, prngReg c r)
  Z c := Pipeline.unscopedRest (Ix := Unit) (Name := ℕ) (U := UR sig nD τ) (Lvl := ℕ) spec1 c (Ve1 m c)
  hentry c := by
    rw [Pipeline.ownSems0_none]
    rw [V9_outs m c]
    have hsplit := Pipeline.arrays_of_unscopedBufs (p := 1) (pcfgs (F := F)) adm (pdats m) launch1.win launch1.arr_whole c
      ((pdats m 1 c).share_full fun _ => rfl) (Ve1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Ve1 m c) (Vx1 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over the pinned configuration unifies only when unification may unfold plain
-- definitions in a metavariable's type
set_option backward.isDefEq.respectTransparency.types false in
/-- Region 2 as a segment: entered from every unscoped buffer at the contents before it, left at the contents after it.
    Its arrays are split out of the unscoped buffers and put back at what the write-backs leave; the generator register
    goes into the body's invariant and comes back; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (Ve2 m) c).loose
  hwaits := Pipeline.hwaits_of_owed_zero _ _ _ _ L lv 2 fun _ _ => rfl
  pre c := iprop(StableHlo.held (c : Thread nD τ) (Pipeline.ucRefs τ sig) (V17 m (outs m) c) ∗ R c)
  post c := iprop(StableHlo.held (c : Thread nD τ) (Pipeline.ucRefs τ sig) (V18 m (outs m) c) ∗ R c)
  X c := iprop(∃ r, prngReg c r)
  Y c := iprop(∃ r, prngReg c r)
  Z c := Pipeline.unscopedRest (Ix := Unit) (Name := ℕ) (U := UR sig nD τ) (Lvl := ℕ) spec2 c (Ve2 m c)
  hentry c := by
    rw [Pipeline.ownSems0_none]
    rw [V17_outs m c]
    have hsplit := Pipeline.arrays_of_unscopedBufs (p := 2) (pcfgs (F := F)) adm (pdats m) launch2.win launch2.arr_whole c
      ((pdats m 2 c).share_full fun _ => rfl) (Ve2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (PhiA_join2 c _).trans (hin2 (Ve2 m) c)
  hout c := by
    rw [Pipeline.ownSems0_none]
    exact (hout2 (Ve2 m) c).trans (PhiA_split2 c)
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (Ve2 m c) (Vx2 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The launch -/

/-- The launch element: the pipeline library's own, at every pipeline's staging cells. -/
abbrev u₀ : UR sig nD τ := initOf (Pipeline.cells cfgs cellOf_inj) (Pipeline.launchToks cfgs cellOf_inj)

theorem hu₀ : (ownU (u₀) : sProp 𝕄) ⊢ |={Set.univ}=> iprop(BI.own (emb₁ (initOf (Pipeline.cells cfgs cellOf_inj) (Pipeline.launchToks cfgs cellOf_inj))) ∗ bigSep Finset.univ (fun _ : Dev nD => (BI.emp : sProp 𝕄))) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

/-- From what the launch deals a core — its unscoped semaphores at zero, the core owing nothing, its launch credit, the
    generator register — the rest that rides along: the register at some state, the core owing nothing. -/
theorem hE0 : iprop((bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (BI.emp : sProp 𝕄))) ∗ levAts L lv)
      ⊢ (|={Set.univ}=> bigSep Finset.univ (fun c : Dev nD => R (F := F) c) : sProp 𝕄) := by
  refine Pipeline.initEach L lv fun c => ?_
  iintro ⟨⟨-, HO, -, Hp, -⟩, -⟩
  imodintro
  isplitl [Hp]; · iexists _; iexact Hp
  iexists ∅; iexact HO

theorem hE3 (c : Dev nD) : R (F := F) c ⊢ (iprop(∃ W, owes (c : Thread nD τ) (0 : CellTallies nD τ sig Unit) W) : sProp 𝕄) := by
  iintro ⟨-, HO⟩; iexact HO

/-! ## The run -/

/-- Every weakly fair execution of @main terminates; the result buffer ends at what region 2's write-back leaves in it
    and every argument buffer as launched. -/
theorem run_main : θ_run defs (onTc (τ := τ) (main (F := F))) ⟨m, fun _ => 0, ρ⟩ (fun r => ∀ c : Dev nD,
      r.2.mem ((c.tc : Thread nD τ).loc main_v82) = (dat2 (Ve2 m) c).arrAt 5 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨(h c).1.trans (hF2_out m c).symm, (h c).2⟩)
    (run_cond m (emb₁ : Emb _ 𝕄) () 𝒱₀ L lv (fun _ _ => rfl) ρ (outs m) (pdats m) 0 (fun _ => (BI.emp : sProp 𝕄)) u₀ hu₀
      (fun _ c => R c) (hE0 ρ) hE3
      (reg0 m) (fun _ => .rfl) (fun _ => .rfl) (reg1 m) (fun _ => .rfl) (fun _ => .rfl) (reg2 m) (fun _ => .rfl) (fun _ => .rfl))

/-- The frame: every weakly fair execution of @main terminates and the argument buffers end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => (h c).2) (run_main m ρ)

end Cert.Kernel.Hand

end
-- ==== Proof.KI_RunCond.lean ====
/-
  @main's run with the result buffer named. The program is three kernel regions among stretches of host operations;
  between two items every unscoped buffer of the TensorCore is held whole at a valuation: the launch contents, then each
  host stretch's operations applied, then what a region leaves in its output array. The conditional frame reads the
  argument buffers off the last valuation; the value claim also needs the RESULT's buffer, read off the same valuation.
-/
import proofs.«428559_j43585328120189_1_alg».proof.Proof.Gen.KernelIdeal.Regions
import Idealize.ShloMosaic.Lib.Pipeline.Frame
import Idealize.ShloMosaic.Lib.Pipeline.Regions

-- decided memberships and the launch's enumerations over 143 references recurse past the default depth
set_option maxRecDepth 1084

noncomputable section

namespace Cert.KernelIdeal.Hand

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

variable (m : (ℓ : Loc nD τ sig) → Buf (Elt F) ℓ)

-- `θ_run_regions_kit_dev`'s implicit arguments are found by unifying its conclusion with this one, which takes unfolding
-- plain definitions in a metavariable's type
set_option backward.isDefEq.respectTransparency.types false in
/-- The run of @main with its RESULT named: under the same hypotheses as the conditional frame — per region a segment
    record entered from the buffers' contents before it and left at the contents after it — every weakly fair execution
    of @main terminates, the result buffer `main_v82` ends at what the last valuation holds there (what region 2 leaves in
    it) and every argument buffer as launched. The launch over the segment list is the conditional frame's; only the
    reading of the last thread state differs: the result's buffer is read beside the arguments'. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 3) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 4 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE3 : ∀ c : Dev nD, E 3 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V4 m c) ∗ E 0 c) ⊢ R0.pre c)
    (hpost0 : ∀ c : Dev nD, R0.post c ⊢ iprop(StableHlo.held (c : Thread nD τ) (Pipeline.ucRefs τ sig) (V5 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V9 m outs c) ∗ E 1 c) ⊢ R1.pre c)
    (hpost1 : ∀ c : Dev nD, R1.post c ⊢ iprop(StableHlo.held (c : Thread nD τ) (Pipeline.ucRefs τ sig) (V10 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V17 m outs c) ∗ E 2 c) ⊢ R2.pre c)
    (hpost2 : ∀ c : Dev nD, R2.post c ⊢ iprop(StableHlo.held (c : Thread nD τ) (Pipeline.ucRefs τ sig) (V18 m outs c) ∗ E 3 c)) :
    θ_run defs (onTc (τ := τ) (main (F := F))) ⟨m, fun _ => 0, ρ⟩ (fun r => ∀ c : Dev nD,
      r.2.mem ((c.tc : Thread nD τ).loc main_v82) = V18 m outs c main_v82
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) := by
  refine Pipeline.θ_run_regions_kit_dev (pcfgs (F := F)) adm pdats ι cellOf_inj EP defs₀ 𝒱₀ L lv m ρ main
    (segs m outs 𝒱₀ L lv E ι pdats R0 R1 R2)
    (fun c Q => by
      rewrite [main_chain c, Seg.run_eq_chain,
        show (segs m outs 𝒱₀ L lv E ι pdats R0 R1 R2 c).map Seg.prog = [
          StableHlo.seq hostOps0,
          StableHlo.seq hostOps0_1,
          StableHlo.seq hostOps0_2,
          StableHlo.seq hostOps0_3,
          Prog.lift (.customCall (Pipeline.entry 0) ()),
          StableHlo.seq hostOps1,
          StableHlo.seq hostOps1_1,
          StableHlo.seq hostOps1_2,
          StableHlo.seq hostOps1_3,
          Prog.lift (.customCall (Pipeline.entry 1) ()),
          StableHlo.seq hostOps2,
          StableHlo.seq hostOps2_1,
          StableHlo.seq hostOps2_2,
          StableHlo.seq hostOps2_3,
          StableHlo.seq hostOps2_4,
          StableHlo.seq hostOps2_5,
          StableHlo.seq hostOps2_6,
          Prog.lift (.customCall (Pipeline.entry 2) ()) ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V18 m outs c))
    (hch := fun c => ⟨.rfl, .rfl, .rfl, .rfl, hpre0 c, hpost0 c, .rfl, .rfl, .rfl, hpre1 c, hpost1 c, .rfl, .rfl, .rfl, .rfl, .rfl, .rfl, hpre2 c, (hpost2 c).trans (sep_mono .rfl (hE3 c))⟩)
    (hinit := ?_) (QY := fun c s => s.mem ((c.tc : Thread nD τ).loc main_v82) = V18 m outs c main_v82 ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6) ∧ s.mem ((c.tc : Thread nD τ).loc main_arg7) = m ((c.tc : Thread nD τ).loc main_arg7) ∧ s.mem ((c.tc : Thread nD τ).loc main_arg8) = m ((c.tc : Thread nD τ).loc main_arg8))
    (hfin := fun c s' => ?_) (hQ := fun _ h => h)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: each argument's buffer read off the last valuation
    unfold StableHlo.held
    iintro ⟨Hh, HSI⟩
    ihave Hr := (pointsTo_read_all (Pipeline.ucRefs τ sig) (fun b => ((c : Thread nD τ).1, b)) (V18 m outs c) s') $$ [Hh HSI]
    · isplitl [Hh] <;> iassumption
    icases Hr with ⟨%h, HSI⟩
    imodintro
    isplitr
    · ipureintro
      exact ⟨h (Proc.devRef .tc main_v82) (Finset.mem_filter.mpr ⟨StableHlo.devRef_mem_tcRefs main_v82, by decide⟩),
        (h (Proc.devRef .tc main_arg0) (Finset.mem_filter.mpr ⟨StableHlo.devRef_mem_tcRefs main_arg0, by decide⟩)).trans (V18_main_arg0 m outs c),
        (h (Proc.devRef .tc main_arg1) (Finset.mem_filter.mpr ⟨StableHlo.devRef_mem_tcRefs main_arg1, by decide⟩)).trans (V18_main_arg1 m outs c),
        (h (Proc.devRef .tc main_arg2) (Finset.mem_filter.mpr ⟨StableHlo.devRef_mem_tcRefs main_arg2, by decide⟩)).trans (V18_main_arg2 m outs c),
        (h (Proc.devRef .tc main_arg3) (Finset.mem_filter.mpr ⟨StableHlo.devRef_mem_tcRefs main_arg3, by decide⟩)).trans (V18_main_arg3 m outs c),
        (h (Proc.devRef .tc main_arg4) (Finset.mem_filter.mpr ⟨StableHlo.devRef_mem_tcRefs main_arg4, by decide⟩)).trans (V18_main_arg4 m outs c),
        (h (Proc.devRef .tc main_arg5) (Finset.mem_filter.mpr ⟨StableHlo.devRef_mem_tcRefs main_arg5, by decide⟩)).trans (V18_main_arg5 m outs c),
        (h (Proc.devRef .tc main_arg6) (Finset.mem_filter.mpr ⟨StableHlo.devRef_mem_tcRefs main_arg6, by decide⟩)).trans (V18_main_arg6 m outs c),
        (h (Proc.devRef .tc main_arg7) (Finset.mem_filter.mpr ⟨StableHlo.devRef_mem_tcRefs main_arg7, by decide⟩)).trans (V18_main_arg7 m outs c),
        (h (Proc.devRef .tc main_arg8) (Finset.mem_filter.mpr ⟨StableHlo.devRef_mem_tcRefs main_arg8, by decide⟩)).trans (V18_main_arg8 m outs c)⟩
    · iexact HSI

end Cert.KernelIdeal.Hand

end
-- ==== Proof.KI_Reg0.lean ====
/- REGION 0 of @main (pipeline 0: a row-tile linear map, left operand times weight matrix, 49 row tiles of 2048 rows), at a
   PARAMETER `V`: the TensorCore's buffer contents when the region is entered.

   Three windows. Window 0 is the row tile of the left operand (block 2048×128 at block index (i, 0)), moved in at
   every point; window 1 is the whole weight matrix (128×128, a constant block index), moved in at the first point only; window 2 is the
   row tile of the result, written back at every point. The body reads the two input buffers whole, reads the
   result buffer (a value it never uses) and then overwrites the whole of it with the product of the two blocks
   rounded to bf16 and accumulated in f32 (`k0_pay1`). So what the body leaves in the result buffer is a closed
   function of the two input blocks at the point (`out0_2`, equal to the payload `k0_pay1`: `out0_2_eq`), and what
   it finds in an input buffer is that window's block at the point whether or not the block was moved in there
   (an input whose block index has not moved still holds the block of the point before, which is this point's).

   Every statement is generic in the float family `F`. -/
import proofs.«428559_j43585328120189_1_alg».proof.Proof.Gen.KernelIdeal.Launch
import proofs.«428559_j43585328120189_1_alg».proof.Proof.Gen.KernelIdeal.Skeleton
import proofs.«428559_j43585328120189_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic
import Mathlib.Tactic.FinCases

-- membership in a rectangle with a 2048-long axis is decided by a recursion once per coordinate of that axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`: its array, as the region finds it (`V`), read through the block's view. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The buffer of window 0 (the row tile of the left operand) holds the tile at every point, for any proof data whose array for the
    window is `V`'s (`hA`) and whose body leaves the tile in place (`hafter`). The window is an input, uncut and
    never idle; where it is moved in the buffer holds what was moved, and where it is not the block index has not
    moved since the point before. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t := by
  have hkeep : ∀ t, (cfg0.win 0).cut (cfg0.grid.coords t) (dat.after 0 t) = dat.blockOf 0 t := fun t => by
    rw [hafter]; unfold Dat.blockOf iblk0; rw [hA]; try rfl
  refine (dat.before_in_eq_fetched 0 rfl (fun _ => rfl) (fun _ _ _ => rfl) hkeep t d).trans ?_
  unfold Dat.fetched Dat.blockOf iblk0; rw [hA]; try rfl

/-- The buffer of window 1 (the whole weight matrix) holds it at every point, under the same two hypotheses. The window is
    moved in at the first point only: its block index is constant, so at every later point the buffer still holds
    the block of the point before, which is the same block. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t := by
  have hkeep : ∀ t, (cfg0.win 1).cut (cfg0.grid.coords t) (dat.after 1 t) = dat.blockOf 1 t := fun t => by
    rw [hafter]; unfold Dat.blockOf iblk0; rw [hA]; try rfl
  refine (dat.before_in_eq_fetched 1 rfl (fun _ => rfl) (fun _ _ _ => rfl) hkeep t d).trans ?_
  unfold Dat.fetched Dat.blockOf iblk0; rw [hA]; try rfl

/-! ## The body's accesses: each buffer whole, through the rectangle of its own extents at offset zero -/

abbrev r0_0 : Rect S2048x128 := Rect.unit (s := S2048x128) ![0, 0] S2048x128.size inb_S2048x128_S2048x128_0_0
abbrev r0_1 : Rect S128x128 := Rect.unit (s := S128x128) ![0, 0] S128x128.size inb_S128x128_S128x128_0_0
abbrev r0_2 : Rect S2048x128 := Rect.unit (s := S2048x128) ![0, 0] S2048x128.size inb_S2048x128_S2048x128_0_0

/-! ## What the body leaves in the result window's buffer -/

/-- The result buffer after the body, from the two input blocks: the contents its one store leaves, the payload
    `k0_pay1` of the two loaded blocks laid through the store's rectangle. -/
def out0_2 (x0 : Vec F S2048x128 .f32) (x1 : Vec F S128x128 .f32) : Vec F S2048x128 .f32 :=
  View.canon [⟨r0_2, k0_pay1 (View.ld x0 r0_0) (View.ld x1 r0_1)⟩]

/-- The one store's rectangle is the whole buffer, so it covers it. -/
theorem cover0_2 (p0 : Vec F S2048x128 .f32) (y : S2048x128.Idx) :
    ∃ pc ∈ ([⟨r0_2, p0⟩] : List (View.Piece (Elt F) S2048x128 .f32)), y ∈ pc.1.set :=
  View.cover_of_tiled [⟨r0_2, p0⟩] S2048x128.size (by rfl) y

/-- A load through the whole-buffer rectangle reads the contents and the one covering store leaves its payload: the
    result buffer after the body is the payload of the two input blocks. -/
theorem out0_2_eq (x0 : Vec F S2048x128 .f32) (x1 : Vec F S128x128 .f32) : out0_2 x0 x1 = k0_pay1 x0 x1 := by
  have hz0 : (![0, 0] : Fin S2048x128.rank → Nat) = fun _ => 0 := funext fun a => by fin_cases a <;> rfl
  have hz1 : (![0, 0] : Fin S128x128.rank → Nat) = fun _ => 0 := funext fun a => by fin_cases a <;> rfl
  unfold out0_2
  rw [View.canon_unit_zero hz0, View.ld_unit_zero hz0, View.ld_unit_zero hz1]

/-! ## The body's triple -/

set_option maxHeartbeats 1000000 in
/-- The body on whole buffers — the inputs' reading `x0` and `x1`, the result's holding anything — runs to a
    continuation that is handed the inputs' as they were and the result's at `out0_2 x0 x1`. The two input loads
    read `x0` and `x1`; the load of the result buffer reads a value no later operation uses; the store overwrites
    the whole buffer, so what any view reads of it afterwards is the canonical contents of the one piece. -/
theorem sound_kernel0 (c : Dev nD) (E : Set ℕ) (i : grid0.Coords)
    (arg1 : Memref sig .tc .vmem S2048x128 .f32) (harg1 : arg1.IsWhole)
    (arg2 : Memref sig .tc .vmem S128x128 .f32) (harg2 : arg2.IsWhole)
    (arg3 : Memref sig .tc .vmem S2048x128 .f32) (harg3 : arg3.IsWhole)
    (x0 : Vec F S2048x128 .f32) (x1 : Vec F S128x128 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__linear_kernel i arg1 harg1 arg2 harg2 arg3 harg3) K := by
  simp only [cc0__linear_kernel_eq_skeleton]; unfold cc0__linear_kernel_skel
  unfold owns
  iintro ⟨⟨%f1, %hf1, H1⟩, ⟨%f2, %hf2, H2⟩, ⟨%d3, %f3, -, H3⟩, Hk⟩
  subst hf1 hf2
  sl_exec
  sl_step
  iapply Hk
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_2 _)

/-! ## The pipeline's proof data -/

/-- The proof data of pipeline 0 on core `c`: the arrays as the region finds them (`V`); after the body at point
    `t` each input's buffer at its block and the result's at `out0_2` of the two input blocks; the invariant is the
    untouched rest (the scoped buffers and the generator register); nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input's buffer holds its block at every point, moved in there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`: the invariant, what is owed, and each window's current buffer at
    what the pipeline left in it, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns: the same invariant and debt, each buffer at the proof data's `after`. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the input buffers hold their blocks (`before0_0`, `before0_1`), so the body's triple
    applies at those blocks; the invariant and what is owed pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the pipeline, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI_Reg1.lean ====
/- REGION 1 of @main (pipeline 1: a row-tile linear map, left operand times weight matrix, 49 row tiles of 2048 rows), at a
   PARAMETER `V`: the TensorCore's buffer contents when the region is entered.

   Three windows. Window 0 is the row tile of the left operand (block 2048×128 at block index (i, 0)), moved in at
   every point; window 1 is the whole weight matrix (128×128, a constant block index), moved in at the first point only; window 2 is the
   row tile of the result, written back at every point. The body reads the two input buffers whole, reads the
   result buffer (a value it never uses) and then overwrites the whole of it with the product of the two blocks
   rounded to bf16 and accumulated in f32 (`k1_pay1`). So what the body leaves in the result buffer is a closed
   function of the two input blocks at the point (`out1_2`, equal to the payload `k1_pay1`: `out1_2_eq`), and what
   it finds in an input buffer is that window's block at the point whether or not the block was moved in there
   (an input whose block index has not moved still holds the block of the point before, which is this point's).

   Every statement is generic in the float family `F`. -/
import proofs.«428559_j43585328120189_1_alg».proof.Proof.Gen.KernelIdeal.Launch
import proofs.«428559_j43585328120189_1_alg».proof.Proof.Gen.KernelIdeal.Skeleton
import proofs.«428559_j43585328120189_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic
import Mathlib.Tactic.FinCases

-- membership in a rectangle with a 2048-long axis is decided by a recursion once per coordinate of that axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`: its array, as the region finds it (`V`), read through the block's view. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The buffer of window 0 (the row tile of the left operand) holds the tile at every point, for any proof data whose array for the
    window is `V`'s (`hA`) and whose body leaves the tile in place (`hafter`). The window is an input, uncut and
    never idle; where it is moved in the buffer holds what was moved, and where it is not the block index has not
    moved since the point before. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t := by
  have hkeep : ∀ t, (cfg1.win 0).cut (cfg1.grid.coords t) (dat.after 0 t) = dat.blockOf 0 t := fun t => by
    rw [hafter]; unfold Dat.blockOf iblk1; rw [hA]; try rfl
  refine (dat.before_in_eq_fetched 0 rfl (fun _ => rfl) (fun _ _ _ => rfl) hkeep t d).trans ?_
  unfold Dat.fetched Dat.blockOf iblk1; rw [hA]; try rfl

/-- The buffer of window 1 (the whole weight matrix) holds it at every point, under the same two hypotheses. The window is
    moved in at the first point only: its block index is constant, so at every later point the buffer still holds
    the block of the point before, which is the same block. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t := by
  have hkeep : ∀ t, (cfg1.win 1).cut (cfg1.grid.coords t) (dat.after 1 t) = dat.blockOf 1 t := fun t => by
    rw [hafter]; unfold Dat.blockOf iblk1; rw [hA]; try rfl
  refine (dat.before_in_eq_fetched 1 rfl (fun _ => rfl) (fun _ _ _ => rfl) hkeep t d).trans ?_
  unfold Dat.fetched Dat.blockOf iblk1; rw [hA]; try rfl

/-! ## The body's accesses: each buffer whole, through the rectangle of its own extents at offset zero -/

abbrev r1_0 : Rect S2048x128 := Rect.unit (s := S2048x128) ![0, 0] S2048x128.size inb_S2048x128_S2048x128_0_0
abbrev r1_1 : Rect S128x128 := Rect.unit (s := S128x128) ![0, 0] S128x128.size inb_S128x128_S128x128_0_0
abbrev r1_2 : Rect S2048x128 := Rect.unit (s := S2048x128) ![0, 0] S2048x128.size inb_S2048x128_S2048x128_0_0

/-! ## What the body leaves in the result window's buffer -/

/-- The result buffer after the body, from the two input blocks: the contents its one store leaves, the payload
    `k1_pay1` of the two loaded blocks laid through the store's rectangle. -/
def out1_2 (x0 : Vec F S2048x128 .f32) (x1 : Vec F S128x128 .f32) : Vec F S2048x128 .f32 :=
  View.canon [⟨r1_2, k1_pay1 (View.ld x0 r1_0) (View.ld x1 r1_1)⟩]

/-- The one store's rectangle is the whole buffer, so it covers it. -/
theorem cover1_2 (p0 : Vec F S2048x128 .f32) (y : S2048x128.Idx) :
    ∃ pc ∈ ([⟨r1_2, p0⟩] : List (View.Piece (Elt F) S2048x128 .f32)), y ∈ pc.1.set :=
  View.cover_of_tiled [⟨r1_2, p0⟩] S2048x128.size (by rfl) y

/-- A load through the whole-buffer rectangle reads the contents and the one covering store leaves its payload: the
    result buffer after the body is the payload of the two input blocks. -/
theorem out1_2_eq (x0 : Vec F S2048x128 .f32) (x1 : Vec F S128x128 .f32) : out1_2 x0 x1 = k1_pay1 x0 x1 := by
  have hz0 : (![0, 0] : Fin S2048x128.rank → Nat) = fun _ => 0 := funext fun a => by fin_cases a <;> rfl
  have hz1 : (![0, 0] : Fin S128x128.rank → Nat) = fun _ => 0 := funext fun a => by fin_cases a <;> rfl
  unfold out1_2
  rw [View.canon_unit_zero hz0, View.ld_unit_zero hz0, View.ld_unit_zero hz1]

/-! ## The body's triple -/

set_option maxHeartbeats 1000000 in
/-- The body on whole buffers — the inputs' reading `x0` and `x1`, the result's holding anything — runs to a
    continuation that is handed the inputs' as they were and the result's at `out1_2 x0 x1`. The two input loads
    read `x0` and `x1`; the load of the result buffer reads a value no later operation uses; the store overwrites
    the whole buffer, so what any view reads of it afterwards is the canonical contents of the one piece. -/
theorem sound_kernel1 (c : Dev nD) (E : Set ℕ) (i : grid1.Coords)
    (arg1 : Memref sig .tc .vmem S2048x128 .f32) (harg1 : arg1.IsWhole)
    (arg2 : Memref sig .tc .vmem S128x128 .f32) (harg2 : arg2.IsWhole)
    (arg3 : Memref sig .tc .vmem S2048x128 .f32) (harg3 : arg3.IsWhole)
    (x0 : Vec F S2048x128 .f32) (x1 : Vec F S128x128 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out1_2 x0 x1)) -∗ K ⟨⟩))
      ⊢ wp frame (wpE (defs₀ (F := F)) Variants.none c none) E (cc1__linear_kernel i arg1 harg1 arg2 harg2 arg3 harg3) K := by
  simp only [cc1__linear_kernel_eq_skeleton]; unfold cc1__linear_kernel_skel
  unfold owns
  iintro ⟨⟨%f1, %hf1, H1⟩, ⟨%f2, %hf2, H2⟩, ⟨%d3, %f3, -, H3⟩, Hk⟩
  subst hf1 hf2
  sl_exec
  sl_step
  iapply Hk
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_2 _)

/-! ## The pipeline's proof data -/

/-- The proof data of pipeline 1 on core `c`: the arrays as the region finds them (`V`); after the body at point
    `t` each input's buffer at its block and the result's at `out1_2` of the two input blocks; the invariant is the
    untouched rest (the scoped buffers and the generator register); nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

/-- Each input's buffer holds its block at every point, moved in there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point `t`: the invariant, what is owed, and each window's current buffer at
    what the pipeline left in it, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns: the same invariant and debt, each buffer at the proof data's `after`. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the input buffers hold their blocks (`before1_0`, `before1_1`), so the body's triple
    applies at those blocks; the invariant and what is owed pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the pipeline, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI_Reg2Defs.lean ====
import proofs.«428559_j43585328120189_1_alg».proof.Proof.Gen.KernelIdeal.Launch
import proofs.«428559_j43585328120189_1_alg».proof.Proof.Gen.KernelIdeal.Skeleton
import proofs.«428559_j43585328120189_1_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter everything below is stated at
variable (V : (c : Dev nD) → (b : Ref sig .tc) → Buf (Elt F) ((c : Thread nD τ).loc b))

/-! # Region 2: the pooling and classifier kernel over 49 row tiles, at the entry contents `V`

The kernel keeps a 64×128 accumulator in a scratch buffer across the grid: cleared at the first tile, at every tile
increased by the one-hot segment matrix (transposed) times the tile of node features, and at the last tile scaled row by
row by the reciprocal counts, multiplied by the classifier weights and offset by the bias into the 64×10 output. -/

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! ## The two conditions on the grid coordinate -/

/-- "This is the first tile": the condition under which the accumulator is cleared. -/
abbrev cond2_0 (i : grid2.Coords) : Prop := (Scalar.cmpi .ne (Scalar.extui (Scalar.cmpi .eq (BitVec.ofNat 32 (i 0).val) 0#32)) 0#32) = 1#1
/-- It holds at point 0 only. -/
theorem hcond2_0 : ∀ t : Fin cfg2.N, cond2_0 (grid2.coords t) ↔ t.val = 0 :=
  (by decide +kernel : ∀ t : Fin grid2.N, cond2_0 (grid2.coords t) ↔ t.val = 0)

/-- "This is the last tile": the condition under which the output is computed and stored. -/
abbrev cond2_1 (i : grid2.Coords) : Prop := k2_cond2 i = 1#1
/-- It holds at point 48 only. -/
theorem hcond2_1 : ∀ t : Fin cfg2.N, cond2_1 (grid2.coords t) ↔ t.val = 48 :=
  (by decide +kernel : ∀ t : Fin grid2.N, cond2_1 (grid2.coords t) ↔ t.val = 48)

/-! ## Where the windows are idle -/

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem liveAt2_3 : ∀ t : Fin cfg2.N, cfg2.idle 3 (grid2.coords t) = false := by decide +kernel
theorem liveAt2_4 : ∀ t : Fin cfg2.N, cfg2.idle 4 (grid2.coords t) = false := by decide +kernel
/-- Off the last tile nothing is stored into the output's buffer: the window is idle there, -/
theorem idleAt2_5 : ∀ t : Fin cfg2.N, ¬cond2_1 (grid2.coords t) → cfg2.idle 5 (grid2.coords t) = true := by decide +kernel
/-- and its block is not written back there. -/
theorem noFlush2_5 : ∀ t : Fin cfg2.N, ¬cond2_1 (grid2.coords t) → (cfg2.win 5).flush t = false := by decide +kernel
/-- At the last tile the output is stored: the window is live. -/
theorem liveAt2_5 : ∀ t : Fin cfg2.N, cond2_1 (grid2.coords t) → cfg2.idle 5 (grid2.coords t) = false := by decide +kernel

/-! ## The staging memrefs and the scratch -/

abbrev ms2_0 (t : Fin cfg2.N) : Memref sig .tc .vmem S2048x128 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S2048x1 .i32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S64x1 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S128x10 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S10 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S64x10 .f32 := win2_5.stage (cfg2.slots t 5)
abbrev hs2_5 (t : Fin cfg2.N) : (ms2_5 t).IsWhole := hstage2_5 ((cfg2.slots t 5).cast nbuf2_5)
/-- The accumulator: a whole scoped buffer of the kernel's own, passed beside the windows. -/
abbrev scM2 : Memref sig .tc .vmem S64x128 .f32 := Memref.whole cc2_scratch0

/-! ## What the accumulator holds after each tile -/

/-- The accumulator after tile `n`: the tile's contribution added to what the tile before left — to the cleared
    accumulator at the first tile. -/
def accAt2 (c : Dev nD) : (n : ℕ) → n < cfg2.N → Vec F S64x128 .f32
  | 0, h => k2_pay2 (iblk2 V c 0 ⟨0, h⟩) (iblk2 V c 1 ⟨0, h⟩) (k2_pay1 (F := F))
  | n + 1, h => k2_pay2 (iblk2 V c 0 ⟨n + 1, h⟩) (iblk2 V c 1 ⟨n + 1, h⟩) (accAt2 c n (Nat.lt_of_succ_lt h))

theorem accAt2_zero (c : Dev nD) (h : 0 < cfg2.N) :
    accAt2 V c 0 h = k2_pay2 (iblk2 V c 0 ⟨0, h⟩) (iblk2 V c 1 ⟨0, h⟩) (k2_pay1 (F := F)) := rfl

theorem accAt2_succ (c : Dev nD) (n : ℕ) (h : n + 1 < cfg2.N) :
    accAt2 V c (n + 1) h = k2_pay2 (iblk2 V c 0 ⟨n + 1, h⟩) (iblk2 V c 1 ⟨n + 1, h⟩) (accAt2 V c n (Nat.lt_of_succ_lt h)) := rfl

/-- The accumulator before tile `t`, when that is not the first. -/
theorem accAt2_pos (c : Dev nD) (t : Fin cfg2.N) (ht : t.val ≠ 0) :
    accAt2 V c t.val t.isLt = k2_pay2 (iblk2 V c 0 t) (iblk2 V c 1 t) (accAt2 V c (t.val - 1) (Nat.lt_of_le_of_lt (Nat.sub_le _ _) t.isLt)) := by
  obtain ⟨n, hn⟩ := t
  cases n with
  | zero => exact absurd rfl ht
  | succ n => rfl

/-- What the last tile's epilogue would make of the accumulator after tile `t`: the pooled rows scaled, through the
    classifier. The output window's buffer holds it after the last tile (the only one that stores it). -/
def out2_5 (c : Dev nD) (t : Fin cfg2.N) : Vec F S64x10 .f32 :=
  k2_pay3 (accAt2 V c t.val t.isLt) (iblk2 V c 2 t) (iblk2 V c 3 t) (iblk2 V c 4 t)

/-! ## The region invariant -/

/-- The core's scoped buffers that belong to the other two kernels' pipelines, each whole at some contents: this
    region never touches them. -/
def others2 (c : Dev nD) : sProp 𝕄 :=
  iprop((∃ f : Buf (Elt F) ((c : Thread nD τ).loc cc0_stg0_0), ((c : Thread nD τ).loc cc0_stg0_0) ↦{fullShare} f)
      ∗ (∃ f : Buf (Elt F) ((c : Thread nD τ).loc cc0_stg0_1), ((c : Thread nD τ).loc cc0_stg0_1) ↦{fullShare} f)
      ∗ (∃ f : Buf (Elt F) ((c : Thread nD τ).loc cc0_stg1_0), ((c : Thread nD τ).loc cc0_stg1_0) ↦{fullShare} f)
      ∗ (∃ f : Buf (Elt F) ((c : Thread nD τ).loc cc0_stg2_0), ((c : Thread nD τ).loc cc0_stg2_0) ↦{fullShare} f)
      ∗ (∃ f : Buf (Elt F) ((c : Thread nD τ).loc cc0_stg2_1), ((c : Thread nD τ).loc cc0_stg2_1) ↦{fullShare} f)
      ∗ (∃ f : Buf (Elt F) ((c : Thread nD τ).loc cc1_stg0_0), ((c : Thread nD τ).loc cc1_stg0_0) ↦{fullShare} f)
      ∗ (∃ f : Buf (Elt F) ((c : Thread nD τ).loc cc1_stg0_1), ((c : Thread nD τ).loc cc1_stg0_1) ↦{fullShare} f)
      ∗ (∃ f : Buf (Elt F) ((c : Thread nD τ).loc cc1_stg1_0), ((c : Thread nD τ).loc cc1_stg1_0) ↦{fullShare} f)
      ∗ (∃ f : Buf (Elt F) ((c : Thread nD τ).loc cc1_stg2_0), ((c : Thread nD τ).loc cc1_stg2_0) ↦{fullShare} f)
      ∗ (∃ f : Buf (Elt F) ((c : Thread nD τ).loc cc1_stg2_1), ((c : Thread nD τ).loc cc1_stg2_1) ↦{fullShare} f))

/-- What the region is entered with, opened: the other kernels' staging buffers, the accumulator as a memref owned at
    some contents, and the generator register at some state. -/
theorem PhiA2_open (c : Dev nD) :
    (Pipeline.ΦA spec2 c : sProp 𝕄)
      ⊢ iprop(iprop(others2 (F := F) c ∗ (∃ d, owns (c : Thread nD τ) scM2 fullShare d)) ∗ (∃ r, prngReg c r)) := by
  unfold Pipeline.ΦA; rw [scopedRest2_eq]; simp only [scM2, owns_whole]
  unfold others2
  iintro ⟨⟨R0, R1, R2, R3, R4, R5, R6, R7, R8, R9, HS⟩, Hg⟩
  isplitr [Hg]
  · isplitr [HS]
    ·
      isplitl [R0]; · iexact R0
      isplitl [R1]; · iexact R1
      isplitl [R2]; · iexact R2
      isplitl [R3]; · iexact R3
      isplitl [R4]; · iexact R4
      isplitl [R5]; · iexact R5
      isplitl [R6]; · iexact R6
      isplitl [R7]; · iexact R7
      isplitl [R8]; · iexact R8
      iexact R9
    · iexact HS
  · iexact Hg

/-- and closed again. -/
theorem PhiA2_close (c : Dev nD) :
    iprop(iprop(others2 (F := F) c ∗ (∃ d, owns (c : Thread nD τ) scM2 fullShare d)) ∗ (∃ r, prngReg c r))
      ⊢ (Pipeline.ΦA spec2 c : sProp 𝕄) := by
  unfold Pipeline.ΦA; rw [scopedRest2_eq]; simp only [scM2, owns_whole]
  unfold others2
  iintro ⟨⟨⟨R0, R1, R2, R3, R4, R5, R6, R7, R8, R9⟩, HS⟩, Hg⟩
  isplitr [Hg]
  ·
    isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    iexact HS
  · iexact Hg

theorem PhiA2_eq (c : Dev nD) :
    (Pipeline.ΦA spec2 c : sProp 𝕄)
      = iprop(iprop(others2 (F := F) c ∗ (∃ d, owns (c : Thread nD τ) scM2 fullShare d)) ∗ (∃ r, prngReg c r)) :=
  BI.equiv_iff.mp ⟨PhiA2_open c, PhiA2_close c⟩

/-- The invariant before position `n`: before the first tile whatever the region was entered with; afterwards the
    accumulator at what the tile before left in it. -/
def PhiS2 (c : Dev nD) : (n : ℕ) → n ≤ cfg2.N → sProp 𝕄
  | 0, _ => Pipeline.ΦA spec2 c
  | n + 1, hn => iprop(iprop(others2 (F := F) c ∗ owns (c : Thread nD τ) scM2 fullShare (accAt2 V c n hn)) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(others2 (F := F) c ∗ owns (c : Thread nD τ) scM2 fullShare (accAt2 V c n hn)) ∗ (∃ r, prngReg c r)) := rfl

theorem PhiS2_pos (c : Dev nD) (n : ℕ) (h : n ≤ cfg2.N) (hz : n ≠ 0) :
    PhiS2 V c n h = iprop(iprop(others2 (F := F) c ∗ owns (c : Thread nD τ) scM2 fullShare (accAt2 V c (n - 1) (by omega))) ∗ (∃ r, prngReg c r)) := by
  cases n with
  | zero => exact absurd rfl hz
  | succ n => rfl

/-! ## The pipeline's proof data -/

/-- The proof data of the pooling pipeline on core `c`: the arrays as the region finds them (`V`); after the body at
    tile `t` each input's buffer at its block and the output's at the epilogue of the accumulator after `t`; the
    invariant `PhiS2`; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 V c t
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = out2_5 V c t := by dsimp only [dat2]

/-- After the last tile the output's buffer holds the epilogue of the full accumulation. -/
theorem after2_5_last (c : Dev nD) :
    (dat2 V c).after 5 ⟨48, by decide⟩
      = k2_pay3 (accAt2 V c 48 (by decide)) (iblk2 V c 2 ⟨48, by decide⟩) (iblk2 V c 3 ⟨48, by decide⟩) (iblk2 V c 4 ⟨48, by decide⟩) := by
  rw [after2_5]; rfl

end Cert.KernelIdeal.Hand

end
-- ==== Proof.KI_Reg2IO.lean ====
/- REGION 2 of @main (the pooling and classifier pipeline) at its two ends: what the region is entered with is the
   invariant before the first tile, and the invariant after the last tile gives back what the region is left with.

   Before the first tile the invariant IS the untouched rest (the scoped buffers and the generator register). After
   any tile it holds the accumulator at named contents beside the other kernels' buffers and the generator register;
   forgetting the accumulator's contents (they are some contents) gives the untouched rest again. -/
import proofs.«428559_j43585328120189_1_alg».proof.Proof.KI_Reg2Defs

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- What the region is entered with is the invariant before the first tile. -/
theorem hin2 (c : Dev nD) : (Pipeline.ΦA spec2 c : sProp 𝕄) ⊢ (dat2 V c).Φ 0 := by
  rw [show (dat2 V c).Φ 0 = PhiS2 V c 0 (Nat.zero_le _) from rfl, PhiS2_zero V c 0 _ rfl]

/-- After any tile the invariant gives the untouched rest back: the accumulator's named contents are forgotten. -/
theorem Phi_out2 (c : Dev nD) (t : Fin (cfg2.N + 1)) (ht : t.val ≠ 0) :
    (dat2 V c).Φ t ⊢ (Pipeline.ΦA spec2 c : sProp 𝕄) := by
  rw [show (dat2 V c).Φ t = PhiS2 V c t.val (Nat.le_of_lt_succ t.isLt) from rfl, PhiS2_pos V c _ _ ht, PhiA2_eq]
  iintro ⟨⟨Hr, HS⟩, Hg⟩
  isplitr [Hg]
  · isplitl [Hr]
    · iexact Hr
    iexists _; iexact HS
  iexact Hg

/-- The same after the last tile. -/
theorem hout2 (c : Dev nD) : (dat2 V c).Φ (Fin.last cfg2.N) ⊢ (Pipeline.ΦA spec2 c : sProp 𝕄) :=
  Phi_out2 V c _ (by rw [Fin.val_last]; have : cfg2.N = 49 := N_2; omega)

end Cert.KernelIdeal.Hand

end
-- ==== Proof.KI_Reg2Run.lean ====
import proofs.«428559_j43585328120189_1_alg».proof.Proof.Gen.KernelIdeal.Launch
import proofs.«428559_j43585328120189_1_alg».proof.Proof.Gen.KernelIdeal.Skeleton
import proofs.«428559_j43585328120189_1_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic
import Idealize.ShloMosaic.Lib.WholeRead

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 2: the body of the pooling and classifier kernel, run in each of its three cases

The body's two conditionals are decided by the tile's number: the first tile clears the accumulator before adding to it,
the last tile computes the output after adding, the tiles between only add. Every load and store is of a whole buffer. -/

/-- The zero offsets of a rank-2 and of a rank-1 whole-buffer access, as constant functions. -/
theorem hz2 : (![0, 0] : Fin 2 → Nat) = fun _ => 0 := funext fun a => by fin_cases a <;> rfl
theorem hz1 : (![0] : Fin 1 → Nat) = fun _ => 0 := funext fun a => by fin_cases a <;> rfl

/-- A load of a whole buffer through the whole-shape rectangle at zero offsets reads its contents. -/
theorem readAt_whole {S : Shape} {e : EltTy} {m : Memref sig .tc .vmem S e} (hm : m.IsWhole) {off : Fin S.rank → Nat}
    (h : off = fun _ => 0) (inb : ∀ a, off a + S.size a ≤ S.size a) (x : S.Idx → Elt F e) :
    View.readAt (Elt F) m.view (Rect.unit off S.size inb).toLoadRect (hm.unread x) = x :=
  (funext fun j => hm.readAt_unread x _ j).trans (View.ld_unit_zero h inb x)

set_option maxHeartbeats 1000000 in
/-- A MIDDLE TILE (neither condition holds). On whole staging memrefs — the five inputs' at their contents, the output's
    at contents `xi5` it does not touch, the accumulator at `xs` — the body runs to the continuation holding the inputs'
    and the output's as they were and the accumulator at `xs` increased by the tile's contribution. -/
theorem kernelRun2_B (c : Dev nD) (i : grid2.Coords) (arg1 : Memref sig .tc .vmem S2048x128 .f32) (harg1 : arg1.IsWhole) (arg2 : Memref sig .tc .vmem S2048x1 .i32) (harg2 : arg2.IsWhole) (arg3 : Memref sig .tc .vmem S64x1 .f32) (harg3 : arg3.IsWhole) (arg4 : Memref sig .tc .vmem S128x10 .f32) (harg4 : arg4.IsWhole) (arg5 : Memref sig .tc .vmem S10 .f32) (harg5 : arg5.IsWhole) (arg6 : Memref sig .tc .vmem S64x10 .f32) (harg6 : arg6.IsWhole) (arg7 : Memref sig .tc .vmem S64x128 .f32) (harg7 : arg7.IsWhole)
    (hc0 : ¬((Scalar.cmpi .ne (Scalar.extui (Scalar.cmpi .eq (BitVec.ofNat 32 (i 0).val) 0#32)) 0#32) = 1#1)) (hc1 : ¬(k2_cond2 i = 1#1))
    (x0 : Vec F S2048x128 .f32) (x1 : Vec F S2048x1 .i32) (x2 : Vec F S64x1 .f32) (x3 : Vec F S128x10 .f32) (x4 : Vec F S10 .f32) (xi5 : Vec F S64x10 .f32) (xs : Vec F S64x128 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ owns (c : Thread nD τ) arg7 fullShare xs
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ owns (c : Thread nD τ) arg7 fullShare (k2_pay2 x0 x1 xs)) -∗ K ⟨⟩))
      ⊢ wp frame (wpE (defs₀ (F := F)) Variants.none c none) E (cc2__pool_fc_kernel i arg1 harg1 arg2 harg2 arg3 harg3 arg4 harg4 arg5 harg5 arg6 harg6 arg7 harg7) K := by
  simp only [cc2__pool_fc_kernel_eq_skeleton]; unfold cc2__pool_fc_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs, %hfs, HS⟩, Hk⟩
  obtain rfl := harg1.eq_unread hf0; obtain rfl := harg2.eq_unread hf1; obtain rfl := harg3.eq_unread hf2
  obtain rfl := harg4.eq_unread hf3; obtain rfl := harg5.eq_unread hf4; obtain rfl := harg6.eq_unread hf5
  obtain rfl := harg7.eq_unread hfs
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  iexists _; isplitr
  swap; · iexact HS
  ipureintro
  rw [View.read_writes_eq_canon _ _ _ (fun y => ⟨_, List.mem_singleton_self _, View.mem_set_unit_zero hz2 inb_S64x128_S64x128_0_0 y⟩), View.canon_unit_zero hz2]
  rw [readAt_whole harg1 hz2, readAt_whole harg2 hz2, readAt_whole harg7 hz2]

set_option maxHeartbeats 1000000 in
/-- THE FIRST TILE (the first condition holds, the second does not). On whole staging memrefs — the five inputs' at their
    contents, the output's at contents `xi5` it does not touch, the accumulator at anything — the body runs to the
    continuation holding the inputs' and the output's as they were and the accumulator at the tile's contribution added to
    the cleared accumulator. -/
theorem kernelRun2_A (c : Dev nD) (i : grid2.Coords) (arg1 : Memref sig .tc .vmem S2048x128 .f32) (harg1 : arg1.IsWhole) (arg2 : Memref sig .tc .vmem S2048x1 .i32) (harg2 : arg2.IsWhole) (arg3 : Memref sig .tc .vmem S64x1 .f32) (harg3 : arg3.IsWhole) (arg4 : Memref sig .tc .vmem S128x10 .f32) (harg4 : arg4.IsWhole) (arg5 : Memref sig .tc .vmem S10 .f32) (harg5 : arg5.IsWhole) (arg6 : Memref sig .tc .vmem S64x10 .f32) (harg6 : arg6.IsWhole) (arg7 : Memref sig .tc .vmem S64x128 .f32) (harg7 : arg7.IsWhole)
    (hc0 : (Scalar.cmpi .ne (Scalar.extui (Scalar.cmpi .eq (BitVec.ofNat 32 (i 0).val) 0#32)) 0#32) = 1#1) (hc1 : ¬(k2_cond2 i = 1#1))
    (x0 : Vec F S2048x128 .f32) (x1 : Vec F S2048x1 .i32) (x2 : Vec F S64x1 .f32) (x3 : Vec F S128x10 .f32) (x4 : Vec F S10 .f32) (xi5 : Vec F S64x10 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ owns (c : Thread nD τ) arg7 fullShare (k2_pay2 x0 x1 (k2_pay1 (F := F)))) -∗ K ⟨⟩))
      ⊢ wp frame (wpE (defs₀ (F := F)) Variants.none c none) E (cc2__pool_fc_kernel i arg1 harg1 arg2 harg2 arg3 harg3 arg4 harg4 arg5 harg5 arg6 harg6 arg7 harg7) K := by
  simp only [cc2__pool_fc_kernel_eq_skeleton]; unfold cc2__pool_fc_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds, %fs, -, HS⟩, Hk⟩
  obtain rfl := harg1.eq_unread hf0; obtain rfl := harg2.eq_unread hf1; obtain rfl := harg3.eq_unread hf2
  obtain rfl := harg4.eq_unread hf3; obtain rfl := harg5.eq_unread hf4; obtain rfl := harg6.eq_unread hf5
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  iexists _; isplitr
  swap; · iexact HS
  ipureintro
  rw [View.read_writes_eq_canon _ _ _ (fun y => ⟨_, List.Mem.head _, View.mem_set_unit_zero hz2 inb_S64x128_S64x128_0_0 y⟩), View.canon_cons_unit_zero hz2]
  unfold kernelRun2_A.sl.v16 kernelRun2_A.sl.HS_1
  rw [View.readCov_unit_zero _ hz2, readAt_whole harg1 hz2, readAt_whole harg2 hz2]

set_option maxHeartbeats 1000000 in
/-- THE LAST TILE (the first condition fails, the second holds). On whole staging memrefs — the five inputs' at their
    contents, the output's at anything, the accumulator at `xs` — the body runs to the continuation holding the inputs' as
    they were, the accumulator at `xs` increased by the tile's contribution, and the output's buffer at the epilogue of
    that: the rows scaled by the reciprocal counts, times the classifier weights, plus the bias. -/
theorem kernelRun2_C (c : Dev nD) (i : grid2.Coords) (arg1 : Memref sig .tc .vmem S2048x128 .f32) (harg1 : arg1.IsWhole) (arg2 : Memref sig .tc .vmem S2048x1 .i32) (harg2 : arg2.IsWhole) (arg3 : Memref sig .tc .vmem S64x1 .f32) (harg3 : arg3.IsWhole) (arg4 : Memref sig .tc .vmem S128x10 .f32) (harg4 : arg4.IsWhole) (arg5 : Memref sig .tc .vmem S10 .f32) (harg5 : arg5.IsWhole) (arg6 : Memref sig .tc .vmem S64x10 .f32) (harg6 : arg6.IsWhole) (arg7 : Memref sig .tc .vmem S64x128 .f32) (harg7 : arg7.IsWhole)
    (hc0 : ¬((Scalar.cmpi .ne (Scalar.extui (Scalar.cmpi .eq (BitVec.ofNat 32 (i 0).val) 0#32)) 0#32) = 1#1)) (hc1 : k2_cond2 i = 1#1)
    (x0 : Vec F S2048x128 .f32) (x1 : Vec F S2048x1 .i32) (x2 : Vec F S64x1 .f32) (x3 : Vec F S128x10 .f32) (x4 : Vec F S10 .f32) (xs : Vec F S64x128 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare xs
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (k2_pay3 (k2_pay2 x0 x1 xs) x2 x3 x4) ∗ owns (c : Thread nD τ) arg7 fullShare (k2_pay2 x0 x1 xs)) -∗ K ⟨⟩))
      ⊢ wp frame (wpE (defs₀ (F := F)) Variants.none c none) E (cc2__pool_fc_kernel i arg1 harg1 arg2 harg2 arg3 harg3 arg4 harg4 arg5 harg5 arg6 harg6 arg7 harg7) K := by
  simp only [cc2__pool_fc_kernel_eq_skeleton]; unfold cc2__pool_fc_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs, %hfs, HS⟩, Hk⟩
  obtain rfl := harg1.eq_unread hf0; obtain rfl := harg2.eq_unread hf1; obtain rfl := harg3.eq_unread hf2
  obtain rfl := harg4.eq_unread hf3; obtain rfl := harg5.eq_unread hf4
  obtain rfl := harg7.eq_unread hfs
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr
    swap; · iexact H5
    ipureintro
    rw [View.read_writes_eq_canon _ _ _ (fun y => ⟨_, List.mem_singleton_self _, View.mem_set_unit_zero hz2 inb_S64x10_S64x10_0_0 y⟩), View.canon_unit_zero hz2]
    unfold kernelRun2_C.sl.v24 kernelRun2_C.sl.HS_1
    rw [View.readCov_unit_zero _ hz2, readAt_whole harg1 hz2, readAt_whole harg2 hz2, readAt_whole harg7 hz2,
      readAt_whole harg3 hz2, readAt_whole harg4 hz2, readAt_whole harg5 hz1]
  iexists _; isplitr
  swap; · iexact HS
  ipureintro
  unfold kernelRun2_C.sl.HS_1
  rw [View.read_writes_eq_canon _ _ _ (fun y => ⟨_, List.mem_singleton_self _, View.mem_set_unit_zero hz2 inb_S64x128_S64x128_0_0 y⟩), View.canon_unit_zero hz2]
  rw [readAt_whole harg1 hz2, readAt_whole harg2 hz2, readAt_whole harg7 hz2]

end Cert.KernelIdeal.Hand

end
-- ==== Proof.KI_Reg2.lean ====
import proofs.«428559_j43585328120189_1_alg».proof.Proof.KI_Reg2Defs
import proofs.«428559_j43585328120189_1_alg».proof.Proof.KI_Reg2Run

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter everything below is stated at
variable (V : (c : Dev nD) → (b : Ref sig .tc) → Buf (Elt F) ((c : Thread nD τ).loc b))

/-! # Region 2: the body obligation of the pooling and classifier kernel, tile by tile -/

/-! ## What the body finds in the inputs' buffers -/

/-- Each input's current staging buffer holds its block at every tile, fetched there or not: the row tiles are fetched at
    every tile; the reciprocal counts, the classifier weights and the bias are fetched once, their block index never moves,
    and the body leaves them in place. -/
theorem before2_0 (c : Dev nD) (t : Fin cfg2.N) (d) : (dat2 V c).before 0 t d = iblk2 V c 0 t :=
  ((dat2 V c).before_in_eq_fetched 0 rfl (fun _ => rfl) (fun _ _ _ => rfl) (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl) (fun t => by rw [after2_1]; unfold Dat.blockOf iblk2; rw [A_eq2]; try rfl) t d).trans
    (by unfold Dat.fetched Dat.blockOf iblk2; rw [A_eq2]; try rfl)
theorem before2_2 (c : Dev nD) (t : Fin cfg2.N) (d) : (dat2 V c).before 2 t d = iblk2 V c 2 t :=
  ((dat2 V c).before_in_eq_fetched 2 rfl (fun _ => rfl) (fun _ _ _ => rfl) (fun t => by rw [after2_2]; unfold Dat.blockOf iblk2; rw [A_eq2]; try rfl) t d).trans
    (by unfold Dat.fetched Dat.blockOf iblk2; rw [A_eq2]; try rfl)
theorem before2_3 (c : Dev nD) (t : Fin cfg2.N) (d) : (dat2 V c).before 3 t d = iblk2 V c 3 t :=
  ((dat2 V c).before_in_eq_fetched 3 rfl (fun _ => rfl) (fun _ _ _ => rfl) (fun t => by rw [after2_3]; unfold Dat.blockOf iblk2; rw [A_eq2]; try rfl) t d).trans
    (by unfold Dat.fetched Dat.blockOf iblk2; rw [A_eq2]; try rfl)
theorem before2_4 (c : Dev nD) (t : Fin cfg2.N) (d) : (dat2 V c).before 4 t d = iblk2 V c 4 t :=
  ((dat2 V c).before_in_eq_fetched 4 rfl (fun _ => rfl) (fun _ _ _ => rfl) (fun t => by rw [after2_4]; unfold Dat.blockOf iblk2; rw [A_eq2]; try rfl) t d).trans
    (by unfold Dat.fetched Dat.blockOf iblk2; rw [A_eq2]; try rfl)

/-- The accumulator after the first tile. -/
theorem accAt2_first (c : Dev nD) (t : Fin cfg2.N) (h0 : t.val = 0) :
    accAt2 V c t.val t.isLt = k2_pay2 (iblk2 V c 0 t) (iblk2 V c 1 t) (k2_pay1 (F := F)) := by
  obtain ⟨n, hn⟩ := t
  cases n with
  | zero => rfl
  | succ n => exact absurd h0 (Nat.succ_ne_zero n)

/-! ## The body obligation, at a generic tile -/

/-- What the body is called with at tile `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t)

set_option maxHeartbeats 4800000 in
/-- The body at any tile. The inputs' memrefs hold their blocks; the tile's number says which of the three cases it is in;
    the invariant hands the body the accumulator at what the tile before left (at anything at the first tile) and takes it
    back at this tile's contents; off the last tile the output's buffer is handed back untouched, at the last tile it is
    left at the epilogue of the full accumulation; the core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).owesAt () t.succ = (dat2 V c).owesAt () t.castSucc from rfl]
  rw [show (dat2 V c).Φ t.succ = PhiS2 V c (t.val + 1) t.isLt from rfl, PhiS2_succ]
  have hN : t.val < 49 := lt_of_lt_of_eq t.isLt (show cfg2.N = 49 from N_2)
  by_cases h0 : t.val = 0
  · have h1 : ¬t.val = 48 := by omega
    rw [show (dat2 V c).leavesExact 0 t = owns (c : Thread nD τ) (ms2_0 t) fullShare ((dat2 V c).after 0 t) from by
      unfold Dat.leavesExact; rw [liveAt2_0 t], after2_0]
    rw [show (dat2 V c).leavesExact 1 t = owns (c : Thread nD τ) (ms2_1 t) fullShare ((dat2 V c).after 1 t) from by
      unfold Dat.leavesExact; rw [liveAt2_1 t], after2_1]
    rw [show (dat2 V c).leavesExact 2 t = owns (c : Thread nD τ) (ms2_2 t) fullShare ((dat2 V c).after 2 t) from by
      unfold Dat.leavesExact; rw [liveAt2_2 t], after2_2]
    rw [show (dat2 V c).leavesExact 3 t = owns (c : Thread nD τ) (ms2_3 t) fullShare ((dat2 V c).after 3 t) from by
      unfold Dat.leavesExact; rw [liveAt2_3 t], after2_3]
    rw [show (dat2 V c).leavesExact 4 t = owns (c : Thread nD τ) (ms2_4 t) fullShare ((dat2 V c).after 4 t) from by
      unfold Dat.leavesExact; rw [liveAt2_4 t], after2_4]
    rw [Dat.leavesExact_idle (dat2 V c) 5 t (idleAt2_5 t (fun h => h1 ((hcond2_1 t).mp h))) (noFlush2_5 t (fun h => h1 ((hcond2_1 t).mp h)))]
    rw [accAt2_first V c t h0]
    rw [PhiS2_castSucc V c t, PhiS2_zero V c _ _ h0, PhiA2_eq]
    iintro ⟨⟨⟨HR, HS⟩, Hg⟩, Ho, ⟨%d0, H0⟩, ⟨%d1, H1⟩, ⟨%d2, H2⟩, ⟨%d3, H3⟩, ⟨%d4, H4⟩, ⟨%d5, H5⟩⟩
    iapply (kernelRun2_A c (grid2.coords t) _ _ _ _ _ _ _ _ _ _ _ _ _ _ ((hcond2_0 t).mpr h0) (fun h => h1 ((hcond2_1 t).mp h)) (iblk2 V c 0 t) (iblk2 V c 1 t) (iblk2 V c 2 t) (iblk2 V c 3 t) (iblk2 V c 4 t) _ Set.univ _)
    isplitl [H0]; · iexact H0
    isplitl [H1]; · iexact H1
    isplitl [H2]; · iexact H2
    isplitl [H3]; · iexact H3
    isplitl [H4]; · iexact H4
    isplitl [H5]; · iexact H5
    isplitl [HS]; · iexact HS
    iintro ⟨H0, H1, H2, H3, H4, H5, HS⟩
    isplitl [HR HS Hg]
    · isplitr [Hg]
      · isplitl [HR]; · iexact HR
        iexact HS
      · iexact Hg
    isplitl [Ho]; · iexact Ho
    isplitl [H0]; · iexact H0
    isplitl [H1]; · iexact H1
    isplitl [H2]; · iexact H2
    isplitl [H3]; · iexact H3
    isplitl [H4]; · iexact H4
    iexists _; iexact H5
  · by_cases h1 : t.val = 48
    ·
      rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [show (dat2 V c).leavesExact 3 t = owns (c : Thread nD τ) (ms2_3 t) fullShare ((dat2 V c).after 3 t) from by
        unfold Dat.leavesExact; rw [liveAt2_3 t], after2_3]
      rw [show (dat2 V c).leavesExact 4 t = owns (c : Thread nD τ) (ms2_4 t) fullShare ((dat2 V c).after 4 t) from by
        unfold Dat.leavesExact; rw [liveAt2_4 t], after2_4]
      rw [show (dat2 V c).leavesExact 5 t = owns (c : Thread nD τ) (ms2_5 t) fullShare ((dat2 V c).after 5 t) from by
        unfold Dat.leavesExact; rw [liveAt2_5 t ((hcond2_1 t).mpr h1)], after2_5]
      unfold out2_5
      rw [accAt2_pos V c t h0]
      rw [PhiS2_castSucc V c t, PhiS2_pos V c _ _ h0]
      iintro ⟨⟨⟨HR, HS⟩, Hg⟩, Ho, ⟨%d0, H0⟩, ⟨%d1, H1⟩, ⟨%d2, H2⟩, ⟨%d3, H3⟩, ⟨%d4, H4⟩, ⟨%d5, H5⟩⟩
      iapply (kernelRun2_C c (grid2.coords t) _ _ _ _ _ _ _ _ _ _ _ _ _ _ (fun h => h0 ((hcond2_0 t).mp h)) ((hcond2_1 t).mpr h1) (iblk2 V c 0 t) (iblk2 V c 1 t) (iblk2 V c 2 t) (iblk2 V c 3 t) (iblk2 V c 4 t) _ Set.univ _)
      isplitl [H0]; · iexact H0
      isplitl [H1]; · iexact H1
      isplitl [H2]; · iexact H2
      isplitl [H3]; · iexact H3
      isplitl [H4]; · iexact H4
      isplitl [H5]; · iexists _; iexact H5
      isplitl [HS]; · iexact HS
      iintro ⟨H0, H1, H2, H3, H4, H5, HS⟩
      isplitl [HR HS Hg]
      · isplitr [Hg]
        · isplitl [HR]; · iexact HR
          iexact HS
        · iexact Hg
      isplitl [Ho]; · iexact Ho
      isplitl [H0]; · iexact H0
      isplitl [H1]; · iexact H1
      isplitl [H2]; · iexact H2
      isplitl [H3]; · iexact H3
      isplitl [H4]; · iexact H4
      iexact H5
    ·
      rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [show (dat2 V c).leavesExact 3 t = owns (c : Thread nD τ) (ms2_3 t) fullShare ((dat2 V c).after 3 t) from by
        unfold Dat.leavesExact; rw [liveAt2_3 t], after2_3]
      rw [show (dat2 V c).leavesExact 4 t = owns (c : Thread nD τ) (ms2_4 t) fullShare ((dat2 V c).after 4 t) from by
        unfold Dat.leavesExact; rw [liveAt2_4 t], after2_4]
      rw [Dat.leavesExact_idle (dat2 V c) 5 t (idleAt2_5 t (fun h => h1 ((hcond2_1 t).mp h))) (noFlush2_5 t (fun h => h1 ((hcond2_1 t).mp h)))]
      rw [accAt2_pos V c t h0]
      rw [PhiS2_castSucc V c t, PhiS2_pos V c _ _ h0]
      iintro ⟨⟨⟨HR, HS⟩, Hg⟩, Ho, ⟨%d0, H0⟩, ⟨%d1, H1⟩, ⟨%d2, H2⟩, ⟨%d3, H3⟩, ⟨%d4, H4⟩, ⟨%d5, H5⟩⟩
      iapply (kernelRun2_B c (grid2.coords t) _ _ _ _ _ _ _ _ _ _ _ _ _ _ (fun h => h0 ((hcond2_0 t).mp h)) (fun h => h1 ((hcond2_1 t).mp h)) (iblk2 V c 0 t) (iblk2 V c 1 t) (iblk2 V c 2 t) (iblk2 V c 3 t) (iblk2 V c 4 t) _ _ Set.univ _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, HS⟩
      isplitl [HR HS Hg]
      · isplitr [Hg]
        · isplitl [HR]; · iexact HR
          iexact HS
        · iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The library's body obligation, at every tile. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI_Run.lean ====
/-
  The three kernel regions as segments of @main, and the program's run. Each region's proof data is taken at the
  buffers' contents when the region is entered; what a region leaves in its arrays is what its write-backs leave (the
  inputs as entered, the output's blocks folded), and the contents after the region are those before it with the output
  array replaced. The launch makes, on every core, the unscoped buffers held at the launch memory beside the generator
  register and the core owing nothing; that rest rides unchanged through every host stretch and is lent to each region's
  body invariant and taken back.
-/
import proofs.«428559_j43585328120189_1_alg».proof.Proof.KI_RunCond
import proofs.«428559_j43585328120189_1_alg».proof.Proof.KI_Reg0
import proofs.«428559_j43585328120189_1_alg».proof.Proof.KI_Reg1
import proofs.«428559_j43585328120189_1_alg».proof.Proof.KI_Reg2IO
import proofs.«428559_j43585328120189_1_alg».proof.Proof.KI_Reg2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents the regions are entered from and leave -/

/-- Region 0 is entered from the launch memory after the first four host stretches. -/
abbrev Ve0 : (c : Dev nD) → (b : Ref sig .tc) → Buf (Elt F) ((c : Thread nD τ).loc b) := fun c b => V4 m c b
/-- At region 0's exit: its arrays at what the pipeline leaves, every other buffer as entered. -/
def Wx0 (c : Dev nD) : Valuation τ sig (Elt F) :=
  Pipeline.withArrays spec0 c (V4 m c) fun w => (dat0 (Ve0 m) c).arrAt w cfg0.N
/-- What region 0 leaves, as the family the generated valuations are written over (only `main_v31` is read of it). -/
def outsA : Outs (F := F) := fun _ r c => Wx0 m c (Proc.devRef .tc r)
/-- Region 1 is entered after the next four host stretches. -/
abbrev Ve1 : (c : Dev nD) → (b : Ref sig .tc) → Buf (Elt F) ((c : Thread nD τ).loc b) := fun c b => V9 m (outsA m) c b
def Wx1 (c : Dev nD) : Valuation τ sig (Elt F) :=
  Pipeline.withArrays spec1 c (V9 m (outsA m) c) fun w => (dat1 (Ve1 m) c).arrAt w cfg1.N
/-- What regions 0 and 1 leave (item 5: `main_v31`; item 10: `main_v51`). -/
def outsB : Outs (F := F) := fun J r c => if J = 5 then Wx0 m c (Proc.devRef .tc r) else Wx1 m c (Proc.devRef .tc r)
/-- Region 2 is entered after the last seven host stretches. -/
abbrev Ve2 : (c : Dev nD) → (b : Ref sig .tc) → Buf (Elt F) ((c : Thread nD τ).loc b) := fun c b => V17 m (outsB m) c b
def Wx2 (c : Dev nD) : Valuation τ sig (Elt F) :=
  Pipeline.withArrays spec2 c (V17 m (outsB m) c) fun w => (dat2 (Ve2 m) c).arrAt w cfg2.N
/-- What the three regions leave (item 5: `main_v31`; item 10: `main_v51`; item 18: `main_v82`). -/
def outs : Outs (F := F) := fun J r c =>
  if J = 5 then Wx0 m c (Proc.devRef .tc r) else if J = 10 then Wx1 m c (Proc.devRef .tc r) else Wx2 m c (Proc.devRef .tc r)

/-- The valuations before region 1 and before region 2 read the family only at the items already fixed: the family is
    read at item 5 for `main_v31` and at item 10 for `main_v51`, where the staged families agree. -/
theorem V5_outs (c : Dev nD) : V5 m (outs m) c = V5 m (outsA m) c := rfl
theorem V5_outsB (c : Dev nD) : V5 m (outsB m) c = V5 m (outsA m) c := rfl
theorem V9_outs (c : Dev nD) : V9 m (outs m) c = V9 m (outsA m) c :=
  congrArg (fun W => StableHlo.after hostOps1_3 (StableHlo.after hostOps1_2 (StableHlo.after hostOps1_1 (StableHlo.after hostOps1 W)))) (V5_outs m c)
theorem V9_outsB (c : Dev nD) : V9 m (outsB m) c = V9 m (outsA m) c :=
  congrArg (fun W => StableHlo.after hostOps1_3 (StableHlo.after hostOps1_2 (StableHlo.after hostOps1_1 (StableHlo.after hostOps1 W)))) (V5_outsB m c)
theorem V10_outs (c : Dev nD) : V10 m (outs m) c = V10 m (outsB m) c := by
  show Function.update (V9 m (outs m) c) (Proc.devRef .tc main_v51) (outs m 10 main_v51 c) = Function.update (V9 m (outsB m) c) (Proc.devRef .tc main_v51) (outsB m 10 main_v51 c)
  rw [V9_outs, V9_outsB]; rfl
theorem V17_outs (c : Dev nD) : V17 m (outs m) c = V17 m (outsB m) c :=
  congrArg (fun W => StableHlo.after hostOps2_6 (StableHlo.after hostOps2_5 (StableHlo.after hostOps2_4 (StableHlo.after hostOps2_3 (StableHlo.after hostOps2_2 (StableHlo.after hostOps2_1 (StableHlo.after hostOps2 W))))))) (V10_outs m c)

/-- The contents after each region, read at the TensorCore's references. -/
abbrev Vx0 : (c : Dev nD) → (b : Ref sig .tc) → Buf (Elt F) ((c : Thread nD τ).loc b) := fun c b => V5 m (outs m) c b
abbrev Vx1 : (c : Dev nD) → (b : Ref sig .tc) → Buf (Elt F) ((c : Thread nD τ).loc b) := fun c b => V10 m (outs m) c b
abbrev Vx2 : (c : Dev nD) → (b : Ref sig .tc) → Buf (Elt F) ((c : Thread nD τ).loc b) := fun c b => V18 m (outs m) c b

/-! ## The proof data family and the rest that rides along -/

/-- Every pipeline's proof data, each at its region's entry contents: a literal match, so that the pinned
    configuration at a numeral reduces to the printed one. -/
def pdats : (p : Fin 3) → (c : Dev nD) → Dat τ (Elt F) Unit ℕ (UR sig nD τ) ℕ (cfgs p) c
  | ⟨0, _⟩ => fun c => dat0 (Ve0 m) c
  | ⟨1, _⟩ => fun c => dat1 (Ve1 m) c
  | ⟨2, _⟩ => fun c => dat2 (Ve2 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state and the core owing nothing. -/
abbrev R (c : Dev nD) : sProp 𝕄 := iprop((∃ r, prngReg c r) ∗ ∃ W, owes (c : Thread nD τ) (0 : CellTallies nD τ sig Unit) W)

/-! ## Each region's arrays at its exit -/

/-- An input window's array is as entered; no later item before the region's exit writes it. -/
theorem hF0_in (c : Dev nD) (w : Fin cfg0.W) (hin : (cfg0.win w).isOut = false) (hne : Pipeline.arrRef spec0 w ∉ ([main_v31] : List (Ref sig .tc))) :
    (dat0 (Ve0 m) c).arrAt w cfg0.N = V5 m (outs m) c (Pipeline.arrRef spec0 w) :=
  ((dat0 (Ve0 m) c).arrAt_in w hin _).trans ((A_eq0 (Ve0 m) c w).trans (V5_of m (outs m) c _ hne).symm)
theorem hF0_out (c : Dev nD) : (dat0 (Ve0 m) c).arrAt 2 cfg0.N = V5 m (outs m) c main_v31 := by
  show _ = Function.update (V4 m c) (Proc.devRef .tc main_v31) (Wx0 m c (Proc.devRef .tc main_v31)) (Proc.devRef .tc main_v31)
  rw [Function.update_self]; unfold Wx0
  exact (Pipeline.withArrays_arr spec0 launch0.win.arr_inj c (V4 m c) (fun w => (dat0 (Ve0 m) c).arrAt w cfg0.N) 2).symm
/-- After region 0 its output array holds the folded write-backs and its two input arrays what they held. -/
theorem hF0 (c : Dev nD) (w : Fin cfg0.W) : (pdats m 0 c).arrAt w cfg0.N = Vx0 m c (Pipeline.arrRef spec0 w) := by
  show (dat0 (Ve0 m) c).arrAt w cfg0.N = V5 m (outs m) c (Pipeline.arrRef spec0 w)
  match w with
  | ⟨0, _⟩ => exact hF0_in m c 0 rfl (by decide)
  | ⟨1, _⟩ => exact hF0_in m c 1 rfl (by decide)
  | ⟨2, _⟩ => exact hF0_out m c
theorem hrest0 (c : Dev nD) : ∀ b, b ∉ Finset.univ.image (Pipeline.arrRef spec0) → Vx0 m c b = Ve0 m c b := fun b hb =>
  V5_of m (outs m) c b (fun h => hb (Finset.mem_image.mpr ⟨2, Finset.mem_univ _, (List.mem_singleton.mp h).symm⟩))

theorem hF1_in (c : Dev nD) (w : Fin cfg1.W) (hin : (cfg1.win w).isOut = false) (hne : Pipeline.arrRef spec1 w ∉ ([main_v51] : List (Ref sig .tc))) :
    (dat1 (Ve1 m) c).arrAt w cfg1.N = V10 m (outs m) c (Pipeline.arrRef spec1 w) :=
  ((dat1 (Ve1 m) c).arrAt_in w hin _).trans ((A_eq1 (Ve1 m) c w).trans ((congrFun (V9_outs m c) _).symm.trans (V10_of m (outs m) c _ hne).symm))
theorem hF1_out (c : Dev nD) : (dat1 (Ve1 m) c).arrAt 2 cfg1.N = V10 m (outs m) c main_v51 := by
  show _ = Function.update (V9 m (outs m) c) (Proc.devRef .tc main_v51) (Wx1 m c (Proc.devRef .tc main_v51)) (Proc.devRef .tc main_v51)
  rw [Function.update_self]; unfold Wx1
  exact (Pipeline.withArrays_arr spec1 launch1.win.arr_inj c (V9 m (outsA m) c) (fun w => (dat1 (Ve1 m) c).arrAt w cfg1.N) 2).symm
theorem hF1 (c : Dev nD) (w : Fin cfg1.W) : (pdats m 1 c).arrAt w cfg1.N = Vx1 m c (Pipeline.arrRef spec1 w) := by
  show (dat1 (Ve1 m) c).arrAt w cfg1.N = V10 m (outs m) c (Pipeline.arrRef spec1 w)
  match w with
  | ⟨0, _⟩ => exact hF1_in m c 0 rfl (by decide)
  | ⟨1, _⟩ => exact hF1_in m c 1 rfl (by decide)
  | ⟨2, _⟩ => exact hF1_out m c
theorem hrest1 (c : Dev nD) : ∀ b, b ∉ Finset.univ.image (Pipeline.arrRef spec1) → Vx1 m c b = Ve1 m c b := fun b hb =>
  (V10_of m (outs m) c b (fun h => hb (Finset.mem_image.mpr ⟨2, Finset.mem_univ _, (List.mem_singleton.mp h).symm⟩))).trans (congrFun (V9_outs m c) _)

theorem hF2_in (c : Dev nD) (w : Fin cfg2.W) (hin : (cfg2.win w).isOut = false) (hne : Pipeline.arrRef spec2 w ∉ ([main_v82] : List (Ref sig .tc))) :
    (dat2 (Ve2 m) c).arrAt w cfg2.N = V18 m (outs m) c (Pipeline.arrRef spec2 w) :=
  ((dat2 (Ve2 m) c).arrAt_in w hin _).trans ((A_eq2 (Ve2 m) c w).trans ((congrFun (V17_outs m c) _).symm.trans (V18_of m (outs m) c _ hne).symm))
theorem hF2_out (c : Dev nD) : (dat2 (Ve2 m) c).arrAt 5 cfg2.N = V18 m (outs m) c main_v82 := by
  show _ = Function.update (V17 m (outs m) c) (Proc.devRef .tc main_v82) (Wx2 m c (Proc.devRef .tc main_v82)) (Proc.devRef .tc main_v82)
  rw [Function.update_self]; unfold Wx2
  exact (Pipeline.withArrays_arr spec2 launch2.win.arr_inj c (V17 m (outsB m) c) (fun w => (dat2 (Ve2 m) c).arrAt w cfg2.N) 5).symm
theorem hF2 (c : Dev nD) (w : Fin cfg2.W) : (pdats m 2 c).arrAt w cfg2.N = Vx2 m c (Pipeline.arrRef spec2 w) := by
  show (dat2 (Ve2 m) c).arrAt w cfg2.N = V18 m (outs m) c (Pipeline.arrRef spec2 w)
  match w with
  | ⟨0, _⟩ => exact hF2_in m c 0 rfl (by decide)
  | ⟨1, _⟩ => exact hF2_in m c 1 rfl (by decide)
  | ⟨2, _⟩ => exact hF2_in m c 2 rfl (by decide)
  | ⟨3, _⟩ => exact hF2_in m c 3 rfl (by decide)
  | ⟨4, _⟩ => exact hF2_in m c 4 rfl (by decide)
  | ⟨5, _⟩ => exact hF2_out m c
theorem hrest2 (c : Dev nD) : ∀ b, b ∉ Finset.univ.image (Pipeline.arrRef spec2) → Vx2 m c b = Ve2 m c b := fun b hb =>
  (V18_of m (outs m) c b (fun h => hb (Finset.mem_image.mpr ⟨5, Finset.mem_univ _, (List.mem_singleton.mp h).symm⟩))).trans (congrFun (V17_outs m c) _)

/-- The body's invariant of region 2 before its first point takes the generator register and the scoped buffers no
    window stages, and gives them back after its last. -/
theorem PhiA_join2 (c : Dev nD) (P : sProp 𝕄) :
    (iprop((∃ r, prngReg c r) ∗ P ∗ Pipeline.scopedRest spec2 c) : sProp 𝕄) ⊢ Pipeline.ΦA spec2 c := by
  unfold Pipeline.ΦA
  iintro ⟨Hp, -, Hr⟩
  isplitl [Hr]; · iexact Hr
  iexact Hp
theorem PhiA_split2 (c : Dev nD) :
    (Pipeline.ΦA spec2 c : sProp 𝕄) ⊢ iprop((∃ r, prngReg c r) ∗ BI.emp ∗ Pipeline.scopedRest spec2 c) := by
  unfold Pipeline.ΦA
  iintro ⟨Hr, Hp⟩
  isplitl [Hp]; · iexact Hp
  isplitr; · iempintro
  iexact Hr

/-! ## The regions as segments -/

-- `iapply` of a library lemma stated over the pinned configuration unifies only when unification may unfold plain
-- definitions in a metavariable's type
set_option backward.isDefEq.respectTransparency.types false in
/-- Region 0 as a segment: entered from every unscoped buffer at the contents before it, left at the contents after it.
    Its arrays are split out of the unscoped buffers and put back at what the write-backs leave; the generator register
    goes into the body's invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Ve0 m) c).loose
  hwaits := Pipeline.hwaits_of_owed_zero _ _ _ _ L lv 0 fun _ _ => rfl
  pre c := iprop(StableHlo.held (c : Thread nD τ) (Pipeline.ucRefs τ sig) (V4 m c) ∗ R c)
  post c := iprop(StableHlo.held (c : Thread nD τ) (Pipeline.ucRefs τ sig) (V5 m (outs m) c) ∗ R c)
  X c := iprop(∃ r, prngReg c r)
  Y c := iprop(∃ r, prngReg c r)
  Z c := Pipeline.unscopedRest (Ix := Unit) (Name := ℕ) (U := UR sig nD τ) (Lvl := ℕ) spec0 c (Ve0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Ve0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Ve0 m c) (Vx0 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over the pinned configuration unifies only when unification may unfold plain
-- definitions in a metavariable's type
set_option backward.isDefEq.respectTransparency.types false in
/-- Region 1 as a segment: entered from every unscoped buffer at the contents before it, left at the contents after it.
    Its arrays are split out of the unscoped buffers and put back at what the write-backs leave; the generator register
    goes into the body's invariant and comes back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Ve1 m) c).loose
  hwaits := Pipeline.hwaits_of_owed_zero _ _ _ _ L lv 1 fun _ _ => rfl
  pre c := iprop(StableHlo.held (c : Thread nD τ) (Pipeline.ucRefs τ sig) (V9 m (outs m) c) ∗ R c)
  post c := iprop(StableHlo.held (c : Thread nD τ) (Pipeline.ucRefs τ sig) (V10 m (outs m) c) ∗ R c)
  X c := iprop(∃ r, prngReg c r)
  Y c := iprop(∃ r, prngReg c r)
  Z c := Pipeline.unscopedRest (Ix := Unit) (Name := ℕ) (U := UR sig nD τ) (Lvl := ℕ) spec1 c (Ve1 m c)
  hentry c := by
    rw [Pipeline.ownSems0_none]
    rw [V9_outs m c]
    have hsplit := Pipeline.arrays_of_unscopedBufs (p := 1) (pcfgs (F := F)) adm (pdats m) launch1.win launch1.arr_whole c
      ((pdats m 1 c).share_full fun _ => rfl) (Ve1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Ve1 m c) (Vx1 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over the pinned configuration unifies only when unification may unfold plain
-- definitions in a metavariable's type
set_option backward.isDefEq.respectTransparency.types false in
/-- Region 2 as a segment: entered from every unscoped buffer at the contents before it, left at the contents after it.
    Its arrays are split out of the unscoped buffers and put back at what the write-backs leave; the generator register
    goes into the body's invariant and comes back; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (Ve2 m) c).loose
  hwaits := Pipeline.hwaits_of_owed_zero _ _ _ _ L lv 2 fun _ _ => rfl
  pre c := iprop(StableHlo.held (c : Thread nD τ) (Pipeline.ucRefs τ sig) (V17 m (outs m) c) ∗ R c)
  post c := iprop(StableHlo.held (c : Thread nD τ) (Pipeline.ucRefs τ sig) (V18 m (outs m) c) ∗ R c)
  X c := iprop(∃ r, prngReg c r)
  Y c := iprop(∃ r, prngReg c r)
  Z c := Pipeline.unscopedRest (Ix := Unit) (Name := ℕ) (U := UR sig nD τ) (Lvl := ℕ) spec2 c (Ve2 m c)
  hentry c := by
    rw [Pipeline.ownSems0_none]
    rw [V17_outs m c]
    have hsplit := Pipeline.arrays_of_unscopedBufs (p := 2) (pcfgs (F := F)) adm (pdats m) launch2.win launch2.arr_whole c
      ((pdats m 2 c).share_full fun _ => rfl) (Ve2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (PhiA_join2 c _).trans (hin2 (Ve2 m) c)
  hout c := by
    rw [Pipeline.ownSems0_none]
    exact (hout2 (Ve2 m) c).trans (PhiA_split2 c)
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (Ve2 m c) (Vx2 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The launch -/

/-- The launch element: the pipeline library's own, at every pipeline's staging cells. -/
abbrev u₀ : UR sig nD τ := initOf (Pipeline.cells cfgs cellOf_inj) (Pipeline.launchToks cfgs cellOf_inj)

theorem hu₀ : (ownU (u₀) : sProp 𝕄) ⊢ |={Set.univ}=> iprop(BI.own (emb₁ (initOf (Pipeline.cells cfgs cellOf_inj) (Pipeline.launchToks cfgs cellOf_inj))) ∗ bigSep Finset.univ (fun _ : Dev nD => (BI.emp : sProp 𝕄))) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

/-- From what the launch deals a core — its unscoped semaphores at zero, the core owing nothing, its launch credit, the
    generator register — the rest that rides along: the register at some state, the core owing nothing. -/
theorem hE0 : iprop((bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (BI.emp : sProp 𝕄))) ∗ levAts L lv)
      ⊢ (|={Set.univ}=> bigSep Finset.univ (fun c : Dev nD => R (F := F) c) : sProp 𝕄) := by
  refine Pipeline.initEach L lv fun c => ?_
  iintro ⟨⟨-, HO, -, Hp, -⟩, -⟩
  imodintro
  isplitl [Hp]; · iexists _; iexact Hp
  iexists ∅; iexact HO

theorem hE3 (c : Dev nD) : R (F := F) c ⊢ (iprop(∃ W, owes (c : Thread nD τ) (0 : CellTallies nD τ sig Unit) W) : sProp 𝕄) := by
  iintro ⟨-, HO⟩; iexact HO

/-! ## The run -/

/-- Every weakly fair execution of @main terminates; the result buffer ends at what region 2's write-back leaves in it
    and every argument buffer as launched. -/
theorem run_main : θ_run defs (onTc (τ := τ) (main (F := F))) ⟨m, fun _ => 0, ρ⟩ (fun r => ∀ c : Dev nD,
      r.2.mem ((c.tc : Thread nD τ).loc main_v82) = (dat2 (Ve2 m) c).arrAt 5 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨(h c).1.trans (hF2_out m c).symm, (h c).2⟩)
    (run_cond m (emb₁ : Emb _ 𝕄) () 𝒱₀ L lv (fun _ _ => rfl) ρ (outs m) (pdats m) 0 (fun _ => (BI.emp : sProp 𝕄)) u₀ hu₀
      (fun _ c => R c) (hE0 ρ) hE3
      (reg0 m) (fun _ => .rfl) (fun _ => .rfl) (reg1 m) (fun _ => .rfl) (fun _ => .rfl) (reg2 m) (fun _ => .rfl) (fun _ => .rfl))

/-- The frame: every weakly fair execution of @main terminates and the argument buffers end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => (h c).2) (run_main m ρ)

end Cert.KernelIdeal.Hand

end
-- ==== Proof.Spec.lean ====
/-
  The shared vocabulary of the certificate: the stages of the two-layer graph convolution as functions of the
  argument arrays, each the composition of the host operations BOTH printed programs apply, in the order they apply
  them — the edge lists with their self loops, the wrap of a negative index, the in-degree, its inverse square root
  where the degree is positive, the per-edge weight, one aggregation (gather by source, scale, scatter-add by
  destination, bias, rectifier), the reference's dense projection, the graph sizes and the mean-pool head —, and the
  index-by-index functions the kernel's tiled regions are shown to compute (a row-by-row matrix product on the
  zero-padded array; the one-hot pooled sums scaled by the reciprocal sizes, projected, plus the bias).
-/
import proofs.«428559_j43585328120189_1_alg».proof.Proof.Gen.KernelIdeal
import proofs.«428559_j43585328120189_1_alg».proof.Proof.Gen.ReferenceIdeal
import Idealize.ShloMosaic.PureOps.Ideal
import Idealize.ShloMosaic.Lib.ValueIdx

noncomputable section

namespace Cert.Spec

open Idealize.ShloMosaic Cert.ReferenceIdeal Cert.ReferenceIdeal.Facts₀ Cert.ReferenceIdeal.Facts

variable {F : FTy → Type} [FloatOps F]

/-- The destination list: row 1 of the edge array, then every node once (its self loop). -/
def dstIdx (ei : IVec S2x1600000 32) : IVec S1700000 32 :=
  concatenate S1700000 0 [⟨S1600000, (shapeCast _ (extractStridedSlice S1x1600000 ![1, 0] ei slices_S2x1600000_S1x1600000_1_0) shapeCasts_S1x1600000_S1600000)⟩, ⟨S100000, (iotaInDim S100000 32 0)⟩] concatenates_S1600000_S100000_S1700000_d0

/-- The source list: row 0 of the edge array, then every node once. -/
def srcIdx (ei : IVec S2x1600000 32) : IVec S1700000 32 :=
  concatenate S1700000 0 [⟨S1600000, (shapeCast _ (extractStridedSlice S1x1600000 ![0, 0] ei slices_S2x1600000_S1x1600000_0_0) shapeCasts_S1x1600000_S1600000)⟩, ⟨S100000, (iotaInDim S100000 32 0)⟩] concatenates_S1600000_S100000_S1700000_d0

/-- A negative index counts from the end: `i < 0 ? i + 100000 : i`. -/
def wrap (ix : IVec S1700000 32) : IVec S1700000 32 :=
  select (cmpi .slt ix (broadcastInDim S1700000 ![] bcast_S_S1700000 (constantI S_ 32 0#32))) (addi ix (broadcastInDim S1700000 ![] bcast_S_S1700000 (constantI S_ 32 100000#32))) ix

/-- The in-degree with self loops: ones scatter-added by destination. -/
def deg (ei : IVec S2x1600000 32) : FVec F S100000 .f32 :=
  Host.scatterAdd scatter_S100000_S1700000x1_S1700000_n_0_0_1 (broadcastInDim S100000 ![] bcast_S_S100000 (constant S_ .f32 0x00000000#32)) (broadcastInDim S1700000x1 ![0] bcast_S1700000_S1700000x1_0 (dstIdx ei)) (broadcastInDim S1700000 ![] bcast_S_S1700000 (constant S_ .f32 0x3F800000#32))

/-- `deg > 0 ? rsqrt deg : 0`. -/
def dis (ei : IVec S2x1600000 32) : FVec F S100000 .f32 :=
  select (cmpf .ogt (deg (F := F) ei) (broadcastInDim S100000 ![] bcast_S_S100000 (constant S_ .f32 0x00000000#32))) (Host.rsqrt (deg (F := F) ei)) (broadcastInDim S100000 ![] bcast_S_S100000 (id (constant S_ .f32 0x00000000#32)))

/-- The per-edge weight `dis[src] * dis[dst]`. -/
def norm (ei : IVec S2x1600000 32) : FVec F S1700000 .f32 :=
  mulf (Host.gather gather_S100000_S1700000x1_S1700000_n_0_n_n_0_1_1 (dis (F := F) ei) (broadcastInDim S1700000x1 ![0] bcast_S1700000_S1700000x1_0 (wrap (srcIdx ei)))) (Host.gather gather_S100000_S1700000x1_S1700000_n_0_n_n_0_1_1 (dis (F := F) ei) (broadcastInDim S1700000x1 ![0] bcast_S1700000_S1700000x1_0 (wrap (dstIdx ei))))

/-- One aggregation of projected features `h`: gather rows by source, scale by the edge weight, scatter-add by
    destination into zeros, add the bias row, clamp at zero. -/
def agg (ei : IVec S2x1600000 32) (bias : FVec F S128 .f32) (h : FVec F S100000x128 .f32) : FVec F S100000x128 .f32 :=
  maximumf (addf (Host.scatterAdd scatter_S100000x128_S1700000x1_S1700000x128_1_0_0_1 (broadcastInDim S100000x128 ![] bcast_S_S100000x128 (constant S_ .f32 0x00000000#32)) (broadcastInDim S1700000x1 ![0] bcast_S1700000_S1700000x1_0 (dstIdx ei)) (mulf (Host.gather gather_S100000x128_S1700000x1_S1700000x128_1_0_n_n_0_1_1128 h (broadcastInDim S1700000x1 ![0] bcast_S1700000_S1700000x1_0 (wrap (srcIdx ei)))) (broadcastInDim S1700000x128 ![0, 1] bcast_S1700000x1_S1700000x128_0_1 (broadcastInDim S1700000x1 ![0] bcast_S1700000_S1700000x1_0 (norm (F := F) ei))))) (broadcastInDim S100000x128 ![0, 1] bcast_S1x128_S100000x128_0_1 (broadcastInDim S1x128 ![1] bcast_S128_S1x128_1 bias))) (broadcastInDim S100000x128 ![] bcast_S_S100000x128 (constant S_ .f32 0x00000000#32))

/-- The reference's dense projection `h @ W`. -/
def lin (h : FVec F S100000x128 .f32) (W : FVec F S128x128 .f32) : FVec F S100000x128 .f32 :=
  Host.dotGeneral dot_S100000x128_S128x128_S100000x128_1_0_0_1_n_n none h W

/-- `max(count of each graph id, 1)`. -/
def cntMax (b : IVec S100000 32) : FVec F S64 .f32 :=
  maximumf (Host.scatterAdd scatter_S64_S100000x1_S100000_n_0_0_1 (broadcastInDim S64 ![] bcast_S_S64 (constant S_ .f32 0x00000000#32)) (broadcastInDim S100000x1 ![0] bcast_S100000_S100000x1_0 b) (broadcastInDim S100000 ![] bcast_S_S100000 (constant S_ .f32 0x3F800000#32))) (broadcastInDim S64 ![] bcast_S_S64 (constant S_ .f32 0x3F800000#32))

/-- The reference's head: rows scatter-added by graph id, divided by the clamped sizes, projected, plus the bias. -/
def head (b : IVec S100000 32) (h : FVec F S100000x128 .f32) (Wfc : FVec F S128x10 .f32) (bfc : FVec F S10 .f32) : FVec F S64x10 .f32 :=
  addf (Host.dotGeneral dot_S64x128_S128x10_S64x10_1_0_0_1_n_n none (Host.divf (Host.scatterAdd scatter_S64x128_S100000x1_S100000x128_1_0_0_1 (broadcastInDim S64x128 ![] bcast_S_S64x128 (constant S_ .f32 0x00000000#32)) (broadcastInDim S100000x1 ![0] bcast_S100000_S100000x1_0 b) h) (broadcastInDim S64x128 ![0, 1] bcast_S64x1_S64x128_0_1 (broadcastInDim S64x1 ![0] bcast_S64_S64x1_0 (cntMax (F := F) b)))) Wfc) (broadcastInDim S64x10 ![0, 1] bcast_S1x10_S64x10_0_1 (broadcastInDim S1x10 ![1] bcast_S10_S1x10_1 bfc))

/-- The whole reference: two layers (project, aggregate), then the head. -/
def refG (x : FVec F S100000x128 .f32) (ei : IVec S2x1600000 32) (b : IVec S100000 32) (W1 : FVec F S128x128 .f32) (b1 : FVec F S128 .f32)
    (W2 : FVec F S128x128 .f32) (b2 : FVec F S128 .f32) (Wfc : FVec F S128x10 .f32) (bfc : FVec F S10 .f32) : FVec F S64x10 .f32 :=
  head b (agg ei b2 (lin (agg ei b1 (lin x W1)) W2)) Wfc bfc

/-! ## The kernel-only host stages -/

/-- Rows padded with zeros from 100000 to 100352 (49 tiles of 2048). -/
def pad0 (h : FVec F S100000x128 .f32) : FVec F Cert.KernelIdeal.S100352x128 .f32 :=
  pad Cert.KernelIdeal.S100352x128 ![0, 0] ![352, 0] ![0, 0] h (sitofp .f32 (constantI S_ 32 0#32)) Cert.KernelIdeal.Facts₀.pads_S100000x128_S100352x128_03520_000 Cert.KernelIdeal.Facts₀.h_S_

/-- The first 100000 rows back. -/
def slice0 (y : FVec F Cert.KernelIdeal.S100352x128 .f32) : FVec F S100000x128 .f32 :=
  extractStridedSlice S100000x128 ![0, 0] y Cert.KernelIdeal.Facts₀.slices_S100352x128_S100000x128_0_0

/-- The graph ids padded with -1 to 100352 entries, as a column. -/
def padB (b : IVec S100000 32) : IVec Cert.KernelIdeal.S100352x1 32 :=
  shapeCast _ (pad Cert.KernelIdeal.S100352 ![0] ![352] ![0] b (id (constantI S_ 32 4294967295#32)) Cert.KernelIdeal.Facts₀.pads_S100000_S100352_03520 Cert.KernelIdeal.Facts₀.h_S_) Cert.KernelIdeal.Facts₀.shapeCasts_S100352_S100352x1

/-- `1 / max(count, 1)` as a column. -/
def recip (b : IVec S100000 32) : FVec F Cert.KernelIdeal.S64x1 .f32 :=
  shapeCast _ (Host.divf (broadcastInDim S64 ![] bcast_S_S64 (constant S_ .f32 0x3F800000#32)) (cntMax (F := F) b)) Cert.KernelIdeal.Facts₀.shapeCasts_S64_S64x1

/-! ## What the tiled regions compute, index by index (at the ideal instance) -/

open ValueIdx

/-- Row `i`, column `j` of a row-tiled matrix product: `∑ k, X[i,k] · W[k,j]`. -/
def LinG (X : FVec Ideal Cert.KernelIdeal.S100352x128 .f32) (W : FVec Ideal S128x128 .f32) : FVec Ideal Cert.KernelIdeal.S100352x128 .f32 :=
  fun i => ∑ k : Fin 128, X (ix2 (n0 := 100352) (n1 := 128) (i 0) k) * W (ix2 (n0 := 128) (n1 := 128) k (i 1))

/-- One entry of the one-hot matrix: 1 where the row's graph id is `g`, else 0. -/
def oneHot (bw : BitVec 32) (g : Fin 64) : EReal := if bw = BitVec.ofNat 32 g.val then 1 else 0

/-- The pooled head, entry `(g, j)`: `∑ d, ((∑ r, [B r = g] · H[r,d]) · R[g]) · Wfc[d,j] + bfc[j]`. -/
def PoolG (H : FVec Ideal Cert.KernelIdeal.S100352x128 .f32) (B : IVec Cert.KernelIdeal.S100352x1 32) (R : FVec Ideal Cert.KernelIdeal.S64x1 .f32)
    (Wfc : FVec Ideal S128x10 .f32) (bfc : FVec Ideal S10 .f32) : FVec Ideal S64x10 .f32 :=
  fun i => (∑ d : Fin 128, ((∑ r : Fin 100352, oneHot (B (ix2 (n0 := 100352) (n1 := 1) r 0)) (i 0) * H (ix2 (n0 := 100352) (n1 := 128) r d))
      * R (ix2 (n0 := 64) (n1 := 1) (i 0) 0)) * Wfc (ix2 (n0 := 128) (n1 := 10) d (i 1))) + bfc (ix1 (n := 10) (i 1))

end Cert.Spec

end
-- ==== Proof.RefVal.lean ====
/-
  The reference program's result, read as the composition of the named stages: its run ends with the result
  buffer holding the mean-pool head of the second aggregation of the second projection of the first aggregation
  of the first projection of the argument arrays, and the argument arrays unchanged. The composed term of the
  run and the composition of the stages are the same expression, so the equality is by unfolding the stages.
-/
import proofs.«428559_j43585328120189_1_alg».proof.Proof.Spec
import proofs.«428559_j43585328120189_1_alg».proof.Proof.RefRun
import proofs.«428559_j43585328120189_1_alg».proof.Proof.Gen.Pre_finite_inputs
import proofs.«428559_j43585328120189_1_alg».proof.Defs

noncomputable section

namespace Cert.RefValue

open Idealize.ShloMosaic Idealize.SL.Sem Idealize.ShloMosaic.TcCoe Cert.ReferenceIdeal Cert.ReferenceIdeal.Gen

/-- The run's composed term is the composition of the stages, for any float family. -/
theorem res_eq_refG {F : FTy → Type} [FloatOps F] (m : (ℓ : Loc nD τ sig) → Buf (Elt F) ℓ) (c : Dev nD) :
    Cert.ReferenceIdeal.ValueP.res_out0 m c
      = Cert.Spec.refG (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  show Cert.ReferenceIdeal.ValueP.res_main_v104 m c = _
  unfold Cert.ReferenceIdeal.ValueP.res_main_v104 Cert.Spec.refG Cert.Spec.head Cert.Spec.cntMax Cert.Spec.agg Cert.Spec.lin
    Cert.Spec.norm Cert.Spec.dis Cert.Spec.deg Cert.Spec.wrap Cert.Spec.srcIdx Cert.Spec.dstIdx
  rfl

/-- Every weakly fair execution of the reference terminates with its result at the composition of the stages
    of the launch contents of the arguments, the arguments unchanged. -/
theorem ref_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v104)
        = Cert.Spec.refG (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨(h c).1.trans (res_eq_refG m c), (h c).2⟩)
    (Cert.ReferenceIdeal.ValueP.run (F := Ideal) m ρ)

/-- The reference runs and leaves its arguments unchanged. -/
theorem frame_ref : Cert.frame_ReferenceIdeal :=
  fun m ρ _ => (θ_run Cert.ReferenceIdeal.defs _ _).mono (fun _ h c => (h c).2)
    (Cert.ReferenceIdeal.ValueP.run (F := Ideal) m ρ)

end Cert.RefValue

end
-- ==== Proof.ValLin.lean ====
/-
  The row-tiled matrix products of the two projection regions: the tile's payload read at an index is the contraction
  sum of a row with a column; the zero-padded, row-tiled product restricted to the first 100000 rows is the dense
  projection; and the tiles' blocks assemble to the index-by-index product of the whole padded array.
-/
import proofs.«428559_j43585328120189_1_alg».proof.Proof.Spec
import proofs.«428559_j43585328120189_1_alg».proof.Proof.Gen.KernelIdeal.Skeleton
import proofs.«428559_j43585328120189_1_alg».proof.Proof.KI_Reg0
import proofs.«428559_j43585328120189_1_alg».proof.Proof.KI_Reg1
import Idealize.ShloMosaic.PureOps.Ideal.Laws
import Idealize.ShloMosaic.Lib.ValueIdx
import Idealize.ShloMosaic.Lib.Pipeline.Value
import Idealize.ShloMosaic.Lib.KernelVsHost

noncomputable section

namespace Cert.Value

section Tile
open Idealize.ShloMosaic Cert.KernelIdeal Cert.KernelIdeal.Facts₀ Cert.KernelIdeal.Facts Cert.KernelIdeal.Gen

/-! ## The tile's matrix product at an index -/

theorem tile_lhs_0 (i : S2048x128.Idx) (c : dot_S2048x128_S128x128_S2048x128_1_0_0_1_n_n.contr.Idx) :
    (dot_S2048x128_S128x128_S2048x128_1_0_0_1_n_n.lhsIdx i c 0).val = (i 0).val := by
  unfold DotDims.lhsIdx
  rw [dif_neg (show ¬(0 : Fin S2048x128.rank) ∈ dot_S2048x128_S128x128_S2048x128_1_0_0_1_n_n.lhsBatch by decide), dif_pos (show (0 : Fin S2048x128.rank) ∈ dot_S2048x128_S128x128_S2048x128_1_0_0_1_n_n.lhsNonContracting by decide)]
  rfl
theorem tile_lhs_1 (i : S2048x128.Idx) (c : dot_S2048x128_S128x128_S2048x128_1_0_0_1_n_n.contr.Idx) :
    (dot_S2048x128_S128x128_S2048x128_1_0_0_1_n_n.lhsIdx i c 1).val = (c ⟨0, by decide⟩).val :=
  dot_S2048x128_S128x128_S2048x128_1_0_0_1_n_n.lhsIdx_val_of_single rfl i c
theorem tile_rhs_0 (i : S2048x128.Idx) (c : dot_S2048x128_S128x128_S2048x128_1_0_0_1_n_n.contr.Idx) :
    (dot_S2048x128_S128x128_S2048x128_1_0_0_1_n_n.rhsIdx i c 0).val = (c ⟨0, by decide⟩).val :=
  dot_S2048x128_S128x128_S2048x128_1_0_0_1_n_n.rhsIdx_val_of_single rfl i c
theorem tile_rhs_1 (i : S2048x128.Idx) (c : dot_S2048x128_S128x128_S2048x128_1_0_0_1_n_n.contr.Idx) :
    (dot_S2048x128_S128x128_S2048x128_1_0_0_1_n_n.rhsIdx i c 1).val = (i 1).val := by
  unfold DotDims.rhsIdx
  rw [dif_neg (show ¬(1 : Fin S128x128.rank) ∈ dot_S2048x128_S128x128_S2048x128_1_0_0_1_n_n.rhsBatch by decide), dif_pos (show (1 : Fin S128x128.rank) ∈ dot_S2048x128_S128x128_S2048x128_1_0_0_1_n_n.rhsNonContracting by decide)]
  rfl

/-- A [2048,128] × [128,128] product into the zero array, at `(p, q)`: `∑ k, a[p,k] · b[k,q]`. -/
theorem tile_matmul_apply (a : FVec Ideal S2048x128 .bf16) (b : FVec Ideal S128x128 .bf16) (p : Fin 2048) (q : Fin 128) :
    FloatOps.matmul dot_S2048x128_S128x128_S2048x128_1_0_0_1_n_n none a b (constant S2048x128 .f32 0x00000000#32) (ValueIdx.ix2 p q)
      = ∑ k : Fin 128, a (ValueIdx.ix2 p k) * b (ValueIdx.ix2 k q) := by
  rw [Ideal.matmul_constant_zero_apply, ← Equiv.sum_comp (ValueIdx.contrEquiv1 dot_S2048x128_S128x128_S2048x128_1_0_0_1_n_n 128 rfl rfl).symm]
  refine Finset.sum_congr rfl fun k _ => ?_
  have hk := ValueIdx.contrEquiv1_symm_val dot_S2048x128_S128x128_S2048x128_1_0_0_1_n_n 128 rfl rfl k
  have el : dot_S2048x128_S128x128_S2048x128_1_0_0_1_n_n.lhsIdx (ValueIdx.ix2 p q) ((ValueIdx.contrEquiv1 dot_S2048x128_S128x128_S2048x128_1_0_0_1_n_n 128 rfl rfl).symm k) = ValueIdx.ix2 p k := funext fun a => Fin.ext (by
    match a with
    | ⟨0, _⟩ => exact tile_lhs_0 _ _
    | ⟨1, _⟩ => exact (tile_lhs_1 _ _).trans hk)
  have er : dot_S2048x128_S128x128_S2048x128_1_0_0_1_n_n.rhsIdx (ValueIdx.ix2 p q) ((ValueIdx.contrEquiv1 dot_S2048x128_S128x128_S2048x128_1_0_0_1_n_n 128 rfl rfl).symm k) = ValueIdx.ix2 k q := funext fun a => Fin.ext (by
    match a with
    | ⟨0, _⟩ => exact (tile_rhs_0 _ _).trans hk
    | ⟨1, _⟩ => exact tile_rhs_1 _ _)
  rw [el, er]

/-- The payload of the region-0 matrix product, read at `(p, q)`: the contraction sum of the row of the tile with the
    column of the weight (the casts are the identity on extended reals, the accumulator is the zero array). -/
theorem k0_pay1_apply (x0 : Vec Ideal S2048x128 .f32) (x1 : Vec Ideal S128x128 .f32) (p : Fin 2048) (q : Fin 128) :
    Cert.KernelIdeal.Gen.k0_pay1 (F := Ideal) x0 x1 (ValueIdx.ix2 p q)
      = ∑ k : Fin 128, x0 (ValueIdx.ix2 p k) * x1 (ValueIdx.ix2 k q) := by
  unfold Cert.KernelIdeal.Gen.k0_pay1
  simp only [matmul, shapeCast_self]
  exact tile_matmul_apply _ _ p q

/-- The payload of the region-1 matrix product, read at `(p, q)`: the contraction sum of the row of the tile with the
    column of the weight (the casts are the identity on extended reals, the accumulator is the zero array). -/
theorem k1_pay1_apply (x0 : Vec Ideal S2048x128 .f32) (x1 : Vec Ideal S128x128 .f32) (p : Fin 2048) (q : Fin 128) :
    Cert.KernelIdeal.Gen.k1_pay1 (F := Ideal) x0 x1 (ValueIdx.ix2 p q)
      = ∑ k : Fin 128, x0 (ValueIdx.ix2 p k) * x1 (ValueIdx.ix2 k q) := by
  unfold Cert.KernelIdeal.Gen.k1_pay1
  simp only [matmul, shapeCast_self]
  exact tile_matmul_apply _ _ p q

end Tile

section Bridge
open Idealize.ShloMosaic

/-! ## The zero-padded, row-tiled product restricted to the first 100000 rows is the dense projection -/

theorem dense_lhs_0 (i : Cert.ReferenceIdeal.S100000x128.Idx) (c : Cert.ReferenceIdeal.dot_S100000x128_S128x128_S100000x128_1_0_0_1_n_n.contr.Idx) :
    (Cert.ReferenceIdeal.dot_S100000x128_S128x128_S100000x128_1_0_0_1_n_n.lhsIdx i c 0).val = (i 0).val := by
  unfold DotDims.lhsIdx
  rw [dif_neg (show ¬(0 : Fin Cert.ReferenceIdeal.S100000x128.rank) ∈ Cert.ReferenceIdeal.dot_S100000x128_S128x128_S100000x128_1_0_0_1_n_n.lhsBatch by decide), dif_pos (show (0 : Fin Cert.ReferenceIdeal.S100000x128.rank) ∈ Cert.ReferenceIdeal.dot_S100000x128_S128x128_S100000x128_1_0_0_1_n_n.lhsNonContracting by decide)]
  rfl
theorem dense_lhs_1 (i : Cert.ReferenceIdeal.S100000x128.Idx) (c : Cert.ReferenceIdeal.dot_S100000x128_S128x128_S100000x128_1_0_0_1_n_n.contr.Idx) :
    (Cert.ReferenceIdeal.dot_S100000x128_S128x128_S100000x128_1_0_0_1_n_n.lhsIdx i c 1).val = (c ⟨0, by decide⟩).val :=
  Cert.ReferenceIdeal.dot_S100000x128_S128x128_S100000x128_1_0_0_1_n_n.lhsIdx_val_of_single rfl i c
theorem dense_rhs_0 (i : Cert.ReferenceIdeal.S100000x128.Idx) (c : Cert.ReferenceIdeal.dot_S100000x128_S128x128_S100000x128_1_0_0_1_n_n.contr.Idx) :
    (Cert.ReferenceIdeal.dot_S100000x128_S128x128_S100000x128_1_0_0_1_n_n.rhsIdx i c 0).val = (c ⟨0, by decide⟩).val :=
  Cert.ReferenceIdeal.dot_S100000x128_S128x128_S100000x128_1_0_0_1_n_n.rhsIdx_val_of_single rfl i c
theorem dense_rhs_1 (i : Cert.ReferenceIdeal.S100000x128.Idx) (c : Cert.ReferenceIdeal.dot_S100000x128_S128x128_S100000x128_1_0_0_1_n_n.contr.Idx) :
    (Cert.ReferenceIdeal.dot_S100000x128_S128x128_S100000x128_1_0_0_1_n_n.rhsIdx i c 1).val = (i 1).val := by
  unfold DotDims.rhsIdx
  rw [dif_neg (show ¬(1 : Fin Cert.ReferenceIdeal.S128x128.rank) ∈ Cert.ReferenceIdeal.dot_S100000x128_S128x128_S100000x128_1_0_0_1_n_n.rhsBatch by decide), dif_pos (show (1 : Fin Cert.ReferenceIdeal.S128x128.rank) ∈ Cert.ReferenceIdeal.dot_S100000x128_S128x128_S100000x128_1_0_0_1_n_n.rhsNonContracting by decide)]
  rfl

/-- The dense projection at `(p, q)`: `∑ k, X[p,k] · W[k,q]`. -/
theorem lin_apply (X : FVec Ideal Cert.ReferenceIdeal.S100000x128 .f32) (W : FVec Ideal Cert.ReferenceIdeal.S128x128 .f32) (p : Fin 100000) (q : Fin 128) :
    Cert.Spec.lin X W (ValueIdx.ix2 p q) = ∑ k : Fin 128, X (ValueIdx.ix2 p k) * W (ValueIdx.ix2 k q) := by
  unfold Cert.Spec.lin
  simp only [Host.dotGeneral]
  rw [Ideal.dotGeneral_apply, ← Equiv.sum_comp (ValueIdx.contrEquiv1 Cert.ReferenceIdeal.dot_S100000x128_S128x128_S100000x128_1_0_0_1_n_n 128 rfl rfl).symm]
  refine Finset.sum_congr rfl fun k _ => ?_
  have hk := ValueIdx.contrEquiv1_symm_val Cert.ReferenceIdeal.dot_S100000x128_S128x128_S100000x128_1_0_0_1_n_n 128 rfl rfl k
  have el : Cert.ReferenceIdeal.dot_S100000x128_S128x128_S100000x128_1_0_0_1_n_n.lhsIdx (ValueIdx.ix2 p q) ((ValueIdx.contrEquiv1 Cert.ReferenceIdeal.dot_S100000x128_S128x128_S100000x128_1_0_0_1_n_n 128 rfl rfl).symm k) = ValueIdx.ix2 p k := funext fun a => Fin.ext (by
    match a with
    | ⟨0, _⟩ => exact dense_lhs_0 _ _
    | ⟨1, _⟩ => exact (dense_lhs_1 _ _).trans hk)
  have er : Cert.ReferenceIdeal.dot_S100000x128_S128x128_S100000x128_1_0_0_1_n_n.rhsIdx (ValueIdx.ix2 p q) ((ValueIdx.contrEquiv1 Cert.ReferenceIdeal.dot_S100000x128_S128x128_S100000x128_1_0_0_1_n_n 128 rfl rfl).symm k) = ValueIdx.ix2 k q := funext fun a => Fin.ext (by
    match a with
    | ⟨0, _⟩ => exact (dense_rhs_0 _ _).trans hk
    | ⟨1, _⟩ => exact dense_rhs_1 _ _)
  rw [el, er]

/-- A row below 100000 of the zero-padded array is the array's own row. -/
theorem pad0_row (X : FVec Ideal Cert.ReferenceIdeal.S100000x128 .f32) (p : Fin 100000) (k : Fin 128) :
    Cert.Spec.pad0 X (ValueIdx.ix2 (n0 := 100352) (n1 := 128) ⟨p.val, by have := p.isLt; omega⟩ k) = X (ValueIdx.ix2 p k) := by
  unfold Cert.Spec.pad0
  exact pad_apply_of_inside _ _ _ X _ _ _ _ (ValueIdx.ix2 p k) (fun a => by
    match a with
    | ⟨0, _⟩ => show p.val = 0 + p.val * (0 + 1); omega
    | ⟨1, _⟩ => show k.val = 0 + k.val * (0 + 1); omega)

/-- Pad with zero rows, multiply row by row, keep the first 100000 rows: the dense projection. -/
theorem lin_bridge (X : FVec Ideal Cert.ReferenceIdeal.S100000x128 .f32) (W : FVec Ideal Cert.ReferenceIdeal.S128x128 .f32) :
    Cert.Spec.slice0 (Cert.Spec.LinG (Cert.Spec.pad0 X) W) = Cert.Spec.lin X W := by
  funext i
  obtain ⟨p, q, rfl⟩ : ∃ (p : Fin 100000) (q : Fin 128), i = ValueIdx.ix2 p q := ⟨i 0, i 1, ValueIdx.eq_ix2 i⟩
  rw [lin_apply]
  unfold Cert.Spec.slice0
  refine (extractStridedSlice_apply _ _ _ (ValueIdx.ix2 p q)
    (ValueIdx.ix2 (n0 := 100352) (n1 := 128) ⟨p.val, by have := p.isLt; omega⟩ q) (fun a => by
      match a with
      | ⟨0, _⟩ => show p.val = 0 + p.val; omega
      | ⟨1, _⟩ => show q.val = 0 + q.val; omega)).trans ?_
  show ∑ k : Fin 128, Cert.Spec.pad0 X (ValueIdx.ix2 (n0 := 100352) (n1 := 128) ⟨p.val, by have := p.isLt; omega⟩ k) * W (ValueIdx.ix2 k q) = _
  exact Finset.sum_congr rfl fun k _ => by rw [pad0_row]

end Bridge

section Blocks
open Idealize.ShloMosaic Idealize.ShloMosaic.TcCoe Idealize.SL.Sem
open Idealize.ShloMosaic.Pipeline (Dat)
open Cert.KernelIdeal Cert.KernelIdeal.Facts₀ Cert.KernelIdeal.Facts Cert.KernelIdeal.Gen Cert.KernelIdeal.Hand

/-! ## The tiles' blocks assemble to the product of the whole padded array -/

/-- A row of a tile against the weight's columns is the row-tiled product at the row of the padded array the tile's
    row sits on: if the tile holds rows `2048 r …` of `A` and the weight block holds `W`, then
    `∑ k, tile[p,k] · w[k,q] = (A · W)[2048 r + p, q]`. -/
theorem rowsum_eq_LinG (A : FVec Ideal S100352x128 .f32) (W : FVec Ideal S128x128 .f32)
    (x0 : Vec Ideal S2048x128 .f32) (x1 : Vec Ideal S128x128 .f32) (r : Nat)
    (h0 : ∀ (p : Fin 2048) (k : Fin 128) (i : S100352x128.Idx), (i 0).val = r * 2048 + p.val → (i 1).val = k.val →
      x0 (ValueIdx.ix2 p k) = A i)
    (h1 : ∀ k q : Fin 128, x1 (ValueIdx.ix2 k q) = W (ValueIdx.ix2 k q))
    (p : Fin 2048) (q : Fin 128) (i : S100352x128.Idx) (hi0 : (i 0).val = r * 2048 + p.val) (hi1 : (i 1).val = q.val) :
    ∑ k : Fin 128, x0 (ValueIdx.ix2 p k) * x1 (ValueIdx.ix2 k q) = Cert.Spec.LinG A W i := by
  show _ = ∑ k : Fin 128, A (ValueIdx.ix2 (n0 := 100352) (n1 := 128) (i 0) k) * W (ValueIdx.ix2 (n0 := 128) (n1 := 128) k (i 1))
  have hq : (i 1 : Fin 128) = q := Fin.ext hi1
  refine Finset.sum_congr rfl fun k _ => ?_
  rw [h0 p k (ValueIdx.ix2 (n0 := 100352) (n1 := 128) (i 0) k) hi0 rfl, h1 k q, hq]

variable (V : (c : Dev nD) → (b : Ref sig .tc) → Buf (Elt Ideal) ((c : Thread nD τ).loc b))

/-! ### Region 0 -/

/-- The block indices of region 0's three windows at point `t`, decided over the 49 points: the operand's and the
    result's row tiles are at `(t, 0)`, the weight's one block at `(0, 0)`. -/
theorem tile_points0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The operand's tile at point `t` holds rows `2048 t … 2048 t + 2047` of the padded operand. -/
theorem xtile0_apply (c : Dev nD) (t : Fin cfg0.N) (p : Fin 2048) (k : Fin 128) (i : S100352x128.Idx)
    (hi0 : (i 0).val = t.val * 2048 + p.val) (hi1 : (i 1).val = k.val) :
    (iblk0 V c 0 t : Vec Ideal S2048x128 .f32) (ValueIdx.ix2 p k) = (V c main_v30 : S100352x128.Idx → Ideal .f32) i := by
  have e := tile_points0 t
  unfold iblk0
  rw [View.read_apply]
  show V c main_v30 (((cfg0.win 0).blk t).view.emb (ValueIdx.ix2 p k)) = V c main_v30 i
  refine congrArg (V c main_v30) (funext fun a => Fin.ext ?_)
  match a with
  | ⟨0, _⟩ => show win0_0.index t (0 : Fin 2) * 2048 + 1 * p.val = (i 0).val; omega
  | ⟨1, _⟩ => show win0_0.index t (1 : Fin 2) * 128 + 1 * k.val = (i 1).val; omega

/-- The weight's block at every point is the whole weight matrix. -/
theorem wtile0_apply (c : Dev nD) (t : Fin cfg0.N) (k q : Fin 128) :
    (iblk0 V c 1 t : Vec Ideal S128x128 .f32) (ValueIdx.ix2 k q) = (V c main_arg3 : S128x128.Idx → Ideal .f32) (ValueIdx.ix2 k q) := by
  have e := tile_points0 t
  unfold iblk0
  rw [View.read_apply]
  show V c main_arg3 (((cfg0.win 1).blk t).view.emb (ValueIdx.ix2 k q)) = V c main_arg3 (ValueIdx.ix2 k q)
  refine congrArg (V c main_arg3) (funext fun a => Fin.ext ?_)
  match a with
  | ⟨0, _⟩ => show win0_1.index t (0 : Fin 2) * 128 + 1 * k.val = k.val; omega
  | ⟨1, _⟩ => show win0_1.index t (1 : Fin 2) * 128 + 1 * q.val = q.val; omega

/-- What point `t` writes back is block `t` of the row-tiled product of the padded operand with the weight. -/
theorem tile0_eq (c : Dev nD) (t : Fin cfg0.N) :
    (dat0 V c).flushed 2 t
      = ((cfg0.win 2).blk t).view.read (Elt Ideal) (Cert.Spec.LinG (V c main_v30) (V c main_arg3)) := by
  show (cfg0.win 2).cut (grid0.coords t) ((dat0 V c).after 2 t) = _
  rw [after0_2, out0_2_eq]
  have e := tile_points0 t
  refine funext fun (j : S2048x128.Idx) => ?_
  obtain ⟨p, q, rfl⟩ : ∃ (p : Fin 2048) (q : Fin 128), j = ValueIdx.ix2 p q := ⟨j 0, j 1, ValueIdx.eq_ix2 j⟩
  show k0_pay1 (F := Ideal) (iblk0 V c 0 t) (iblk0 V c 1 t) (ValueIdx.ix2 p q)
    = Cert.Spec.LinG (V c main_v30) (V c main_arg3) (((cfg0.win 2).blk t).view.emb (ValueIdx.ix2 p q))
  refine (k0_pay1_apply (iblk0 V c 0 t) (iblk0 V c 1 t) p q).trans ?_
  exact rowsum_eq_LinG (V c main_v30) (V c main_arg3) (iblk0 V c 0 t) (iblk0 V c 1 t) t.val
    (fun p k i h0 h1 => xtile0_apply V c t p k i h0 h1) (fun k q => wtile0_apply V c t k q) p q
    (((cfg0.win 2).blk t).view.emb (ValueIdx.ix2 p q))
    (by show win0_2.index t (0 : Fin 2) * 2048 + 1 * p.val = t.val * 2048 + p.val; omega)
    (by show win0_2.index t (1 : Fin 2) * 128 + 1 * q.val = q.val; omega)

/-- An index of the padded array is in point `t`'s result block iff each coordinate is in the block's range. -/
theorem mem_tile0 (t : Fin cfg0.N) (i : S100352x128.Idx) :
    i ∈ ((cfg0.win 2).blk t).view.set ↔ ∀ a : Fin 2, win0_2.index t a * S2048x128.size a ≤ (i a).val
      ∧ (i a).val < win0_2.index t a * S2048x128.size a + S2048x128.size a := by
  show i ∈ ((View.whole main_v31).slice (win0_2.rect t)).set ↔ _
  rw [View.set_slice_whole, Rect.mem_set_unit]
  exact Iff.rfl

/-- Row `r` of the padded array is in the result block of point `r / 2048`: the 49 tiles of 2048 rows fill it. -/
theorem rows_covered0 (i : S100352x128.Idx) :
    ∃ t : Fin cfg0.N, (cfg0.win 2).flush t = true ∧ i ∈ ((cfg0.win 2).blk t).view.set := by
  have hi0 : (i 0).val < 100352 := (i 0).isLt
  have hi1 : (i 1).val < 128 := (i 1).isLt
  have ht : (i 0).val / 2048 < cfg0.N := by show (i 0).val / 2048 < 49; omega
  obtain ⟨-, -, -, -, e4, e5⟩ := tile_points0 ⟨(i 0).val / 2048, ht⟩
  have e4' : win0_2.index ⟨(i 0).val / 2048, ht⟩ (0 : Fin 2) = (i 0).val / 2048 := e4
  refine ⟨⟨(i 0).val / 2048, ht⟩, flush0_2 _, ?_⟩
  rw [mem_tile0]
  intro a
  match a with
  | ⟨0, _⟩ =>
    show win0_2.index ⟨(i 0).val / 2048, ht⟩ (0 : Fin 2) * 2048 ≤ (i 0).val
      ∧ (i 0).val < win0_2.index ⟨(i 0).val / 2048, ht⟩ (0 : Fin 2) * 2048 + 2048
    omega
  | ⟨1, _⟩ =>
    show win0_2.index ⟨(i 0).val / 2048, ht⟩ (1 : Fin 2) * 128 ≤ (i 1).val
      ∧ (i 1).val < win0_2.index ⟨(i 0).val / 2048, ht⟩ (1 : Fin 2) * 128 + 128
    omega

/-- After region 0 the result array holds the row-tiled product of the padded operand with the weight. -/
theorem lin0_final (c : Dev nD) :
    (dat0 V c).arrAt 2 cfg0.N = Cert.Spec.LinG (V c main_v30) (V c main_arg3) :=
  (dat0 V c).arrAt_eq_of_cover 2 (Cert.Spec.LinG (V c main_v30) (V c main_arg3)) (fun t _ => tile0_eq V c t) (rows_covered0)

/-! ### Region 1 -/

/-- The block indices of region 1's three windows at point `t`, decided over the 49 points: the operand's and the
    result's row tiles are at `(t, 0)`, the weight's one block at `(0, 0)`. -/
theorem tile_points1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The operand's tile at point `t` holds rows `2048 t … 2048 t + 2047` of the padded operand. -/
theorem xtile1_apply (c : Dev nD) (t : Fin cfg1.N) (p : Fin 2048) (k : Fin 128) (i : S100352x128.Idx)
    (hi0 : (i 0).val = t.val * 2048 + p.val) (hi1 : (i 1).val = k.val) :
    (iblk1 V c 0 t : Vec Ideal S2048x128 .f32) (ValueIdx.ix2 p k) = (V c main_v50 : S100352x128.Idx → Ideal .f32) i := by
  have e := tile_points1 t
  unfold iblk1
  rw [View.read_apply]
  show V c main_v50 (((cfg1.win 0).blk t).view.emb (ValueIdx.ix2 p k)) = V c main_v50 i
  refine congrArg (V c main_v50) (funext fun a => Fin.ext ?_)
  match a with
  | ⟨0, _⟩ => show win1_0.index t (0 : Fin 2) * 2048 + 1 * p.val = (i 0).val; omega
  | ⟨1, _⟩ => show win1_0.index t (1 : Fin 2) * 128 + 1 * k.val = (i 1).val; omega

/-- The weight's block at every point is the whole weight matrix. -/
theorem wtile1_apply (c : Dev nD) (t : Fin cfg1.N) (k q : Fin 128) :
    (iblk1 V c 1 t : Vec Ideal S128x128 .f32) (ValueIdx.ix2 k q) = (V c main_arg5 : S128x128.Idx → Ideal .f32) (ValueIdx.ix2 k q) := by
  have e := tile_points1 t
  unfold iblk1
  rw [View.read_apply]
  show V c main_arg5 (((cfg1.win 1).blk t).view.emb (ValueIdx.ix2 k q)) = V c main_arg5 (ValueIdx.ix2 k q)
  refine congrArg (V c main_arg5) (funext fun a => Fin.ext ?_)
  match a with
  | ⟨0, _⟩ => show win1_1.index t (0 : Fin 2) * 128 + 1 * k.val = k.val; omega
  | ⟨1, _⟩ => show win1_1.index t (1 : Fin 2) * 128 + 1 * q.val = q.val; omega

/-- What point `t` writes back is block `t` of the row-tiled product of the padded operand with the weight. -/
theorem tile1_eq (c : Dev nD) (t : Fin cfg1.N) :
    (dat1 V c).flushed 2 t
      = ((cfg1.win 2).blk t).view.read (Elt Ideal) (Cert.Spec.LinG (V c main_v50) (V c main_arg5)) := by
  show (cfg1.win 2).cut (grid1.coords t) ((dat1 V c).after 2 t) = _
  rw [after1_2, out1_2_eq]
  have e := tile_points1 t
  refine funext fun (j : S2048x128.Idx) => ?_
  obtain ⟨p, q, rfl⟩ : ∃ (p : Fin 2048) (q : Fin 128), j = ValueIdx.ix2 p q := ⟨j 0, j 1, ValueIdx.eq_ix2 j⟩
  show k1_pay1 (F := Ideal) (iblk1 V c 0 t) (iblk1 V c 1 t) (ValueIdx.ix2 p q)
    = Cert.Spec.LinG (V c main_v50) (V c main_arg5) (((cfg1.win 2).blk t).view.emb (ValueIdx.ix2 p q))
  refine (k1_pay1_apply (iblk1 V c 0 t) (iblk1 V c 1 t) p q).trans ?_
  exact rowsum_eq_LinG (V c main_v50) (V c main_arg5) (iblk1 V c 0 t) (iblk1 V c 1 t) t.val
    (fun p k i h0 h1 => xtile1_apply V c t p k i h0 h1) (fun k q => wtile1_apply V c t k q) p q
    (((cfg1.win 2).blk t).view.emb (ValueIdx.ix2 p q))
    (by show win1_2.index t (0 : Fin 2) * 2048 + 1 * p.val = t.val * 2048 + p.val; omega)
    (by show win1_2.index t (1 : Fin 2) * 128 + 1 * q.val = q.val; omega)

/-- An index of the padded array is in point `t`'s result block iff each coordinate is in the block's range. -/
theorem mem_tile1 (t : Fin cfg1.N) (i : S100352x128.Idx) :
    i ∈ ((cfg1.win 2).blk t).view.set ↔ ∀ a : Fin 2, win1_2.index t a * S2048x128.size a ≤ (i a).val
      ∧ (i a).val < win1_2.index t a * S2048x128.size a + S2048x128.size a := by
  show i ∈ ((View.whole main_v51).slice (win1_2.rect t)).set ↔ _
  rw [View.set_slice_whole, Rect.mem_set_unit]
  exact Iff.rfl

/-- Row `r` of the padded array is in the result block of point `r / 2048`: the 49 tiles of 2048 rows fill it. -/
theorem rows_covered1 (i : S100352x128.Idx) :
    ∃ t : Fin cfg1.N, (cfg1.win 2).flush t = true ∧ i ∈ ((cfg1.win 2).blk t).view.set := by
  have hi0 : (i 0).val < 100352 := (i 0).isLt
  have hi1 : (i 1).val < 128 := (i 1).isLt
  have ht : (i 0).val / 2048 < cfg1.N := by show (i 0).val / 2048 < 49; omega
  obtain ⟨-, -, -, -, e4, e5⟩ := tile_points1 ⟨(i 0).val / 2048, ht⟩
  have e4' : win1_2.index ⟨(i 0).val / 2048, ht⟩ (0 : Fin 2) = (i 0).val / 2048 := e4
  refine ⟨⟨(i 0).val / 2048, ht⟩, flush1_2 _, ?_⟩
  rw [mem_tile1]
  intro a
  match a with
  | ⟨0, _⟩ =>
    show win1_2.index ⟨(i 0).val / 2048, ht⟩ (0 : Fin 2) * 2048 ≤ (i 0).val
      ∧ (i 0).val < win1_2.index ⟨(i 0).val / 2048, ht⟩ (0 : Fin 2) * 2048 + 2048
    omega
  | ⟨1, _⟩ =>
    show win1_2.index ⟨(i 0).val / 2048, ht⟩ (1 : Fin 2) * 128 ≤ (i 1).val
      ∧ (i 1).val < win1_2.index ⟨(i 0).val / 2048, ht⟩ (1 : Fin 2) * 128 + 128
    omega

/-- After region 1 the result array holds the row-tiled product of the padded operand with the weight. -/
theorem lin1_final (c : Dev nD) :
    (dat1 V c).arrAt 2 cfg1.N = Cert.Spec.LinG (V c main_v50) (V c main_arg5) :=
  (dat1 V c).arrAt_eq_of_cover 2 (Cert.Spec.LinG (V c main_v50) (V c main_arg5)) (fun t _ => tile1_eq V c t) (rows_covered1)

end Blocks

end Cert.Value

end
-- ==== Proof.ValPoolPay.lean ====
/-
  The pooling kernel's three stored values, read entry by entry at the extended reals.

  * The cleared accumulator is zero everywhere.
  * One tile's update: entry (g, d) of the accumulator grows by the sum, over the tile's 2048 rows r, of
    [id r = g] · h[r, d]. The factor [id r = g] is the comparison of the tile's id column, spread over 64
    columns, with the column number, widened to a word and converted to a float: 1 where the ids agree, else 0.
    The product contracts the ROW axis of both operands (the one-hot matrix enters transposed).
  * The epilogue: entry (g, j) of the result is the sum over the 128 features d of (acc[g, d] · recip[g]) · Wfc[d, j],
    plus bias[j]. The reciprocal column is spread over the 128 features, the bias row over the 64 graphs.

  Changes of float format are the identity at the extended reals and a product into a zero accumulator is the plain sum,
  so nothing here needs finiteness.
-/
import proofs.«428559_j43585328120189_1_alg».proof.Proof.Spec
import proofs.«428559_j43585328120189_1_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StableHlo.Predicate

noncomputable section

namespace Cert.Value

open Idealize.ShloMosaic Idealize.ShloMosaic.ValueIdx Cert.KernelIdeal Cert.KernelIdeal.Gen

/-! ## The one-hot factor -/

/-- A word comparison widened to 32 bits and converted signed is 1 where the words agree and 0 where they differ. -/
theorem oneHot_word (b : BitVec 32) (g : Fin 64) :
    (FloatOps.sitofp (F := Ideal) .f32 ((IntOp.cmpi .eq b (BitVec.ofNat 32 g.val)).setWidth 32)) = Cert.Spec.oneHot b g := by
  unfold Cert.Spec.oneHot
  by_cases h : b = BitVec.ofNat 32 g.val
  · rw [if_pos h, StableHlo.Predicate.cmpi_eq_iff.mpr h]
    show (((((1#1 : BitVec 1).setWidth 32).toInt : ℤ) : ℝ) : EReal) = 1
    have e : ((1#1 : BitVec 1).setWidth 32).toInt = 1 := by decide
    rw [e]; simp
  · rw [if_neg h, eq_zero_of_ne_one (fun hc => h (StableHlo.Predicate.cmpi_eq_iff.mp hc))]
    show (((((0#1 : BitVec 1).setWidth 32).toInt : ℤ) : ℝ) : EReal) = 0
    have e : ((0#1 : BitVec 1).setWidth 32).toInt = 0 := by decide
    rw [e]; simp

/-- A column [a, 1] spread over b columns reads, at (p, c), the column's entry p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The one-hot matrix of a tile, entry (r, g): 1 where row r's id is g. -/
theorem oneHot_tile_apply (v6 : IVec S2048x1 32) (r : Fin 2048) (g : Fin 64) :
    (truncf .bf16 (sitofp .f32 (extui 32 (cmpi .eq (broadcastTo S2048x64 v6 broadcasts_S2048x1_S2048x64)
        (broadcastTo S2048x64 (iota .tc S1x64 32 [1] iota_S1x64_d1_w32) broadcasts_S1x64_S2048x64)) natLt_1_32) : FVec Ideal S2048x64 .f32)
      bitsLt_bf16_f32 : FVec Ideal S2048x64 .bf16) (ix2 r g) = Cert.Spec.oneHot (v6 (ix2 r 0)) g := by
  show FloatOps.sitofp (F := Ideal) .f32 ((IntOp.cmpi .eq (broadcastTo S2048x64 v6 broadcasts_S2048x1_S2048x64 (ix2 r g))
      (broadcastTo S2048x64 (iota .tc S1x64 32 [1] iota_S1x64_d1_w32) broadcasts_S1x64_S2048x64 (ix2 r g))).setWidth 32) = _
  rw [broadcastTo_a1_ab_apply v6 _ r g, broadcastTo_1b_ab_apply _ _ r g, iota_single_apply]
  exact oneHot_word _ g

/-! ## The tile product: the row axis of both operands is contracted -/

theorem pool_lhs_0 (i : S64x128.Idx) (q : dot_S2048x64_S2048x128_S64x128_0_0_1_1_n_n.contr.Idx) :
    (dot_S2048x64_S2048x128_S64x128_0_0_1_1_n_n.lhsIdx i q 0).val = (q ⟨0, by decide⟩).val :=
  dot_S2048x64_S2048x128_S64x128_0_0_1_1_n_n.lhsIdx_val_of_single rfl i q
theorem pool_lhs_1 (i : S64x128.Idx) (q : dot_S2048x64_S2048x128_S64x128_0_0_1_1_n_n.contr.Idx) :
    (dot_S2048x64_S2048x128_S64x128_0_0_1_1_n_n.lhsIdx i q 1).val = (i 0).val := by
  unfold DotDims.lhsIdx
  rw [dif_neg (show ¬(1 : Fin S2048x64.rank) ∈ dot_S2048x64_S2048x128_S64x128_0_0_1_1_n_n.lhsBatch by decide), dif_pos (show (1 : Fin S2048x64.rank) ∈ dot_S2048x64_S2048x128_S64x128_0_0_1_1_n_n.lhsNonContracting by decide)]
  rfl
theorem pool_rhs_0 (i : S64x128.Idx) (q : dot_S2048x64_S2048x128_S64x128_0_0_1_1_n_n.contr.Idx) :
    (dot_S2048x64_S2048x128_S64x128_0_0_1_1_n_n.rhsIdx i q 0).val = (q ⟨0, by decide⟩).val :=
  dot_S2048x64_S2048x128_S64x128_0_0_1_1_n_n.rhsIdx_val_of_single rfl i q
theorem pool_rhs_1 (i : S64x128.Idx) (q : dot_S2048x64_S2048x128_S64x128_0_0_1_1_n_n.contr.Idx) :
    (dot_S2048x64_S2048x128_S64x128_0_0_1_1_n_n.rhsIdx i q 1).val = (i 1).val := by
  unfold DotDims.rhsIdx
  rw [dif_neg (show ¬(1 : Fin S2048x128.rank) ∈ dot_S2048x64_S2048x128_S64x128_0_0_1_1_n_n.rhsBatch by decide), dif_pos (show (1 : Fin S2048x128.rank) ∈ dot_S2048x64_S2048x128_S64x128_0_0_1_1_n_n.rhsNonContracting by decide)]
  rfl

/-- Entry (g, d) of (L transposed) · R into a zero accumulator: the sum over the 2048 rows. -/
theorem pool_matmul_apply (L : FVec Ideal S2048x64 .bf16) (R : FVec Ideal S2048x128 .bf16) (g : Fin 64) (d : Fin 128) :
    matmul dot_S2048x64_S2048x128_S64x128_0_0_1_1_n_n none L R (constant (F := Ideal) S64x128 .f32 0x00000000#32) (ix2 g d)
      = ∑ r : Fin 2048, L (ix2 r g) * R (ix2 r d) := by
  simp only [matmul]
  rw [Ideal.matmul_constant_zero_apply, ← Equiv.sum_comp (contrEquiv1 dot_S2048x64_S2048x128_S64x128_0_0_1_1_n_n 2048 rfl rfl).symm]
  refine Finset.sum_congr rfl fun k _ => ?_
  have hk := contrEquiv1_symm_val dot_S2048x64_S2048x128_S64x128_0_0_1_1_n_n 2048 rfl rfl k
  have el : dot_S2048x64_S2048x128_S64x128_0_0_1_1_n_n.lhsIdx (ix2 g d) ((contrEquiv1 dot_S2048x64_S2048x128_S64x128_0_0_1_1_n_n 2048 rfl rfl).symm k) = ix2 k g := funext fun a => Fin.ext (by
    match a with
    | ⟨0, _⟩ => exact (pool_lhs_0 _ _).trans hk
    | ⟨1, _⟩ => exact pool_lhs_1 _ _)
  have er : dot_S2048x64_S2048x128_S64x128_0_0_1_1_n_n.rhsIdx (ix2 g d) ((contrEquiv1 dot_S2048x64_S2048x128_S64x128_0_0_1_1_n_n 2048 rfl rfl).symm k) = ix2 k d := funext fun a => Fin.ext (by
    match a with
    | ⟨0, _⟩ => exact (pool_rhs_0 _ _).trans hk
    | ⟨1, _⟩ => exact pool_rhs_1 _ _)
  rw [el, er]

/-! ## The classifier product: features against weights -/

theorem fc_lhs_0 (i : S64x10.Idx) (q : dot_S64x128_S128x10_S64x10_1_0_0_1_n_n.contr.Idx) :
    (dot_S64x128_S128x10_S64x10_1_0_0_1_n_n.lhsIdx i q 0).val = (i 0).val := by
  unfold DotDims.lhsIdx
  rw [dif_neg (show ¬(0 : Fin S64x128.rank) ∈ dot_S64x128_S128x10_S64x10_1_0_0_1_n_n.lhsBatch by decide), dif_pos (show (0 : Fin S64x128.rank) ∈ dot_S64x128_S128x10_S64x10_1_0_0_1_n_n.lhsNonContracting by decide)]
  rfl
theorem fc_lhs_1 (i : S64x10.Idx) (q : dot_S64x128_S128x10_S64x10_1_0_0_1_n_n.contr.Idx) :
    (dot_S64x128_S128x10_S64x10_1_0_0_1_n_n.lhsIdx i q 1).val = (q ⟨0, by decide⟩).val :=
  dot_S64x128_S128x10_S64x10_1_0_0_1_n_n.lhsIdx_val_of_single rfl i q
theorem fc_rhs_0 (i : S64x10.Idx) (q : dot_S64x128_S128x10_S64x10_1_0_0_1_n_n.contr.Idx) :
    (dot_S64x128_S128x10_S64x10_1_0_0_1_n_n.rhsIdx i q 0).val = (q ⟨0, by decide⟩).val :=
  dot_S64x128_S128x10_S64x10_1_0_0_1_n_n.rhsIdx_val_of_single rfl i q
theorem fc_rhs_1 (i : S64x10.Idx) (q : dot_S64x128_S128x10_S64x10_1_0_0_1_n_n.contr.Idx) :
    (dot_S64x128_S128x10_S64x10_1_0_0_1_n_n.rhsIdx i q 1).val = (i 1).val := by
  unfold DotDims.rhsIdx
  rw [dif_neg (show ¬(1 : Fin S128x10.rank) ∈ dot_S64x128_S128x10_S64x10_1_0_0_1_n_n.rhsBatch by decide), dif_pos (show (1 : Fin S128x10.rank) ∈ dot_S64x128_S128x10_S64x10_1_0_0_1_n_n.rhsNonContracting by decide)]
  rfl

/-- Entry (g, j) of L · R into a zero accumulator: the sum over the 128 features. -/
theorem fc_matmul_apply (L : FVec Ideal S64x128 .bf16) (R : FVec Ideal S128x10 .bf16) (g : Fin 64) (j : Fin 10) :
    matmul dot_S64x128_S128x10_S64x10_1_0_0_1_n_n none L R (constant (F := Ideal) S64x10 .f32 0x00000000#32) (ix2 g j)
      = ∑ d : Fin 128, L (ix2 g d) * R (ix2 d j) := by
  simp only [matmul]
  rw [Ideal.matmul_constant_zero_apply, ← Equiv.sum_comp (contrEquiv1 dot_S64x128_S128x10_S64x10_1_0_0_1_n_n 128 rfl rfl).symm]
  refine Finset.sum_congr rfl fun k _ => ?_
  have hk := contrEquiv1_symm_val dot_S64x128_S128x10_S64x10_1_0_0_1_n_n 128 rfl rfl k
  have el : dot_S64x128_S128x10_S64x10_1_0_0_1_n_n.lhsIdx (ix2 g j) ((contrEquiv1 dot_S64x128_S128x10_S64x10_1_0_0_1_n_n 128 rfl rfl).symm k) = ix2 g k := funext fun a => Fin.ext (by
    match a with
    | ⟨0, _⟩ => exact fc_lhs_0 _ _
    | ⟨1, _⟩ => exact (fc_lhs_1 _ _).trans hk)
  have er : dot_S64x128_S128x10_S64x10_1_0_0_1_n_n.rhsIdx (ix2 g j) ((contrEquiv1 dot_S64x128_S128x10_S64x10_1_0_0_1_n_n 128 rfl rfl).symm k) = ix2 k j := funext fun a => Fin.ext (by
    match a with
    | ⟨0, _⟩ => exact (fc_rhs_0 _ _).trans hk
    | ⟨1, _⟩ => exact fc_rhs_1 _ _)
  rw [el, er]

/-! ## The three payloads -/

/-- The cleared accumulator. -/
theorem k2_pay1_apply (i : S64x128.Idx) : (k2_pay1 (F := Ideal)) i = 0 := by
  unfold k2_pay1
  rw [shapeCast_self]
  exact Ideal.ofBits_zero_f32

/-- As a function: zero. -/
theorem k2_pay1_eq : (k2_pay1 (F := Ideal)) = fun _ => (0 : EReal) := funext k2_pay1_apply

/-- One tile's update of the accumulator, at entry (g, d). -/
theorem k2_pay2_apply (v3 : Vec Ideal S2048x128 .f32) (v6 : Vec Ideal S2048x1 .i32) (v16 : Vec Ideal S64x128 .f32) (g : Fin 64) (d : Fin 128) :
    k2_pay2 v3 v6 v16 (ix2 g d) = v16 (ix2 g d) + ∑ r : Fin 2048, Cert.Spec.oneHot (v6 (ix2 r 0)) g * v3 (ix2 r d) := by
  unfold k2_pay2
  dsimp only
  rw [shapeCast_self, shapeCast_self, shapeCast_self, addf_apply, pool_matmul_apply]
  refine congrArg (v16 (ix2 g d) + ·) (Finset.sum_congr rfl fun r _ => ?_)
  rw [oneHot_tile_apply v6 r g]
  rfl

/-- The epilogue, at entry (g, j). -/
theorem k2_pay3_apply (v24 : Vec Ideal S64x128 .f32) (v25 : Vec Ideal S64x1 .f32) (v30 : Vec Ideal S128x10 .f32) (v33 : Vec Ideal S10 .f32) (g : Fin 64) (j : Fin 10) :
    k2_pay3 v24 v25 v30 v33 (ix2 g j) = (∑ d : Fin 128, (v24 (ix2 g d) * v25 (ix2 g 0)) * v30 (ix2 d j)) + v33 (ix1 j) := by
  unfold k2_pay3
  rw [shapeCast_self, addf_apply, fc_matmul_apply, broadcastTo_1b_ab_apply _ _ g j, shapeCast_a_1a_apply]
  refine congrArg (· + v33 (ix1 j)) (Finset.sum_congr rfl fun d _ => ?_)
  show (v24 (ix2 g d) * broadcastTo S64x128 v25 broadcasts_S64x1_S64x128 (ix2 g d)) * v30 (ix2 d j) = _
  rw [broadcastTo_a1_ab_apply v25 _ g d]

end Cert.Value

end
-- ==== Proof.TileSum.lean ====
/- Forty-nine row tiles of 2048 rows make the 100352 rows.

   An accumulator that starts at zero plus the first tile's sum and then adds one tile's sum per step holds, after
   the forty-ninth tile, the sum over all the rows. The invariant: after tile `n` the accumulator is the sum over
   the rows below `2048 · (n + 1)`. A sum over the rows below `a + 2048` splits into the sum below `a` and the sum
   over the 2048 rows from `a` on, so each step extends the invariant by one tile; at `n = 48` the bound is
   `2048 · 49 = 100352`. Only the commutativity and associativity of addition are used: no finiteness of the
   summands is needed, so the statement holds in the extended reals as it stands. -/
import Mathlib.Data.EReal.Basic
import Mathlib.Data.Fintype.BigOperators
import Mathlib.Algebra.BigOperators.Group.Finset.Basic

namespace Cert.Value

open Finset

/-- The accumulator over 49 tiles of 2048 rows is the sum over the 100352 rows. -/
theorem tile_sum (f : Fin 100352 → EReal) (acc : (n : ℕ) → n < 49 → EReal)
    (h0 : acc 0 (by decide) = 0 + ∑ r : Fin 2048, f ⟨r.val, by omega⟩)
    (hs : ∀ (n : ℕ) (h : n + 1 < 49), acc (n + 1) h = acc n (Nat.lt_of_succ_lt h) + ∑ r : Fin 2048, f ⟨2048 * (n + 1) + r.val, by omega⟩) :
    acc 48 (by decide) = ∑ r : Fin 100352, f r := by
  -- `f` continued past the last row (by anything: only its values at the rows are read)
  obtain ⟨g, hg⟩ : ∃ g : ℕ → EReal, ∀ (k : ℕ) (h : k < 100352), g k = f ⟨k, h⟩ :=
    ⟨fun k => if h : k < 100352 then f ⟨k, h⟩ else 0, fun k h => dif_pos h⟩
  -- after tile `n` the accumulator is the sum over the rows below `2048 · (n + 1)`
  have inv : ∀ (n : ℕ) (h : n < 49), acc n h = ∑ k ∈ range (2048 * (n + 1)), g k := by
    intro n
    induction n with
    | zero =>
      intro h
      rw [h0, zero_add, show 2048 * (0 + 1) = 2048 from by omega, ← Fin.sum_univ_eq_sum_range g 2048]
      exact sum_congr rfl fun r _ => (hg _ _).symm
    | succ n ih =>
      intro h
      rw [hs n h, ih (Nat.lt_of_succ_lt h), show 2048 * (n + 1 + 1) = 2048 * (n + 1) + 2048 from by omega,
        sum_range_add]
      congr 1
      rw [← Fin.sum_univ_eq_sum_range (fun j => g (2048 * (n + 1) + j)) 2048]
      exact sum_congr rfl fun r _ => (hg _ _).symm
  rw [inv 48 (by decide), show 2048 * (48 + 1) = 100352 from by omega, ← Fin.sum_univ_eq_sum_range g 100352]
  exact sum_congr rfl fun r _ => hg r.val r.isLt

end Cert.Value
-- ==== Proof.ValPool.lean ====
/-
  The pooling region's result, as one function of the five arrays it reads.

  The region walks 49 row tiles of 2048 rows. Its accumulator, 64 × 128, is cleared at the first tile; at every tile it
  grows, entry (g, d), by the sum over the tile's rows r of [id r = g] · h[r, d]; after the last tile the epilogue scales
  row g by the reciprocal size of graph g, multiplies by the classifier weights and adds the bias, and that 64 × 10 block
  — the whole output array — is the only block ever written back.

  * Row r of tile t is row 2048·t + r of the array: a block's coordinate is the block index times the block size plus the
    coordinate inside the block. The three small inputs have one block, the array itself.
  * Entry by entry the accumulator after tile n is the accumulator after tile n − 1 plus tile n's rows, starting from zero
    plus tile 0's rows; forty-nine tiles of 2048 rows are the 100352 rows, so after the last tile it is the sum over all
    rows. Only the commutativity and associativity of addition on the extended reals enter: no finiteness is needed.
  * The output window writes back at the last tile only, and that tile's block covers every index of the output, so the
    array ends holding the epilogue of the full accumulation.
-/
import proofs.«428559_j43585328120189_1_alg».proof.Proof.Spec
import proofs.«428559_j43585328120189_1_alg».proof.Proof.ValPoolPay
import proofs.«428559_j43585328120189_1_alg».proof.Proof.KI_Reg2Defs
import proofs.«428559_j43585328120189_1_alg».proof.Proof.TileSum
import Idealize.ShloMosaic.PureOps.Ideal.Laws
import Idealize.ShloMosaic.Lib.ValueIdx
import Idealize.ShloMosaic.Lib.Pipeline.Value

noncomputable section

namespace Cert.Value

open Idealize.ShloMosaic Idealize.ShloMosaic.ValueIdx Idealize.ShloMosaic.TcCoe Idealize.SL.Sem
open Cert.KernelIdeal Cert.KernelIdeal.Gen Cert.KernelIdeal.Hand
open Idealize.ShloMosaic.Pipeline (Dat)

variable (V : (c : Dev nD) → (b : Ref sig .tc) → Buf (Elt Ideal) ((c : Thread nD τ).loc b))

/-! ## The five arrays the region reads, and their blocks at a tile, at their literal types -/

/-- The padded node features, 100352 × 128. -/
abbrev Harr (c : Dev nD) : Vec Ideal S100352x128 .f32 := V c main_v79
/-- The padded graph ids, a column of 100352 words. -/
abbrev Barr (c : Dev nD) : Vec Ideal S100352x1 .i32 := V c main_v81
/-- The reciprocal graph sizes, a column of 64. -/
abbrev Rarr (c : Dev nD) : Vec Ideal S64x1 .f32 := V c main_v78
/-- The classifier weights, 128 × 10. -/
abbrev Warr (c : Dev nD) : Vec Ideal S128x10 .f32 := V c main_arg7
/-- The classifier bias, 10. -/
abbrev barr (c : Dev nD) : Vec Ideal S10 .f32 := V c main_arg8

abbrev hblk (c : Dev nD) (t : Fin cfg2.N) : Vec Ideal S2048x128 .f32 := iblk2 V c 0 t
abbrev bblk (c : Dev nD) (t : Fin cfg2.N) : Vec Ideal S2048x1 .i32 := iblk2 V c 1 t
abbrev rblk (c : Dev nD) (t : Fin cfg2.N) : Vec Ideal S64x1 .f32 := iblk2 V c 2 t
abbrev wblk (c : Dev nD) (t : Fin cfg2.N) : Vec Ideal S128x10 .f32 := iblk2 V c 3 t
abbrev cblk (c : Dev nD) (t : Fin cfg2.N) : Vec Ideal S10 .f32 := iblk2 V c 4 t

/-- The block index of every window at every tile: the two tiled inputs sit at row block t, column block 0; the three
    small inputs and the output have one block, at 0. Decided over the 49 tiles. -/
theorem tile_index : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 1) = 0
    ∧ win2_5.index t (0 : Fin 2) = 0 ∧ win2_5.index t (1 : Fin 2) = 0 :=
  (by decide +kernel : ∀ t : Fin grid2.N, _)

/-- Row r of tile t is row 2048·t + r of the array. -/
theorem tile_row_lt (t : Fin cfg2.N) (r : Fin 2048) : 2048 * t.val + r.val < 100352 := by
  have ht : t.val < 49 := t.isLt
  have hr := r.isLt
  omega

/-- The feature tile read at (r, d) is the array at (2048·t + r, d). -/
theorem hblk_apply (c : Dev nD) (t : Fin cfg2.N) (r : Fin 2048) (d : Fin 128) :
    hblk V c t (ix2 r d) = Harr V c (ix2 ⟨2048 * t.val + r.val, tile_row_lt t r⟩ d) := by
  show V c main_v79 (((cfg2.win 0).blk t).view.emb (ix2 r d)) = V c main_v79 _
  refine congrArg (V c main_v79) (funext fun a => Fin.ext ?_)
  obtain ⟨e0, e1, -⟩ := tile_index t
  match a with
  | ⟨0, _⟩ => show win2_0.index t (0 : Fin 2) * 2048 + 1 * r.val = 2048 * t.val + r.val; rw [e0]; omega
  | ⟨1, _⟩ => show win2_0.index t (1 : Fin 2) * 128 + 1 * d.val = d.val; rw [e1]; omega

/-- The id tile read at (r, 0) is the id column at row 2048·t + r. -/
theorem bblk_apply (c : Dev nD) (t : Fin cfg2.N) (r : Fin 2048) :
    bblk V c t (ix2 r 0) = Barr V c (ix2 ⟨2048 * t.val + r.val, tile_row_lt t r⟩ 0) := by
  show V c main_v81 (((cfg2.win 1).blk t).view.emb (ix2 r 0)) = V c main_v81 _
  refine congrArg (V c main_v81) (funext fun a => Fin.ext ?_)
  obtain ⟨-, -, e0, e1, -⟩ := tile_index t
  match a with
  | ⟨0, _⟩ => show win2_1.index t (0 : Fin 2) * 2048 + 1 * r.val = 2048 * t.val + r.val; rw [e0]; omega
  | ⟨1, _⟩ => show win2_1.index t (1 : Fin 2) * 1 + 1 * 0 = 0; rw [e1]

/-- The reciprocal column's one block is the column. -/
theorem rblk_apply (c : Dev nD) (t : Fin cfg2.N) (g : Fin 64) :
    rblk V c t (ix2 g 0) = Rarr V c (ix2 g 0) := by
  show V c main_v78 (((cfg2.win 2).blk t).view.emb (ix2 g 0)) = V c main_v78 _
  refine congrArg (V c main_v78) (funext fun a => Fin.ext ?_)
  obtain ⟨-, -, -, -, e0, e1, -⟩ := tile_index t
  match a with
  | ⟨0, _⟩ => show win2_2.index t (0 : Fin 2) * 64 + 1 * g.val = g.val; rw [e0]; omega
  | ⟨1, _⟩ => show win2_2.index t (1 : Fin 2) * 1 + 1 * 0 = 0; rw [e1]

/-- The weights' one block is the weight matrix. -/
theorem wblk_apply (c : Dev nD) (t : Fin cfg2.N) (d : Fin 128) (j : Fin 10) :
    wblk V c t (ix2 d j) = Warr V c (ix2 d j) := by
  show V c main_arg7 (((cfg2.win 3).blk t).view.emb (ix2 d j)) = V c main_arg7 _
  refine congrArg (V c main_arg7) (funext fun a => Fin.ext ?_)
  obtain ⟨-, -, -, -, -, -, e0, e1, -⟩ := tile_index t
  match a with
  | ⟨0, _⟩ => show win2_3.index t (0 : Fin 2) * 128 + 1 * d.val = d.val; rw [e0]; omega
  | ⟨1, _⟩ => show win2_3.index t (1 : Fin 2) * 10 + 1 * j.val = j.val; rw [e1]; omega

/-- The bias' one block is the bias. -/
theorem cblk_apply (c : Dev nD) (t : Fin cfg2.N) (j : Fin 10) :
    cblk V c t (ix1 j) = barr V c (ix1 j) := by
  show V c main_arg8 (((cfg2.win 4).blk t).view.emb (ix1 j)) = V c main_arg8 _
  refine congrArg (V c main_arg8) (funext fun a => Fin.ext ?_)
  obtain ⟨-, -, -, -, -, -, -, -, e0, -⟩ := tile_index t
  match a with
  | ⟨0, _⟩ => show win2_4.index t (0 : Fin 1) * 10 + 1 * j.val = j.val; rw [e0]; omega

/-! ## The accumulator after the last tile is the sum over all the rows -/

/-- One tile's update at entry (g, d), over the arrays: the accumulator grows by the tile's rows' one-hot weighted
    features. -/
theorem tile_update (c : Dev nD) (t : Fin cfg2.N) (a0 : Vec Ideal S64x128 .f32) (g : Fin 64) (d : Fin 128) :
    k2_pay2 (hblk V c t) (bblk V c t) a0 (ix2 g d)
      = a0 (ix2 g d) + ∑ r : Fin 2048, Cert.Spec.oneHot (Barr V c (ix2 ⟨2048 * t.val + r.val, tile_row_lt t r⟩ 0)) g
          * Harr V c (ix2 ⟨2048 * t.val + r.val, tile_row_lt t r⟩ d) := by
  refine (k2_pay2_apply (hblk V c t) (bblk V c t) a0 g d).trans ?_
  refine congrArg (a0 (ix2 g d) + ·) (Finset.sum_congr rfl fun r _ => ?_)
  exact congrArg₂ (fun (x : BitVec 32) (y : EReal) => Cert.Spec.oneHot x g * y) (bblk_apply V c t r) (hblk_apply V c t r d)

/-- After the 49th tile, entry (g, d) of the accumulator is the sum over all 100352 rows r of [id r = g] · h[r, d]:
    the first tile adds its rows to zero, every later tile adds its rows to what the tile before left. -/
theorem acc_total (c : Dev nD) (g : Fin 64) (d : Fin 128) :
    accAt2 V c 48 (by decide) (ix2 g d)
      = ∑ r : Fin 100352, Cert.Spec.oneHot (Barr V c (ix2 r 0)) g * Harr V c (ix2 r d) := by
  refine tile_sum (fun r => Cert.Spec.oneHot (Barr V c (ix2 r 0)) g * Harr V c (ix2 r d))
    (fun n h => accAt2 V c n h (ix2 g d)) ?_ ?_
  · refine ((congrFun (accAt2_zero V c (by decide)) (ix2 g d)).trans
      (tile_update V c ⟨0, by decide⟩ (k2_pay1 (F := Ideal)) g d)).trans ?_
    refine congrArg₂ (· + ·) (k2_pay1_apply _) (Finset.sum_congr rfl fun r _ => ?_)
    have e : (⟨2048 * (⟨0, by decide⟩ : Fin cfg2.N).val + r.val, tile_row_lt _ r⟩ : Fin 100352)
        = ⟨r.val, by have := r.isLt; omega⟩ := Fin.ext (by show 2048 * 0 + r.val = r.val; omega)
    exact congrArg (fun q : Fin 100352 => Cert.Spec.oneHot (Barr V c (ix2 q 0)) g * Harr V c (ix2 q d)) e
  · intro n h
    exact (congrFun (accAt2_succ V c n h) (ix2 g d)).trans
      (tile_update V c ⟨n + 1, h⟩ (accAt2 V c n (Nat.lt_of_succ_lt h)) g d)

/-! ## The epilogue of the full accumulation is the pooled head -/

/-- What the last tile stores: entry (g, j) is the sum over the features d of (pooled[g, d] · recip[g]) · Wfc[d, j], plus
    bias[j], with pooled[g, d] the sum over all rows. -/
theorem pool_value (c : Dev nD) :
    k2_pay3 (accAt2 V c 48 (by decide)) (rblk V c ⟨48, by decide⟩) (wblk V c ⟨48, by decide⟩) (cblk V c ⟨48, by decide⟩)
      = Cert.Spec.PoolG (Harr V c) (Barr V c) (Rarr V c) (Warr V c) (barr V c) := by
  funext i
  obtain ⟨g, j, rfl⟩ : ∃ (g : Fin 64) (j : Fin 10), i = ix2 g j := ⟨i 0, i 1, eq_ix2 i⟩
  refine (k2_pay3_apply (accAt2 V c 48 (by decide)) (rblk V c ⟨48, by decide⟩) (wblk V c ⟨48, by decide⟩) (cblk V c ⟨48, by decide⟩) g j).trans ?_
  show _ = (∑ d : Fin 128, ((∑ r : Fin 100352, Cert.Spec.oneHot (Barr V c (ix2 r 0)) g * Harr V c (ix2 r d))
      * Rarr V c (ix2 g 0)) * Warr V c (ix2 d j)) + barr V c (ix1 j)
  refine congrArg₂ (· + ·) (Finset.sum_congr rfl fun d _ => ?_) (cblk_apply V c _ j)
  exact congrArg₂ (· * ·) (congrArg₂ (· * ·) (acc_total V c g d) (rblk_apply V c _ g)) (wblk_apply V c _ d j)

/-! ## The output array after the region -/

/-- The last of the 49 tiles. -/
abbrev lastTile : Fin cfg2.N := ⟨48, by decide⟩

/-- The output's one block has the array's sizes at every tile. -/
theorem out_xsize : ∀ t : Fin cfg2.N, win2_5.xsize (grid2.coords t) (0 : Fin 2) = 64 ∧ win2_5.xsize (grid2.coords t) (1 : Fin 2) = 10 :=
  (by decide +kernel : ∀ t : Fin grid2.N, _)

/-- The one write-back, after the last tile, writes the pooled head: the block at zero offsets of the array's own sizes is
    the array. -/
theorem out_flushed (c : Dev nD) (t : Fin cfg2.N) (hf : (cfg2.win 5).flush t = true) :
    (dat2 V c).flushed 5 t
      = ((cfg2.win 5).blk t).view.read (Elt Ideal) (Cert.Spec.PoolG (Harr V c) (Barr V c) (Rarr V c) (Warr V c) (barr V c)) := by
  have h48 : t.val = 48 := by
    have h := (flush2_5 t).mp hf
    have ht : t.val < 49 := t.isLt
    omega
  obtain rfl : t = ⟨48, by decide⟩ := Fin.ext h48
  show (cfg2.win 5).cut (grid2.coords ⟨48, by decide⟩) ((dat2 V c).after 5 ⟨48, by decide⟩) = _
  rw [after2_5_last]
  obtain ⟨-, -, -, -, -, -, -, -, -, e0, e1⟩ := tile_index ⟨48, by decide⟩
  have hz : (fun a => win2_5.index ⟨48, by decide⟩ a * main_v82.ty.shape.size a) = fun _ => 0 := funext fun a => by
    match a with
    | ⟨0, _⟩ => show win2_5.index ⟨48, by decide⟩ (0 : Fin 2) * 64 = 0; rw [e0]
    | ⟨1, _⟩ => show win2_5.index ⟨48, by decide⟩ (1 : Fin 2) * 10 = 0; rw [e1]
  refine Eq.trans ?_ (Memref.read_access_unit_zero (Elt Ideal) main_v82 hz (fun a => by rw [congrFun hz a]; simp) _).symm
  exact pool_value V c

/-- Every index of the output array lies in the block the last tile writes back. -/
theorem out_cover (i : S64x10.Idx) :
    ∃ t : Fin cfg2.N, (cfg2.win 5).flush t = true ∧ i ∈ ((cfg2.win 5).blk t).view.set := by
  refine ⟨lastTile, (flush2_5 _).mpr rfl, ?_⟩
  show i ∈ ((View.whole main_v82).slice (win2_5.rect lastTile)).set
  rw [View.set_slice_whole, Rect.mem_set_unit]
  intro a
  have h0 : (i 0 : Nat) < 64 := (i 0).isLt
  have h1 : (i 1 : Nat) < 10 := (i 1).isLt
  obtain ⟨-, -, -, -, -, -, -, -, -, e0, e1⟩ := tile_index lastTile
  obtain ⟨x0, x1⟩ := out_xsize lastTile
  match a with
  | ⟨0, _⟩ =>
    show win2_5.index lastTile (0 : Fin 2) * 64 ≤ (i 0 : Nat) ∧ (i 0 : Nat) < win2_5.index lastTile (0 : Fin 2) * 64 + win2_5.xsize (grid2.coords lastTile) (0 : Fin 2)
    rw [e0, x0]; omega
  | ⟨1, _⟩ =>
    show win2_5.index lastTile (1 : Fin 2) * 10 ≤ (i 1 : Nat) ∧ (i 1 : Nat) < win2_5.index lastTile (1 : Fin 2) * 10 + win2_5.xsize (grid2.coords lastTile) (1 : Fin 2)
    rw [e1, x1]; omega

/-- So the output array ends holding the pooled head of the five arrays as the region finds them: the last tile's block
    covers the whole array. -/
theorem pool_final (c : Dev nD) :
    (dat2 (F := Ideal) V c).arrAt 5 cfg2.N
      = Cert.Spec.PoolG (V c main_v79) (V c main_v81) (V c main_v78) (V c main_arg7) (V c main_arg8) :=
  (dat2 V c).arrAt_eq_of_cover 5 _ (out_flushed V c) out_cover

end Cert.Value

end
-- ==== Proof.PoolBridge.lean ====
/-
  The pooled head on the padded arrays is the reference's head (at the ideal values, where floats are extended reals).

  Entry (g, j), g one of 64 graphs and j one of 10 outputs. The tiled region computes
      ∑ d, ((∑ r < 100352, [id r = g] · Hpad[r, d]) · recip[g]) · Wfc[d, j] + bfc[j]
  on the feature array padded with zero rows and the id list padded with minus one; the reference computes
      ∑ d, (S[g, d] / mx[g]) · Wfc[d, j] + bfc[j],
  S the rows scatter-added by graph id into zeros and mx = max(count, 1). Four facts join them.
  (i)   A scatter update (r, d') lands on (g, d) exactly when d' = d and the id of row r, read signed, is g; an id
        that is negative or at least 64 lands nowhere, and is the 32-bit word of no graph number either, so
        S[g, d] = ∑ r < 100000, [id r = g] · H[r, d], the bracket compared as words. The count scatter likewise:
        count[g] = ∑ r, [id r = g].
  (ii)  The 352 rows the padding adds carry the id minus one, the word of no graph number: their brackets are
        zero, and zero times any extended real is zero, so the sum over 100352 rows is the sum over 100000.
  (iii) count[g] is a finite sum of ones and zeros, a real number, so mx[g] is a real number at least one; division
        by a nonzero real m is multiplication by the real 1/m for every extended real, and recip[g] = 1/m.
  (iv)  The projection is the sum over the one contracted axis; the size column and the bias row read their entry.
  Nothing is assumed finite about the features: only 0 + x = x, 0 · x = 0, 1 · x = x and (iii) are used.
-/
import proofs.«428559_j43585328120189_1_alg».proof.Proof.Spec
import Idealize.ShloMosaic.Lib.Pipeline.Value
import Idealize.ShloMosaic.Lib.ValueIdx
import Idealize.ShloMosaic.Lib.KernelVsHost
import Idealize.ShloMosaic.Lib.IdealHost
import Idealize.ShloMosaic.PureOps.Ideal.Laws
import Mathlib.Algebra.BigOperators.Fin
import Mathlib.Data.EReal.Basic

noncomputable section

namespace Cert.Value

open Idealize.ShloMosaic Idealize.ShloMosaic.ValueIdx Cert.ReferenceIdeal Cert.ReferenceIdeal.Facts₀ Cert.ReferenceIdeal.Facts
open scoped BigOperators

namespace Pool

/-! ## The row scatter's dimension numbers, read at an update index -/

/-- The start of the row scatter on the graph axis: the signed id of the update's row. -/
theorem rowScatter_start0 (j : S100000x128.Idx) (idx : IVec S100000x1 32) :
    scatter_S64x128_S100000x1_S100000x128_1_0_0_1.start j idx 0 = (idx (ix2 (j 0) 0)).toInt := by
  unfold ScatterDims.start
  rw [dif_pos (show (0 : Fin S64x128.rank) ∈ scatter_S64x128_S100000x1_S100000x128_1_0_0_1.scatterDimsToOperandDims from List.mem_singleton.mpr rfl)]
  refine congrArg (fun k => (idx k).toInt) (funext fun b => Fin.ext ?_)
  match b with
  | ⟨0, _⟩ => rfl
  | ⟨1, _⟩ => rfl

/-- The feature axis is not scattered: its start is zero. -/
theorem rowScatter_start1 (j : S100000x128.Idx) (idx : IVec S100000x1 32) :
    scatter_S64x128_S100000x1_S100000x128_1_0_0_1.start j idx 1 = 0 := by
  unfold ScatterDims.start
  rw [dif_neg (show ¬ (1 : Fin S64x128.rank) ∈ scatter_S64x128_S100000x1_S100000x128_1_0_0_1.scatterDimsToOperandDims by decide)]

/-- The graph axis is an inserted one: no window coordinate on it. -/
theorem rowScatter_window0 (j : S100000x128.Idx) :
    scatter_S64x128_S100000x1_S100000x128_1_0_0_1.window j 0 = 0 := by
  unfold ScatterDims.window
  rw [dif_neg (show ¬ (0 : Fin S64x128.rank) ∈ scatter_S64x128_S100000x1_S100000x128_1_0_0_1.sKept by decide)]

/-- The feature axis carries the update's own column. -/
theorem rowScatter_window1 (j : S100000x128.Idx) :
    scatter_S64x128_S100000x1_S100000x128_1_0_0_1.window j 1 = (j 1).val := by
  unfold ScatterDims.window
  rw [dif_pos (show (1 : Fin S64x128.rank) ∈ scatter_S64x128_S100000x1_S100000x128_1_0_0_1.sKept by decide)]
  rfl

/-- Update element `(r, d')` lands on `(g, d)` exactly when the signed id of row `r` is `g` and `d' = d`; an id
    that is negative or 64 and more lands nowhere. -/
theorem rowScatter_lands_iff (j : S100000x128.Idx) (idx : IVec S100000x1 32) (g : Fin 64) (d : Fin 128) :
    scatter_S64x128_S100000x1_S100000x128_1_0_0_1.resultIdx? j idx = some (ix2 g d)
      ↔ (idx (ix2 (j 0) 0)).toInt = (g.val : Int) ∧ j 1 = d := by
  have s0 := rowScatter_start0 j idx
  have s1 := rowScatter_start1 j idx
  have w0 := rowScatter_window0 j
  have w1 := rowScatter_window1 j
  have hg := g.isLt
  have hd := d.isLt
  have hj1 := (j 1).isLt
  have z0 : (S64x128.size 0 : Nat) = 64 := rfl
  have z1 : (S64x128.size 1 : Nat) = 128 := rfl
  have y1 : (S100000x128.size 1 : Nat) = 128 := rfl
  unfold ScatterDims.resultIdx?
  split
  · rename_i h
    have h0 := h 0
    have h1 := h 1
    rw [s0, w0, z0] at h0
    rw [s1, w1, z1] at h1
    rw [Option.some.injEq]
    constructor
    · intro hf
      have e0 : ((scatter_S64x128_S100000x1_S100000x128_1_0_0_1.start j idx 0 + (scatter_S64x128_S100000x1_S100000x128_1_0_0_1.window j 0 : Int)).toNat) = g.val :=
        congrArg (fun f : S64x128.Idx => (f 0).val) hf
      have e1 : ((scatter_S64x128_S100000x1_S100000x128_1_0_0_1.start j idx 1 + (scatter_S64x128_S100000x1_S100000x128_1_0_0_1.window j 1 : Int)).toNat) = d.val :=
        congrArg (fun f : S64x128.Idx => (f 1).val) hf
      rw [s0, w0] at e0
      rw [s1, w1] at e1
      refine ⟨by omega, Fin.ext (by omega)⟩
    · rintro ⟨e0, e1⟩
      funext a
      refine Fin.ext ?_
      match a with
      | ⟨0, _⟩ =>
        show ((scatter_S64x128_S100000x1_S100000x128_1_0_0_1.start j idx 0 + (scatter_S64x128_S100000x1_S100000x128_1_0_0_1.window j 0 : Int)).toNat) = g.val
        rw [s0, w0]; omega
      | ⟨1, _⟩ =>
        show ((scatter_S64x128_S100000x1_S100000x128_1_0_0_1.start j idx 1 + (scatter_S64x128_S100000x1_S100000x128_1_0_0_1.window j 1 : Int)).toNat) = d.val
        rw [s1, w1, e1]; omega
  · rename_i h
    constructor
    · intro hf; exact absurd hf (by simp)
    · rintro ⟨e0, e1⟩
      refine absurd (fun a => ?_) h
      match a with
      | ⟨0, _⟩ =>
        show 0 ≤ scatter_S64x128_S100000x1_S100000x128_1_0_0_1.start j idx 0 + (scatter_S64x128_S100000x1_S100000x128_1_0_0_1.window j 0 : Int) ∧ scatter_S64x128_S100000x1_S100000x128_1_0_0_1.start j idx 0 + (scatter_S64x128_S100000x1_S100000x128_1_0_0_1.window j 0 : Int) < ((S64x128.size 0 : Nat) : Int)
        rw [s0, w0, z0]; omega
      | ⟨1, _⟩ =>
        show 0 ≤ scatter_S64x128_S100000x1_S100000x128_1_0_0_1.start j idx 1 + (scatter_S64x128_S100000x1_S100000x128_1_0_0_1.window j 1 : Int) ∧ scatter_S64x128_S100000x1_S100000x128_1_0_0_1.start j idx 1 + (scatter_S64x128_S100000x1_S100000x128_1_0_0_1.window j 1 : Int) < ((S64x128.size 1 : Nat) : Int)
        rw [s1, w1, z1]; omega

/-- A 32-bit word read signed is the graph number `g` (below 64) exactly when it is the word of `g`. -/
theorem toInt_eq_iff_eq_ofNat (bw : BitVec 32) (g : Fin 64) : bw.toInt = (g.val : Int) ↔ bw = BitVec.ofNat 32 g.val := by
  have hg := g.isLt
  have hb := bw.isLt
  constructor
  · intro h
    refine BitVec.eq_of_toNat_eq ?_
    rw [BitVec.toNat_ofNat, BitVec.toInt_eq_toNat_cond] at *
    split at h <;> omega
  · intro h
    rw [h, BitVec.toInt_eq_toNat_cond, BitVec.toNat_ofNat]
    have : g.val % 2 ^ 32 = g.val := Nat.mod_eq_of_lt (by omega)
    rw [this]
    split <;> omega

/-! ## The scatter-add of the rows by graph id, read at an index -/

/-- A zero splat reads the extended real zero everywhere. -/
theorem zeros_apply {T : Shape} (h : S_.BroadcastsInDim T ![]) (i : T.Idx) :
    broadcastInDim T ![] h (constant (F := Ideal) S_ .f32 0x00000000#32) i = 0 := by
  rw [broadcastInDim_scalar_apply, constant_apply, Ideal.ofBits_zero_f32]

/-- A splat of ones reads the extended real one everywhere. -/
theorem ones_apply {T : Shape} (h : S_.BroadcastsInDim T ![]) (i : T.Idx) :
    broadcastInDim T ![] h (constant (F := Ideal) S_ .f32 0x3F800000#32) i = 1 := by
  rw [broadcastInDim_scalar_apply, constant_apply, Ideal.ofBits_one_f32]

/-- The id list as a column reads the id of its row. -/
theorem idCol_apply (b : IVec S100000 32) (r : Fin 100000) :
    broadcastInDim S100000x1 ![0] bcast_S100000_S100000x1_0 b (ix2 (n0 := 100000) (n1 := 1) r 0) = b (ix1 r) :=
  broadcastInDim_apply _ bcast_S100000_S100000x1_0 b _ (ix1 r) (fun a => match a with
    | ⟨0, _⟩ => by show r.val = if (100000 : Nat) = 1 then 0 else r.val; rw [if_neg (by decide)])

/-- Entry `(g, d)` of the rows scatter-added by graph id into zeros: the sum over the rows of the one-hot entry
    times the row's feature `d`. A row whose id is no graph number is dropped by the scatter and has a zero
    one-hot entry. -/
theorem rowScatter_apply (H : FVec Ideal S100000x128 .f32) (b : IVec S100000 32) (g : Fin 64) (d : Fin 128) :
    Host.scatterAdd scatter_S64x128_S100000x1_S100000x128_1_0_0_1
        (broadcastInDim S64x128 ![] bcast_S_S64x128 (constant S_ .f32 0x00000000#32))
        (broadcastInDim S100000x1 ![0] bcast_S100000_S100000x1_0 b) H (ix2 (n0 := 64) (n1 := 128) g d)
      = ∑ r : Fin 100000, Cert.Spec.oneHot (b (ix1 r)) g * H (ix2 (n0 := 100000) (n1 := 128) r d) := by
  show Ideal.hostScatterAdd _ _ _ _ _ = _
  unfold Ideal.hostScatterAdd
  rw [zeros_apply, zero_add, Finset.sum_filter, sum_idx2]
  refine Finset.sum_congr rfl fun r _ => ?_
  have hc : ∀ d' : Fin 128,
      (scatter_S64x128_S100000x1_S100000x128_1_0_0_1.resultIdx? (ix2 (n0 := 100000) (n1 := 128) r d')
          (broadcastInDim S100000x1 ![0] bcast_S100000_S100000x1_0 b) = some (ix2 (n0 := 64) (n1 := 128) g d))
        ↔ (b (ix1 r) = BitVec.ofNat 32 g.val ∧ d' = d) := fun d' => by
    have h := rowScatter_lands_iff (ix2 (n0 := 100000) (n1 := 128) r d') (broadcastInDim S100000x1 ![0] bcast_S100000_S100000x1_0 b) g d
    have h' : (broadcastInDim S100000x1 ![0] bcast_S100000_S100000x1_0 b (ix2 (n0 := 100000) (n1 := 1) r 0)).toInt = (g.val : Int) ∧ d' = d
        ↔ (b (ix1 r) = BitVec.ofNat 32 g.val ∧ d' = d) := by
      rw [idCol_apply, toInt_eq_iff_eq_ofNat]
    exact h.trans h'
  rw [Finset.sum_congr rfl fun d' _ => if_congr (hc d') rfl rfl]
  unfold Cert.Spec.oneHot
  by_cases hA : b (ix1 r) = BitVec.ofNat 32 g.val
  · simp only [hA, true_and, if_true, one_mul, Finset.sum_ite_eq', Finset.mem_univ]
  · simp only [hA, false_and, if_false, zero_mul, Finset.sum_const_zero]

/-! ## The count scatter: graph sizes -/

/-- The start of the count scatter on its one axis: the signed id of the update's row. -/
theorem cntScatter_start0 (j : S100000.Idx) (idx : IVec S100000x1 32) :
    scatter_S64_S100000x1_S100000_n_0_0_1.start j idx 0 = (idx (ix2 (j 0) 0)).toInt := by
  unfold ScatterDims.start
  rw [dif_pos (show (0 : Fin S64.rank) ∈ scatter_S64_S100000x1_S100000_n_0_0_1.scatterDimsToOperandDims from List.mem_singleton.mpr rfl)]
  refine congrArg (fun k => (idx k).toInt) (funext fun b => Fin.ext ?_)
  match b with
  | ⟨0, _⟩ => rfl
  | ⟨1, _⟩ => rfl

/-- Its one axis is an inserted one: no window coordinate. -/
theorem cntScatter_window0 (j : S100000.Idx) : scatter_S64_S100000x1_S100000_n_0_0_1.window j 0 = 0 := by
  unfold ScatterDims.window
  rw [dif_neg (show ¬ (0 : Fin S64.rank) ∈ scatter_S64_S100000x1_S100000_n_0_0_1.sKept by decide)]

/-- Update `r` lands on graph `g` exactly when the signed id of row `r` is `g`. -/
theorem cntScatter_lands_iff (j : S100000.Idx) (idx : IVec S100000x1 32) (g : Fin 64) :
    scatter_S64_S100000x1_S100000_n_0_0_1.resultIdx? j idx = some (ix1 g) ↔ (idx (ix2 (j 0) 0)).toInt = (g.val : Int) := by
  have s0 := cntScatter_start0 j idx
  have w0 := cntScatter_window0 j
  have hg := g.isLt
  have z0 : (S64.size 0 : Nat) = 64 := rfl
  unfold ScatterDims.resultIdx?
  split
  · rename_i h
    have h0 := h 0
    rw [s0, w0, z0] at h0
    rw [Option.some.injEq]
    constructor
    · intro hf
      have e0 : ((scatter_S64_S100000x1_S100000_n_0_0_1.start j idx 0 + (scatter_S64_S100000x1_S100000_n_0_0_1.window j 0 : Int)).toNat) = g.val :=
        congrArg (fun f : S64.Idx => (f 0).val) hf
      rw [s0, w0] at e0
      omega
    · intro e0
      funext a
      refine Fin.ext ?_
      match a with
      | ⟨0, _⟩ =>
        show ((scatter_S64_S100000x1_S100000_n_0_0_1.start j idx 0 + (scatter_S64_S100000x1_S100000_n_0_0_1.window j 0 : Int)).toNat) = g.val
        rw [s0, w0]; omega
  · rename_i h
    constructor
    · intro hf; exact absurd hf (by simp)
    · intro e0
      refine absurd (fun a => ?_) h
      match a with
      | ⟨0, _⟩ =>
        show 0 ≤ scatter_S64_S100000x1_S100000_n_0_0_1.start j idx 0 + (scatter_S64_S100000x1_S100000_n_0_0_1.window j 0 : Int) ∧ scatter_S64_S100000x1_S100000_n_0_0_1.start j idx 0 + (scatter_S64_S100000x1_S100000_n_0_0_1.window j 0 : Int) < ((S64.size 0 : Nat) : Int)
        rw [s0, w0, z0]; omega

/-- A sum over a rank-1 index set is the sum over its one coordinate. -/
theorem sum_idx1 {M : Type*} [AddCommMonoid M] {n : Nat} (f : (⟨1, ![n]⟩ : Shape).Idx → M) :
    ∑ i, f i = ∑ a : Fin n, f (ix1 a) :=
  Fintype.sum_equiv ⟨fun i => i 0, fun a => ix1 a, fun i => (eq_ix1 i).symm, fun _ => rfl⟩ _ _ fun i => congrArg f (eq_ix1 i)

/-- The size of graph `g` as the reference counts it: ones scatter-added by graph id into zeros. -/
theorem count_apply (b : IVec S100000 32) (g : Fin 64) :
    Host.scatterAdd scatter_S64_S100000x1_S100000_n_0_0_1
        (broadcastInDim S64 ![] bcast_S_S64 (constant (F := Ideal) S_ .f32 0x00000000#32))
        (broadcastInDim S100000x1 ![0] bcast_S100000_S100000x1_0 b)
        (broadcastInDim S100000 ![] bcast_S_S100000 (constant (F := Ideal) S_ .f32 0x3F800000#32)) (ix1 (n := 64) g)
      = ∑ r : Fin 100000, Cert.Spec.oneHot (b (ix1 r)) g := by
  show Ideal.hostScatterAdd _ _ _ _ _ = _
  unfold Ideal.hostScatterAdd
  rw [zeros_apply, zero_add, Finset.sum_filter, sum_idx1]
  refine Finset.sum_congr rfl fun r _ => ?_
  rw [ones_apply]
  unfold Cert.Spec.oneHot
  have h := cntScatter_lands_iff (ix1 (n := 100000) r) (broadcastInDim S100000x1 ![0] bcast_S100000_S100000x1_0 b) g
  have h' : (broadcastInDim S100000x1 ![0] bcast_S100000_S100000x1_0 b (ix2 (n0 := 100000) (n1 := 1) r 0)).toInt = (g.val : Int)
      ↔ b (ix1 r) = BitVec.ofNat 32 g.val := by
    rw [idCol_apply, toInt_eq_iff_eq_ofNat]
  exact if_congr (h.trans h') rfl rfl

/-- The clamped size `max(count, 1)` at graph `g`. -/
theorem cntMax_apply (b : IVec S100000 32) (g : Fin 64) :
    Cert.Spec.cntMax (F := Ideal) b (ix1 (n := 64) g) = max (∑ r : Fin 100000, Cert.Spec.oneHot (b (ix1 r)) g) 1 := by
  unfold Cert.Spec.cntMax
  rw [maximumf_apply, count_apply, ones_apply]

/-- A sum of one-hot entries is a real number. -/
theorem oneHot_sum_real (b : IVec S100000 32) (g : Fin 64) :
    ∃ c : ℝ, ∑ r : Fin 100000, Cert.Spec.oneHot (b (ix1 r)) g = (c : EReal) := by
  refine Finset.sum_induction _ (fun x => ∃ c : ℝ, x = (c : EReal)) ?_ ⟨0, rfl⟩ ?_
  · rintro _ _ ⟨a, rfl⟩ ⟨c, rfl⟩
    exact ⟨a + c, (EReal.coe_add a c).symm⟩
  · intro r _
    unfold Cert.Spec.oneHot
    split
    · exact ⟨1, rfl⟩
    · exact ⟨0, rfl⟩

/-- The clamped size is a real number that is not zero (it is at least one). -/
theorem cntMax_real (b : IVec S100000 32) (g : Fin 64) :
    ∃ m : ℝ, m ≠ 0 ∧ Cert.Spec.cntMax (F := Ideal) b (ix1 (n := 64) g) = (m : EReal) := by
  obtain ⟨c, hc⟩ := oneHot_sum_real b g
  refine ⟨max c 1, ?_, ?_⟩
  · exact (lt_of_lt_of_le one_pos (le_max_right c 1)).ne'
  · rw [cntMax_apply, hc]
    show max (c : EReal) ((1 : ℝ) : EReal) = _
    exact (EReal.coe_strictMono.monotone.map_max).symm

/-- The reciprocal column at graph `g`, given the clamped size there as a nonzero real `m`: the real `1 / m`. -/
theorem recip_apply (b : IVec S100000 32) (g : Fin 64) (m : ℝ) (hm : m ≠ 0)
    (h : Cert.Spec.cntMax (F := Ideal) b (ix1 (n := 64) g) = (m : EReal)) :
    Cert.Spec.recip (F := Ideal) b (ix2 (n0 := 64) (n1 := 1) g 0) = ((1 / m : ℝ) : EReal) := by
  unfold Cert.Spec.recip
  rw [shapeCast_apply _ _ _ (ix1 (n := 64) g) (by
    rw [Shape.rowMajor_val_one, Shape.rowMajor_val_two]
    show g.val = g.val * 1 + 0
    omega)]
  rw [hostDivf_apply, ones_apply, h, Ideal.div_coe hm, one_mul]

/-! ## The rows added by the padding contribute nothing -/

/-- A sum over `m` indices whose terms vanish from `n` on is the sum of the first `n`. -/
theorem sum_fin_pad {M : Type*} [AddCommMonoid M] {n m : ℕ} (hnm : n ≤ m) (F : Fin m → M) (G : Fin n → M)
    (hin : ∀ r : Fin n, F ⟨r.val, lt_of_lt_of_le r.isLt hnm⟩ = G r) (hout : ∀ r : Fin m, n ≤ r.val → F r = 0) :
    ∑ r, F r = ∑ r, G r := by
  obtain ⟨k, rfl⟩ : ∃ k, m = n + k := ⟨m - n, by omega⟩
  have hz : ∑ i : Fin k, F (Fin.natAdd n i) = 0 :=
    Finset.sum_eq_zero fun i _ => hout _ (by rw [Fin.coe_natAdd]; omega)
  rw [Fin.sum_univ_add, hz, add_zero]
  exact Finset.sum_congr rfl fun r _ => hin r

/-- The padding word, minus one, is the word of no graph number. -/
theorem minusOne_ne_graph (g : Fin 64) : (4294967295#32 : BitVec 32) ≠ BitVec.ofNat 32 g.val := by
  intro h
  have h1 : (4294967295#32 : BitVec 32).toNat = (BitVec.ofNat 32 g.val).toNat := congrArg BitVec.toNat h
  have h2 : (4294967295#32 : BitVec 32).toNat = 4294967295 := rfl
  have h3 : (BitVec.ofNat 32 g.val).toNat = g.val := by
    rw [BitVec.toNat_ofNat]
    exact Nat.mod_eq_of_lt (lt_of_lt_of_le g.isLt (by decide))
  rw [h2, h3] at h1
  have h4 := g.isLt
  omega

/-- The padded id column at a row of the original list reads that row's id. -/
theorem padB_apply_inside (b : IVec S100000 32) (r : Fin 100352) (hr : r.val < 100000) :
    Cert.Spec.padB b (ix2 (n0 := 100352) (n1 := 1) r 0) = b (ix1 (n := 100000) ⟨r.val, hr⟩) := by
  unfold Cert.Spec.padB
  rw [shapeCast_apply _ _ _ (ix1 (n := 100352) r) (by
    rw [Shape.rowMajor_val_one, Shape.rowMajor_val_two]
    show r.val = r.val * 1 + 0
    omega)]
  exact pad_apply_of_inside _ _ _ b _ _ _ (ix1 (n := 100352) r) (ix1 (n := 100000) ⟨r.val, hr⟩) (fun a => match a with
    | ⟨0, _⟩ => by show r.val = 0 + r.val * (0 + 1); omega)

/-- At an added row it reads the padding word, minus one. -/
theorem padB_apply_outside (b : IVec S100000 32) (r : Fin 100352) (hr : 100000 ≤ r.val) :
    Cert.Spec.padB b (ix2 (n0 := 100352) (n1 := 1) r 0) = 4294967295#32 := by
  unfold Cert.Spec.padB
  rw [shapeCast_apply _ _ _ (ix1 (n := 100352) r) (by
    rw [Shape.rowMajor_val_one, Shape.rowMajor_val_two]
    show r.val = r.val * 1 + 0
    omega)]
  exact (pad_apply_of_not_inside _ _ _ b _ _ _ (ix1 (n := 100352) r) (0 : Fin 1) (by
    show ¬(0 ≤ r.val ∧ (r.val - 0) % (0 + 1) = 0 ∧ (r.val - 0) / (0 + 1) < 100000)
    omega)).trans rfl

/-- The zero-padded feature array at a row of the original array reads that row. -/
theorem pad0_apply_inside (H : FVec Ideal S100000x128 .f32) (r : Fin 100352) (hr : r.val < 100000) (d : Fin 128) :
    Cert.Spec.pad0 H (ix2 (n0 := 100352) (n1 := 128) r d) = H (ix2 (n0 := 100000) (n1 := 128) ⟨r.val, hr⟩ d) := by
  unfold Cert.Spec.pad0
  exact pad_apply_of_inside _ _ _ H _ _ _ (ix2 (n0 := 100352) (n1 := 128) r d) (ix2 (n0 := 100000) (n1 := 128) ⟨r.val, hr⟩ d) (fun a => match a with
    | ⟨0, _⟩ => by show r.val = 0 + r.val * (0 + 1); omega
    | ⟨1, _⟩ => by show d.val = 0 + d.val * (0 + 1); omega)

/-- The pooled sum over the 100352 padded rows is the pooled sum over the 100000 rows: an added row's id is minus
    one, the word of no graph number, so its one-hot entry is zero. -/
theorem pooled_pad (H : FVec Ideal S100000x128 .f32) (b : IVec S100000 32) (g : Fin 64) (d : Fin 128) :
    ∑ r : Fin 100352, Cert.Spec.oneHot (Cert.Spec.padB b (ix2 (n0 := 100352) (n1 := 1) r 0)) g
        * Cert.Spec.pad0 H (ix2 (n0 := 100352) (n1 := 128) r d)
      = ∑ r : Fin 100000, Cert.Spec.oneHot (b (ix1 r)) g * H (ix2 (n0 := 100000) (n1 := 128) r d) := by
  refine sum_fin_pad (by decide) _ _ (fun r => ?_) (fun r hr => ?_)
  · rw [padB_apply_inside b ⟨r.val, _⟩ r.isLt, pad0_apply_inside H ⟨r.val, _⟩ r.isLt d]
  · rw [padB_apply_outside b r hr]
    unfold Cert.Spec.oneHot
    rw [if_neg (minusOne_ne_graph g), zero_mul]

/-! ## The reference's head, read at an index -/

/-- A vector of 64 entries as a column, then along 128 columns, reads its entry of the row. -/
theorem sizeCol_apply (v : FVec Ideal S64 .f32) (g : Fin 64) (k : Fin 128) :
    broadcastInDim S64x128 ![0, 1] bcast_S64x1_S64x128_0_1 (broadcastInDim S64x1 ![0] bcast_S64_S64x1_0 v)
        (ix2 (n0 := 64) (n1 := 128) g k) = v (ix1 g) := by
  rw [broadcastInDim_apply _ bcast_S64x1_S64x128_0_1 _ _ (ix2 (n0 := 64) (n1 := 1) g 0) (fun a => match a with
    | ⟨0, _⟩ => by show g.val = if (64 : Nat) = 1 then 0 else g.val; rw [if_neg (by decide)]
    | ⟨1, _⟩ => by show (0 : Nat) = if (1 : Nat) = 1 then 0 else k.val; rw [if_pos rfl])]
  exact broadcastInDim_apply _ bcast_S64_S64x1_0 v _ (ix1 g) (fun a => match a with
    | ⟨0, _⟩ => by show g.val = if (64 : Nat) = 1 then 0 else g.val; rw [if_neg (by decide)])

/-- The bias as a row, then along 64 rows, reads its entry of the column. -/
theorem biasRow_apply (bfc : FVec Ideal S10 .f32) (g : Fin 64) (j : Fin 10) :
    broadcastInDim S64x10 ![0, 1] bcast_S1x10_S64x10_0_1 (broadcastInDim S1x10 ![1] bcast_S10_S1x10_1 bfc)
        (ix2 (n0 := 64) (n1 := 10) g j) = bfc (ix1 j) := by
  rw [broadcastInDim_apply _ bcast_S1x10_S64x10_0_1 _ _ (ix2 (n0 := 1) (n1 := 10) 0 j) (fun a => match a with
    | ⟨0, _⟩ => by show (0 : Nat) = if (1 : Nat) = 1 then 0 else g.val; rw [if_pos rfl]
    | ⟨1, _⟩ => by show j.val = if (10 : Nat) = 1 then 0 else j.val; rw [if_neg (by decide)])]
  exact broadcastInDim_apply _ bcast_S10_S1x10_1 bfc _ (ix1 j) (fun a => match a with
    | ⟨0, _⟩ => by show j.val = if (10 : Nat) = 1 then 0 else j.val; rw [if_neg (by decide)])

/-- The head's projection at `(g, j)`: the sum over the 128 features of the pooled row times the weight column. -/
theorem headDot_apply (X : FVec Ideal S64x128 .f32) (Wfc : FVec Ideal S128x10 .f32) (g : Fin 64) (j : Fin 10) :
    Host.dotGeneral dot_S64x128_S128x10_S64x10_1_0_0_1_n_n none X Wfc (ix2 (n0 := 64) (n1 := 10) g j)
      = ∑ k : Fin 128, X (ix2 (n0 := 64) (n1 := 128) g k) * Wfc (ix2 (n0 := 128) (n1 := 10) k j) := by
  simp only [Host.dotGeneral]
  rw [Ideal.dotGeneral_apply, ← Equiv.sum_comp (contrEquiv1 dot_S64x128_S128x10_S64x10_1_0_0_1_n_n 128 rfl rfl).symm]
  refine Finset.sum_congr rfl fun k _ => ?_
  have hk := contrEquiv1_symm_val dot_S64x128_S128x10_S64x10_1_0_0_1_n_n 128 rfl rfl k
  have el : dot_S64x128_S128x10_S64x10_1_0_0_1_n_n.lhsIdx (ix2 (n0 := 64) (n1 := 10) g j) ((contrEquiv1 dot_S64x128_S128x10_S64x10_1_0_0_1_n_n 128 rfl rfl).symm k)
      = ix2 (n0 := 64) (n1 := 128) g k := funext fun a => Fin.ext (by
    match a with
    | ⟨0, _⟩ =>
      show (dot_S64x128_S128x10_S64x10_1_0_0_1_n_n.lhsIdx (ix2 (n0 := 64) (n1 := 10) g j) ((contrEquiv1 dot_S64x128_S128x10_S64x10_1_0_0_1_n_n 128 rfl rfl).symm k) 0).val = g.val
      unfold DotDims.lhsIdx
      rw [dif_neg (show ¬(0 : Fin S64x128.rank) ∈ dot_S64x128_S128x10_S64x10_1_0_0_1_n_n.lhsBatch by decide),
        dif_pos (show (0 : Fin S64x128.rank) ∈ dot_S64x128_S128x10_S64x10_1_0_0_1_n_n.lhsNonContracting by decide)]
      rfl
    | ⟨1, _⟩ => exact (dot_S64x128_S128x10_S64x10_1_0_0_1_n_n.lhsIdx_val_of_single rfl _ _).trans hk)
  have er : dot_S64x128_S128x10_S64x10_1_0_0_1_n_n.rhsIdx (ix2 (n0 := 64) (n1 := 10) g j) ((contrEquiv1 dot_S64x128_S128x10_S64x10_1_0_0_1_n_n 128 rfl rfl).symm k)
      = ix2 (n0 := 128) (n1 := 10) k j := funext fun a => Fin.ext (by
    match a with
    | ⟨0, _⟩ => exact (dot_S64x128_S128x10_S64x10_1_0_0_1_n_n.rhsIdx_val_of_single rfl _ _).trans hk
    | ⟨1, _⟩ =>
      show (dot_S64x128_S128x10_S64x10_1_0_0_1_n_n.rhsIdx (ix2 (n0 := 64) (n1 := 10) g j) ((contrEquiv1 dot_S64x128_S128x10_S64x10_1_0_0_1_n_n 128 rfl rfl).symm k) 1).val = j.val
      unfold DotDims.rhsIdx
      rw [dif_neg (show ¬(1 : Fin S128x10.rank) ∈ dot_S64x128_S128x10_S64x10_1_0_0_1_n_n.rhsBatch by decide),
        dif_pos (show (1 : Fin S128x10.rank) ∈ dot_S64x128_S128x10_S64x10_1_0_0_1_n_n.rhsNonContracting by decide)]
      rfl)
  rw [el, er]

/-- Entry `(g, j)` of the reference's head, given the clamped size of graph `g` as a nonzero real `m`: dividing by
    `m` is multiplying by the real `1 / m`, for every extended real. -/
theorem head_apply (b : IVec S100000 32) (H : FVec Ideal S100000x128 .f32) (Wfc : FVec Ideal S128x10 .f32)
    (bfc : FVec Ideal S10 .f32) (g : Fin 64) (j : Fin 10) (m : ℝ) (hm : m ≠ 0)
    (hmx : Cert.Spec.cntMax (F := Ideal) b (ix1 (n := 64) g) = (m : EReal)) :
    Cert.Spec.head (F := Ideal) b H Wfc bfc (ix2 (n0 := 64) (n1 := 10) g j)
      = (∑ k : Fin 128, ((∑ r : Fin 100000, Cert.Spec.oneHot (b (ix1 r)) g * H (ix2 (n0 := 100000) (n1 := 128) r k))
            * ((1 / m : ℝ) : EReal)) * Wfc (ix2 (n0 := 128) (n1 := 10) k j)) + bfc (ix1 j) := by
  unfold Cert.Spec.head
  rw [addf_apply, headDot_apply, biasRow_apply]
  refine congrArg (fun t => t + bfc (ix1 (n := 10) j)) (Finset.sum_congr rfl fun k _ => ?_)
  rw [hostDivf_apply, rowScatter_apply, sizeCol_apply, hmx, Ideal.div_coe hm]

end Pool

open Pool

/-! ## The bridge -/

/-- The pooled head the tiled region computes on the padded arrays — one-hot sums over 100352 rows, scaled by the
    reciprocal sizes, projected, plus the bias — is the reference's head: scatter-add by graph id, divide by the
    clamped sizes, project, add the bias. No finiteness of the features is used: only that sums and products of
    extended reals commute and associate, `0 * x = 0`, `1 * x = x`, and that the clamped size is a nonzero real. -/
theorem pool_bridge (H : FVec Ideal S100000x128 .f32) (b : IVec S100000 32) (Wfc : FVec Ideal S128x10 .f32)
    (bfc : FVec Ideal S10 .f32) :
    Cert.Spec.PoolG (Cert.Spec.pad0 H) (Cert.Spec.padB b) (Cert.Spec.recip (F := Ideal) b) Wfc bfc
      = Cert.Spec.head (F := Ideal) b H Wfc bfc := by
  funext i
  obtain ⟨g, j, rfl⟩ : ∃ g j, i = ix2 (n0 := 64) (n1 := 10) g j := ⟨i 0, i 1, eq_ix2 i⟩
  obtain ⟨m, hm, hmx⟩ := cntMax_real b g
  rw [head_apply b H Wfc bfc g j m hm hmx]
  show (∑ d : Fin 128, ((∑ r : Fin 100352, Cert.Spec.oneHot (Cert.Spec.padB b (ix2 (n0 := 100352) (n1 := 1) r 0)) g
        * Cert.Spec.pad0 H (ix2 (n0 := 100352) (n1 := 128) r d))
      * Cert.Spec.recip (F := Ideal) b (ix2 (n0 := 64) (n1 := 1) g 0)) * Wfc (ix2 (n0 := 128) (n1 := 10) d j))
    + bfc (ix1 (n := 10) j) = _
  rw [recip_apply b g m hm hmx]
  refine congrArg (fun t => t + bfc (ix1 (n := 10) j)) (Finset.sum_congr rfl fun d _ => ?_)
  rw [pooled_pad]

end Cert.Value

end
-- ==== Proof.AggAt.lean ====
/-
  One aggregation with the edge lists and the per-edge weights as parameters: gather the projected rows by (wrapped)
  source, scale by the weight, scatter-add by destination into zeros, add the bias row, clamp at zero. The shared
  stage `agg` is this at the edge lists and weights computed from the edge array.
-/
import proofs.«428559_j43585328120189_1_alg».proof.Proof.Spec

noncomputable section

namespace Cert.Value

open Idealize.ShloMosaic Cert.ReferenceIdeal Cert.ReferenceIdeal.Facts₀ Cert.ReferenceIdeal.Facts Cert.Spec

variable {F : FTy → Type} [FloatOps F]

def aggAt (src dst : IVec S1700000 32) (nrm : FVec F S1700000 .f32) (bias : FVec F S128 .f32) (h : FVec F S100000x128 .f32) : FVec F S100000x128 .f32 :=
  maximumf (addf (Host.scatterAdd scatter_S100000x128_S1700000x1_S1700000x128_1_0_0_1 (broadcastInDim S100000x128 ![] bcast_S_S100000x128 (constant S_ .f32 0x00000000#32)) (broadcastInDim S1700000x1 ![0] bcast_S1700000_S1700000x1_0 dst) (mulf (Host.gather gather_S100000x128_S1700000x1_S1700000x128_1_0_n_n_0_1_1128 h (broadcastInDim S1700000x1 ![0] bcast_S1700000_S1700000x1_0 (wrap src))) (broadcastInDim S1700000x128 ![0, 1] bcast_S1700000x1_S1700000x128_0_1 (broadcastInDim S1700000x1 ![0] bcast_S1700000_S1700000x1_0 nrm)))) (broadcastInDim S100000x128 ![0, 1] bcast_S1x128_S100000x128_0_1 (broadcastInDim S1x128 ![1] bcast_S128_S1x128_1 bias))) (broadcastInDim S100000x128 ![] bcast_S_S100000x128 (constant S_ .f32 0x00000000#32))

theorem agg_eq_aggAt (ei : IVec S2x1600000 32) (bias : FVec F S128 .f32) (h : FVec F S100000x128 .f32) :
    Cert.Spec.agg ei bias h = aggAt (Cert.Spec.srcIdx ei) (Cert.Spec.dstIdx ei) (Cert.Spec.norm (F := F) ei) bias h := rfl

end Cert.Value

end
-- ==== Proof.KVals.lean ====
/-
  What the unscoped buffers the three tiled regions read hold at each region's entry, as the stages of the shared
  vocabulary applied to the launch contents of the argument arrays: the edge lists with their self loops, the
  in-degree, its inverse square root, the per-edge weight, and then per layer the zero-padded input rows, one
  aggregation of the previous region's rows cut back to the real nodes, the graph ids padded as a column and the
  reciprocal graph sizes.
-/
import proofs.«428559_j43585328120189_1_alg».proof.Proof.Spec
import proofs.«428559_j43585328120189_1_alg».proof.Proof.Gen.KernelIdeal.Regions
import Idealize.ShloMosaic.Lib.StableHlo.Run

set_option maxRecDepth 1084

noncomputable section

namespace Cert.Value

open Idealize.ShloMosaic Idealize.ShloMosaic.TcCoe Idealize.ShloMosaic.StableHlo
open Cert.KernelIdeal Cert.KernelIdeal.Gen

variable {F : FTy → Type} [FloatOps F]
variable (m : (ℓ : Loc nD τ sig) → Buf (Elt F) ℓ) (outs : Outs (F := F))

/-- After the first host stretch main_v3 holds the source list. -/
theorem V1_v3 (c : Dev nD) :
    (V1 m c main_v3 : IVec S1700000 32) = Cert.Spec.srcIdx (m ((c : Thread nD τ).loc main_arg1)) := by
  dsimp only [V1, V0]
  after_results
  rfl

/-- After the first host stretch main_v6 holds the destination list. -/
theorem V1_v6 (c : Dev nD) :
    (V1 m c main_v6 : IVec S1700000 32) = Cert.Spec.dstIdx (m ((c : Thread nD τ).loc main_arg1)) := by
  dsimp only [V1, V0]
  after_results
  rfl

/-- After the first host stretch main_v10 holds the in-degree. -/
theorem V1_v10 (c : Dev nD) :
    (V1 m c main_v10 : FVec F S100000 .f32) = Cert.Spec.deg (F := F) (m ((c : Thread nD τ).loc main_arg1)) := by
  dsimp only [V1, V0]
  after_results
  rfl

/-- After the first host stretch main_v12 holds the test "degree positive". -/
theorem V1_v12 (c : Dev nD) :
    (V1 m c main_v12 : IVec S100000 1) = cmpf .ogt (Cert.Spec.deg (F := F) (m ((c : Thread nD τ).loc main_arg1))) (broadcastInDim S100000 ![] bcast_S_S100000 (constant S_ .f32 0x00000000#32)) := by
  dsimp only [V1, V0]
  after_results
  rfl

/-- After the first host stretch main_v13 holds the inverse square root of the degree. -/
theorem V1_v13 (c : Dev nD) :
    (V1 m c main_v13 : FVec F S100000 .f32) = Host.rsqrt (Cert.Spec.deg (F := F) (m ((c : Thread nD τ).loc main_arg1))) := by
  dsimp only [V1, V0]
  after_results
  rfl

/-- After the first host stretch main_cst_2 holds the constant zero. -/
theorem V1_cst_2 (c : Dev nD) :
    (V1 m c main_cst_2 : FVec F S_ .f32) = constant S_ .f32 0x00000000#32 := by
  dsimp only [V1, V0]
  after_results

/-- After the second host stretch main_v14 holds the inverse square root of the degree where it is positive, else zero. -/
theorem V2_v14 (c : Dev nD) :
    (V2 m c main_v14 : FVec F S100000 .f32) = Cert.Spec.dis (F := F) (m ((c : Thread nD τ).loc main_arg1)) := by
  dsimp only [V2]
  generalize hW : V1 m c = W
  after_results
  subst hW
  rw [V1_v12, V1_v13, V1_cst_2]
  rfl

/-- The second stretch leaves the source list where it was. -/
theorem V2_v3 (c : Dev nD) :
    @Eq (IVec S1700000 32) (V2 m c main_v3) (Cert.Spec.srcIdx (m ((c : Thread nD τ).loc main_arg1))) :=
  (V2_of m c main_v3 (by decide)).trans (V1_v3 m c)

/-- The second stretch leaves the destination list where it was. -/
theorem V2_v6 (c : Dev nD) :
    @Eq (IVec S1700000 32) (V2 m c main_v6) (Cert.Spec.dstIdx (m ((c : Thread nD τ).loc main_arg1))) :=
  (V2_of m c main_v6 (by decide)).trans (V1_v6 m c)

/-- After the third host stretch main_v29 holds the per-edge weight: the inverse-square-root degree gathered at the
    wrapped source index times the same gathered at the wrapped destination index. -/
theorem V3_v29 (c : Dev nD) :
    @Eq (FVec F S1700000 .f32) (V3 m c main_v29) (Cert.Spec.norm (F := F) (m ((c : Thread nD τ).loc main_arg1))) := by
  dsimp only [V3]
  generalize hW : V2 m c = W
  after_results_simp
  subst hW
  rw [V2_v3, V2_v6, V2_v14]
  rfl

/-- After the third host stretch main_c_6 holds the integer zero. -/
theorem V3_c_6 (c : Dev nD) :
    @Eq (IVec S_ 32) (V3 m c main_c_6) (constantI S_ 32 0#32) := by
  dsimp only [V3]
  generalize hW : V2 m c = W
  after_results_simp

/-- No host stretch before the first region writes the input rows. -/
theorem V3_arg0 (c : Dev nD) : V3 m c main_arg0 = m ((c : Thread nD τ).loc main_arg0) :=
  (V3_of m c main_arg0 (by decide)).trans <| (V2_of m c main_arg0 (by decide)).trans <| (V1_of m c main_arg0 (by decide)).trans rfl

/-- At the first region's entry main_v30 holds the input rows padded with zeros. -/
theorem V4_v30 (c : Dev nD) :
    @Eq (FVec F S100352x128 .f32) (V4 m c main_v30) (Cert.Spec.pad0 (F := F) (m ((c : Thread nD τ).loc main_arg0))) := by
  dsimp only [V4]
  generalize hW : V3 m c = W
  after_results_simp
  subst hW
  rw [V3_c_6, V3_arg0]
  rfl

/-- At the first region's entry main_arg3 holds the first layer's weights as launched. -/
theorem V4_arg3 (c : Dev nD) : V4 m c main_arg3 = m ((c : Thread nD τ).loc main_arg3) :=
  (V4_of m c main_arg3 (by decide)).trans <| (V3_of m c main_arg3 (by decide)).trans <| (V2_of m c main_arg3 (by decide)).trans <| (V1_of m c main_arg3 (by decide)).trans rfl

end Cert.Value

end
-- ==== Proof.KVals1.lean ====
/-
  What the unscoped buffers hold between the first and the second tiled region: the first region's rows cut back to the
  real nodes, one aggregation of them (gather by wrapped source, scale by the edge weight, scatter-add by destination
  into zeros, add the bias row, clamp at zero), and its rows padded with zeros again for the second region — each as
  the shared vocabulary's stage applied to what the buffers held before.
-/
import proofs.«428559_j43585328120189_1_alg».proof.Proof.Spec
import proofs.«428559_j43585328120189_1_alg».proof.Proof.AggAt
import proofs.«428559_j43585328120189_1_alg».proof.Proof.Gen.KernelIdeal.Regions
import Idealize.ShloMosaic.Lib.StableHlo.Run

set_option maxRecDepth 1084

noncomputable section

namespace Cert.Value

section Stage

open Idealize.ShloMosaic Cert.ReferenceIdeal Cert.ReferenceIdeal.Facts₀ Cert.ReferenceIdeal.Facts Cert.Spec

variable {F : FTy → Type} [FloatOps F]

/-- One aggregation before the clamp: rows gathered by wrapped source, scaled by the edge weight, scatter-added by
    destination into zeros, plus the bias row. -/
def aggSum (src dst : IVec S1700000 32) (nrm : FVec F S1700000 .f32) (bias : FVec F S128 .f32) (h : FVec F S100000x128 .f32) : FVec F S100000x128 .f32 :=
  addf (Host.scatterAdd scatter_S100000x128_S1700000x1_S1700000x128_1_0_0_1 (broadcastInDim S100000x128 ![] bcast_S_S100000x128 (constant S_ .f32 0x00000000#32)) (broadcastInDim S1700000x1 ![0] bcast_S1700000_S1700000x1_0 dst) (mulf (Host.gather gather_S100000x128_S1700000x1_S1700000x128_1_0_n_n_0_1_1128 h (broadcastInDim S1700000x1 ![0] bcast_S1700000_S1700000x1_0 (wrap src))) (broadcastInDim S1700000x128 ![0, 1] bcast_S1700000x1_S1700000x128_0_1 (broadcastInDim S1700000x1 ![0] bcast_S1700000_S1700000x1_0 nrm)))) (broadcastInDim S100000x128 ![0, 1] bcast_S1x128_S100000x128_0_1 (broadcastInDim S1x128 ![1] bcast_S128_S1x128_1 bias))

/-- The aggregation is that sum clamped at zero. -/
theorem aggAt_eq_clamp (src dst : IVec S1700000 32) (nrm : FVec F S1700000 .f32) (bias : FVec F S128 .f32) (h : FVec F S100000x128 .f32) :
    aggAt src dst nrm bias h = maximumf (aggSum src dst nrm bias h) (broadcastInDim S100000x128 ![] bcast_S_S100000x128 (constant S_ .f32 0x00000000#32)) := rfl

end Stage

section Chain

open Idealize.ShloMosaic Idealize.ShloMosaic.TcCoe Idealize.ShloMosaic.StableHlo
open Cert.KernelIdeal Cert.KernelIdeal.Gen

variable {F : FTy → Type} [FloatOps F]
variable (m : (ℓ : Loc nD τ sig) → Buf (Elt F) ℓ) (outs : Outs (F := F))

/-! ## Each stretch from arbitrary contents -/

/-- The stretch that follows the first region, from any contents `W`: main_v48 ends holding the aggregation's sum
    (before the clamp) of the result array's first 100000 rows, with the edge lists, the weights and the bias `W` holds. -/
theorem hostOps1_v48 (W : Valuation τ sig (Elt F)) :
    @Eq (FVec F S100000x128 .f32) (StableHlo.after (hostOps1 (F := F)) W main_v48)
      (aggSum (W main_v3) (W main_v6) (W main_v29) (W main_arg4) (Cert.Spec.slice0 (W main_v31))) := by
  after_results_simp
  rfl

/-- The clamp, from any contents `W` whose main_v48 is an aggregation's sum: main_v49 ends holding the aggregation. -/
theorem hostOps1_1_v49 (W : Valuation τ sig (Elt F)) (src dst : IVec Cert.ReferenceIdeal.S1700000 32)
    (nrm : FVec F Cert.ReferenceIdeal.S1700000 .f32) (bias : FVec F Cert.ReferenceIdeal.S128 .f32)
    (h : FVec F Cert.ReferenceIdeal.S100000x128 .f32)
    (h48 : @Eq (FVec F S100000x128 .f32) (W main_v48) (aggSum src dst nrm bias h)) :
    @Eq (FVec F S100000x128 .f32) (StableHlo.after (hostOps1_1 (F := F)) W main_v49) (aggAt src dst nrm bias h) := by
  after_results_simp
  rw [h48]
  rfl

/-- The padding, from any contents `W` whose main_c_10 is the integer zero: main_v50 ends holding main_v49's rows
    padded with zeros. -/
theorem hostOps1_3_v50 (W : Valuation τ sig (Elt F)) (y : FVec F Cert.ReferenceIdeal.S100000x128 .f32)
    (h49 : @Eq (FVec F S100000x128 .f32) (W main_v49) y) (h10 : @Eq (IVec S_ 32) (W main_c_10) (constantI S_ 32 0#32)) :
    @Eq (FVec F S100352x128 .f32) (StableHlo.after (hostOps1_3 (F := F)) W main_v50) (Cert.Spec.pad0 y) := by
  after_results_simp
  rw [h49, h10]
  rfl

/-! ## After the first region: what the next stretch reads -/

/-- The first region's result array holds what the region left there. -/
theorem V5_v31 (c : Dev nD) : V5 m outs c main_v31 = outs 5 main_v31 c :=
  Function.update_self _ _ _

/-- Nothing since the first stretch writes the source list. -/
theorem V5_v3 (c : Dev nD) : V5 m outs c main_v3 = V1 m c main_v3 :=
  (V5_of m outs c main_v3 (by decide)).trans <| (V4_of m c main_v3 (by decide)).trans <| (V3_of m c main_v3 (by decide)).trans (V2_of m c main_v3 (by decide))

/-- Nothing since the first stretch writes the destination list. -/
theorem V5_v6 (c : Dev nD) : V5 m outs c main_v6 = V1 m c main_v6 :=
  (V5_of m outs c main_v6 (by decide)).trans <| (V4_of m c main_v6 (by decide)).trans <| (V3_of m c main_v6 (by decide)).trans (V2_of m c main_v6 (by decide))

/-- Nothing since the third stretch writes the per-edge weight. -/
theorem V5_v29 (c : Dev nD) : V5 m outs c main_v29 = V3 m c main_v29 :=
  (V5_of m outs c main_v29 (by decide)).trans (V4_of m c main_v29 (by decide))

/-- The first layer's bias is as launched. -/
theorem V5_arg4 (c : Dev nD) : V5 m outs c main_arg4 = m ((c : Thread nD τ).loc main_arg4) :=
  (V5_of m outs c main_arg4 (by decide)).trans <| (V4_of m c main_arg4 (by decide)).trans <| (V3_of m c main_arg4 (by decide)).trans <| (V2_of m c main_arg4 (by decide)).trans <| (V1_of m c main_arg4 (by decide)).trans rfl

/-! ## The aggregation of the first region's rows -/

/-- After the stretch that follows the first region main_v48 holds the aggregation's sum, before the clamp. -/
theorem V6_v48 (c : Dev nD) :
    @Eq (FVec F S100000x128 .f32) (V6 m outs c main_v48) (aggSum (V1 m c main_v3) (V1 m c main_v6) (V3 m c main_v29) (m ((c : Thread nD τ).loc main_arg4)) (Cert.Spec.slice0 (outs 5 main_v31 c))) := by
  have h := hostOps1_v48 (F := F) (V5 m outs c)
  rw [V5_v31, V5_v3, V5_v6, V5_v29, V5_arg4] at h
  exact h

/-- After the clamp main_v49 holds one aggregation of the first region's rows. -/
theorem V7_v49 (c : Dev nD) :
    @Eq (FVec F S100000x128 .f32) (V7 m outs c main_v49) (aggAt (V1 m c main_v3) (V1 m c main_v6) (V3 m c main_v29) (m ((c : Thread nD τ).loc main_arg4)) (Cert.Spec.slice0 (outs 5 main_v31 c))) :=
  hostOps1_1_v49 (V6 m outs c) _ _ _ _ _ (V6_v48 m outs c)

/-- The next stretch leaves it there, -/
theorem V8_v49 (c : Dev nD) :
    @Eq (FVec F S100000x128 .f32) (V8 m outs c main_v49) (aggAt (V1 m c main_v3) (V1 m c main_v6) (V3 m c main_v29) (m ((c : Thread nD τ).loc main_arg4)) (Cert.Spec.slice0 (outs 5 main_v31 c))) :=
  (V8_of m outs c main_v49 (by decide)).trans (V7_v49 m outs c)

/-- and writes the integer zero the padding value is converted from. -/
theorem V8_c_10 (c : Dev nD) : @Eq (IVec S_ 32) (V8 m outs c main_c_10) (constantI S_ 32 0#32) := by
  dsimp only [V8]
  generalize hW : V7 m outs c = W
  after_results_simp

/-! ## At the second region's entry -/

/-- main_v50 holds the aggregated rows padded with zeros. -/
theorem V9_v50 (c : Dev nD) :
    @Eq (FVec F S100352x128 .f32) (V9 m outs c main_v50) (Cert.Spec.pad0 (aggAt (V1 m c main_v3) (V1 m c main_v6) (V3 m c main_v29) (m ((c : Thread nD τ).loc main_arg4)) (Cert.Spec.slice0 (outs 5 main_v31 c)))) :=
  hostOps1_3_v50 (V8 m outs c) _ (V8_v49 m outs c) (V8_c_10 m outs c)

/-- main_arg5 holds the second layer's weights as launched. -/
theorem V9_arg5 (c : Dev nD) : V9 m outs c main_arg5 = m ((c : Thread nD τ).loc main_arg5) :=
  (V9_of m outs c main_arg5 (by decide)).trans <| (V8_of m outs c main_arg5 (by decide)).trans <| (V7_of m outs c main_arg5 (by decide)).trans <| (V6_of m outs c main_arg5 (by decide)).trans <| (V5_of m outs c main_arg5 (by decide)).trans <| (V4_of m c main_arg5 (by decide)).trans <| (V3_of m c main_arg5 (by decide)).trans <| (V2_of m c main_arg5 (by decide)).trans <| (V1_of m c main_arg5 (by decide)).trans rfl

end Chain

end Cert.Value

end
-- ==== Proof.KVals2.lean ====
/-
  What the unscoped buffers the third tiled region reads hold at its entry: the second aggregation of the second
  region's rows cut back to the real nodes — gathered by source, scaled by the edge weight, scatter-added by
  destination, biased, clamped at zero — padded with zero rows; the graph ids padded with -1 as a column; the
  reciprocal graph sizes as a column; and the head's weights and bias as launched. The aggregation is stated over
  the source list, the destination list and the edge weights as the first host stretches left them.
-/
import proofs.«428559_j43585328120189_1_alg».proof.Proof.Spec
import proofs.«428559_j43585328120189_1_alg».proof.Proof.AggAt
import proofs.«428559_j43585328120189_1_alg».proof.Proof.Gen.KernelIdeal.Regions
import Idealize.ShloMosaic.Lib.StableHlo.Run

set_option maxRecDepth 1084

noncomputable section

namespace Cert.Value

section Stage

open Idealize.ShloMosaic Cert.ReferenceIdeal Cert.ReferenceIdeal.Facts₀ Cert.ReferenceIdeal.Facts

variable {F : FTy → Type} [FloatOps F]

/-- One aggregation before the clamp, over given source and destination lists and edge weights: rows gathered by
    (wrapped) source, scaled by the weight, scatter-added by destination into zeros, plus the bias row. -/
def aggPre (src dst : IVec S1700000 32) (nrm : FVec F S1700000 .f32) (bias : FVec F S128 .f32) (h : FVec F S100000x128 .f32) : FVec F S100000x128 .f32 :=
  addf (Host.scatterAdd scatter_S100000x128_S1700000x1_S1700000x128_1_0_0_1 (broadcastInDim S100000x128 ![] bcast_S_S100000x128 (constant S_ .f32 0x00000000#32)) (broadcastInDim S1700000x1 ![0] bcast_S1700000_S1700000x1_0 dst) (mulf (Host.gather gather_S100000x128_S1700000x1_S1700000x128_1_0_n_n_0_1_1128 h (broadcastInDim S1700000x1 ![0] bcast_S1700000_S1700000x1_0 (Cert.Spec.wrap src))) (broadcastInDim S1700000x128 ![0, 1] bcast_S1700000x1_S1700000x128_0_1 (broadcastInDim S1700000x1 ![0] bcast_S1700000_S1700000x1_0 nrm)))) (broadcastInDim S100000x128 ![0, 1] bcast_S1x128_S100000x128_0_1 (broadcastInDim S1x128 ![1] bcast_S128_S1x128_1 bias))

/-- The aggregation is `aggPre` clamped at zero. -/
theorem aggAt_eq_max_aggPre (src dst : IVec S1700000 32) (nrm : FVec F S1700000 .f32) (bias : FVec F S128 .f32) (h : FVec F S100000x128 .f32) :
    aggAt src dst nrm bias h
      = maximumf (aggPre src dst nrm bias h) (broadcastInDim S100000x128 ![] bcast_S_S100000x128 (constant S_ .f32 0x00000000#32)) := rfl

end Stage

section Vals

open Idealize.ShloMosaic Idealize.ShloMosaic.TcCoe Idealize.ShloMosaic.StableHlo
open Cert.KernelIdeal Cert.KernelIdeal.Gen

variable {F : FTy → Type} [FloatOps F]

/-! ### Each host stretch before the third region, over any contents of the buffers it reads -/

section Stretches

variable (W : Valuation τ sig (Elt F))

/-- The stretch after the second region leaves in main_v68 the aggregation before the clamp of that region's rows
    cut back to the real nodes, over the lists, weights and bias it finds. -/
theorem after_hostOps2_v68 :
    (StableHlo.after hostOps2 W main_v68 : FVec F S100000x128 .f32)
      = aggPre (W main_v3) (W main_v6) (W main_v29) (W main_arg6) (Cert.Spec.slice0 (W main_v51)) := by
  after_results_simp
  rfl

/-- The clamp: main_v69 is main_v68 clamped at zero. -/
theorem after_hostOps2_1_v69 :
    (StableHlo.after hostOps2_1 W main_v69 : FVec F S100000x128 .f32)
      = maximumf (W main_v68) (broadcastInDim S100000x128 ![] bcast_S_S100000x128 (constant S_ .f32 0x00000000#32)) := by
  after_results_simp
  rfl

/-- The graph sizes: main_v78 is the column of reciprocals of the clamped counts of the graph ids. -/
theorem after_hostOps2_2_v78 :
    (StableHlo.after hostOps2_2 W main_v78 : FVec F S64x1 .f32) = Cert.Spec.recip (F := F) (W main_arg2) := by
  after_results_simp
  rfl

/-- The same stretch leaves the integer zero in main_c_18. -/
theorem after_hostOps2_2_c_18 :
    (StableHlo.after hostOps2_2 W main_c_18 : IVec S_ 32) = constantI S_ 32 0#32 := by
  after_results_simp

/-- The row padding: main_v79 is main_v69 with 352 rows of the converted main_c_18 appended. -/
theorem after_hostOps2_3_v79 :
    (StableHlo.after hostOps2_3 W main_v79 : FVec F S100352x128 .f32)
      = pad S100352x128 ![0, 0] ![352, 0] ![0, 0] (W main_v69) (sitofp .f32 (W main_c_18)) pads_S100000x128_S100352x128_03520_000 h_S_ := by
  after_results_simp
  rfl

/-- The one-operation stretch leaves the integer -1 in main_c_19. -/
theorem after_hostOps2_4_c_19 :
    (StableHlo.after hostOps2_4 W main_c_19 : IVec S_ 32) = constantI S_ 32 4294967295#32 := by
  after_results_simp

/-- The id padding: main_v80 is the graph ids with 352 entries of main_c_19 appended. -/
theorem after_hostOps2_5_v80 :
    (StableHlo.after hostOps2_5 W main_v80 : IVec S100352 32)
      = pad S100352 ![0] ![352] ![0] (W main_arg2) (id (W main_c_19)) pads_S100000_S100352_03520 h_S_ := by
  after_results_simp
  rfl

/-- The last stretch reshapes main_v80 into the column main_v81. -/
theorem after_hostOps2_6_v81 :
    (StableHlo.after hostOps2_6 W main_v81 : IVec S100352x1 32)
      = shapeCast _ (W main_v80 : IVec S100352 32) shapeCasts_S100352_S100352x1 := by
  after_results_simp
  rfl

end Stretches

variable (m : (ℓ : Loc nD τ sig) → Buf (Elt F) ℓ) (outs : Outs (F := F))

/-! ### What the second region's exit holds of the earlier stretches' buffers -/

/-- After the second region main_v51 holds what that region left. -/
theorem V10_v51 (c : Dev nD) : V10 m outs c main_v51 = outs 10 main_v51 c := by
  simp only [V10, Function.update_self]

/-- Nothing between the first stretch and the second region's exit writes the source list. -/
theorem V10_v3 (c : Dev nD) : V10 m outs c main_v3 = V1 m c main_v3 :=
  (V10_of m outs c main_v3 (by decide)).trans <| (V9_of m outs c main_v3 (by decide)).trans <| (V8_of m outs c main_v3 (by decide)).trans <| (V7_of m outs c main_v3 (by decide)).trans <| (V6_of m outs c main_v3 (by decide)).trans <| (V5_of m outs c main_v3 (by decide)).trans <| (V4_of m c main_v3 (by decide)).trans <| (V3_of m c main_v3 (by decide)).trans <| (V2_of m c main_v3 (by decide))

/-- Nothing between the first stretch and the second region's exit writes the destination list. -/
theorem V10_v6 (c : Dev nD) : V10 m outs c main_v6 = V1 m c main_v6 :=
  (V10_of m outs c main_v6 (by decide)).trans <| (V9_of m outs c main_v6 (by decide)).trans <| (V8_of m outs c main_v6 (by decide)).trans <| (V7_of m outs c main_v6 (by decide)).trans <| (V6_of m outs c main_v6 (by decide)).trans <| (V5_of m outs c main_v6 (by decide)).trans <| (V4_of m c main_v6 (by decide)).trans <| (V3_of m c main_v6 (by decide)).trans <| (V2_of m c main_v6 (by decide))

/-- Nothing between the third stretch and the second region's exit writes the edge weights. -/
theorem V10_v29 (c : Dev nD) : V10 m outs c main_v29 = V3 m c main_v29 :=
  (V10_of m outs c main_v29 (by decide)).trans <| (V9_of m outs c main_v29 (by decide)).trans <| (V8_of m outs c main_v29 (by decide)).trans <| (V7_of m outs c main_v29 (by decide)).trans <| (V6_of m outs c main_v29 (by decide)).trans <| (V5_of m outs c main_v29 (by decide)).trans <| (V4_of m c main_v29 (by decide))

/-- The second layer's bias is as launched at the second region's exit. -/
theorem V10_arg6 (c : Dev nD) : V10 m outs c main_arg6 = m ((c : Thread nD τ).loc main_arg6) :=
  (V10_of m outs c main_arg6 (by decide)).trans <| (V9_of m outs c main_arg6 (by decide)).trans <| (V8_of m outs c main_arg6 (by decide)).trans <| (V7_of m outs c main_arg6 (by decide)).trans <| (V6_of m outs c main_arg6 (by decide)).trans <| (V5_of m outs c main_arg6 (by decide)).trans <| (V4_of m c main_arg6 (by decide)).trans <| (V3_of m c main_arg6 (by decide)).trans <| (V2_of m c main_arg6 (by decide)).trans <| (V1_of m c main_arg6 (by decide)).trans <| rfl

/-! ### The second aggregation -/

/-- After the stretch following the second region main_v68 holds the aggregation before the clamp. -/
theorem V11_v68 (c : Dev nD) :
    (V11 m outs c main_v68 : FVec F S100000x128 .f32)
      = aggPre (V1 m c main_v3) (V1 m c main_v6) (V3 m c main_v29) (m ((c : Thread nD τ).loc main_arg6)) (Cert.Spec.slice0 (outs 10 main_v51 c)) :=
  (after_hostOps2_v68 (V10 m outs c)).trans (by rw [V10_v51, V10_v3, V10_v6, V10_v29, V10_arg6])

/-- After the clamp main_v69 holds the second aggregation. -/
theorem V12_v69 (c : Dev nD) :
    (V12 m outs c main_v69 : FVec F S100000x128 .f32)
      = aggAt (V1 m c main_v3) (V1 m c main_v6) (V3 m c main_v29) (m ((c : Thread nD τ).loc main_arg6)) (Cert.Spec.slice0 (outs 10 main_v51 c)) :=
  (after_hostOps2_1_v69 (V11 m outs c)).trans (by rw [V11_v68]; rfl)

/-- The graph-size stretch leaves the second aggregation where it was. -/
theorem V13_v69 (c : Dev nD) :
    (V13 m outs c main_v69 : FVec F S100000x128 .f32)
      = aggAt (V1 m c main_v3) (V1 m c main_v6) (V3 m c main_v29) (m ((c : Thread nD τ).loc main_arg6)) (Cert.Spec.slice0 (outs 10 main_v51 c)) :=
  (V13_of m outs c main_v69 (by decide)).trans (V12_v69 m outs c)

/-! ### The reciprocal graph sizes -/

/-- The graph ids are as launched when the graph-size stretch starts. -/
theorem V12_arg2 (c : Dev nD) : V12 m outs c main_arg2 = m ((c : Thread nD τ).loc main_arg2) :=
  (V12_of m outs c main_arg2 (by decide)).trans <| (V11_of m outs c main_arg2 (by decide)).trans <| (V10_of m outs c main_arg2 (by decide)).trans <| (V9_of m outs c main_arg2 (by decide)).trans <| (V8_of m outs c main_arg2 (by decide)).trans <| (V7_of m outs c main_arg2 (by decide)).trans <| (V6_of m outs c main_arg2 (by decide)).trans <| (V5_of m outs c main_arg2 (by decide)).trans <| (V4_of m c main_arg2 (by decide)).trans <| (V3_of m c main_arg2 (by decide)).trans <| (V2_of m c main_arg2 (by decide)).trans <| (V1_of m c main_arg2 (by decide)).trans <| rfl

/-- After the graph-size stretch main_v78 holds the reciprocal sizes as a column. -/
theorem V13_v78 (c : Dev nD) :
    (V13 m outs c main_v78 : FVec F S64x1 .f32) = Cert.Spec.recip (F := F) (m ((c : Thread nD τ).loc main_arg2)) :=
  (after_hostOps2_2_v78 (V12 m outs c)).trans (by rw [V12_arg2])

/-- After the graph-size stretch main_c_18 holds the integer zero. -/
theorem V13_c_18 (c : Dev nD) : (V13 m outs c main_c_18 : IVec S_ 32) = constantI S_ 32 0#32 :=
  after_hostOps2_2_c_18 (V12 m outs c)

/-! ### The padded rows -/

/-- After the row padding main_v79 holds the second aggregation padded with zero rows. -/
theorem V14_v79 (c : Dev nD) :
    (V14 m outs c main_v79 : FVec F S100352x128 .f32)
      = Cert.Spec.pad0 (aggAt (V1 m c main_v3) (V1 m c main_v6) (V3 m c main_v29) (m ((c : Thread nD τ).loc main_arg6)) (Cert.Spec.slice0 (outs 10 main_v51 c))) :=
  (after_hostOps2_3_v79 (V13 m outs c)).trans (by rw [V13_v69, V13_c_18]; rfl)

/-! ### The padded graph ids -/

/-- After the one-operation stretch main_c_19 holds the integer -1. -/
theorem V15_c_19 (c : Dev nD) : (V15 m outs c main_c_19 : IVec S_ 32) = constantI S_ 32 4294967295#32 :=
  after_hostOps2_4_c_19 (V14 m outs c)

/-- The graph ids are as launched when the id padding starts. -/
theorem V15_arg2 (c : Dev nD) : V15 m outs c main_arg2 = m ((c : Thread nD τ).loc main_arg2) :=
  (V15_of m outs c main_arg2 (by decide)).trans <| (V14_of m outs c main_arg2 (by decide)).trans <| (V13_of m outs c main_arg2 (by decide)).trans <| V12_arg2 m outs c

/-- After the id padding main_v80 holds the graph ids padded with -1. -/
theorem V16_v80 (c : Dev nD) :
    (V16 m outs c main_v80 : IVec S100352 32)
      = pad S100352 ![0] ![352] ![0] (m ((c : Thread nD τ).loc main_arg2)) (id (constantI S_ 32 4294967295#32)) pads_S100000_S100352_03520 h_S_ :=
  (after_hostOps2_5_v80 (V15 m outs c)).trans (by rw [V15_arg2, V15_c_19])

/-! ### The third region's entry -/

/-- At the third region's entry main_v81 holds the graph ids padded with -1, as a column. -/
theorem V17_v81 (c : Dev nD) :
    (V17 m outs c main_v81 : IVec S100352x1 32) = Cert.Spec.padB (m ((c : Thread nD τ).loc main_arg2)) :=
  (after_hostOps2_6_v81 (V16 m outs c)).trans (by rw [V16_v80]; rfl)

/-- At the third region's entry main_v79 holds the second aggregation padded with zero rows. -/
theorem V17_v79 (c : Dev nD) :
    (V17 m outs c main_v79 : FVec F S100352x128 .f32)
      = Cert.Spec.pad0 (aggAt (V1 m c main_v3) (V1 m c main_v6) (V3 m c main_v29) (m ((c : Thread nD τ).loc main_arg6)) (Cert.Spec.slice0 (outs 10 main_v51 c))) :=
  (V17_of m outs c main_v79 (by decide)).trans <| (V16_of m outs c main_v79 (by decide)).trans <| (V15_of m outs c main_v79 (by decide)).trans <| V14_v79 m outs c

/-- At the third region's entry main_v78 holds the reciprocal graph sizes as a column. -/
theorem V17_v78 (c : Dev nD) :
    (V17 m outs c main_v78 : FVec F S64x1 .f32) = Cert.Spec.recip (F := F) (m ((c : Thread nD τ).loc main_arg2)) :=
  (V17_of m outs c main_v78 (by decide)).trans <| (V16_of m outs c main_v78 (by decide)).trans <| (V15_of m outs c main_v78 (by decide)).trans <| (V14_of m outs c main_v78 (by decide)).trans <| V13_v78 m outs c

/-- At the third region's entry the head's weights are as launched. -/
theorem V17_arg7 (c : Dev nD) : V17 m outs c main_arg7 = m ((c : Thread nD τ).loc main_arg7) :=
  (V17_of m outs c main_arg7 (by decide)).trans <| (V16_of m outs c main_arg7 (by decide)).trans <| (V15_of m outs c main_arg7 (by decide)).trans <| (V14_of m outs c main_arg7 (by decide)).trans <| (V13_of m outs c main_arg7 (by decide)).trans <| (V12_of m outs c main_arg7 (by decide)).trans <| (V11_of m outs c main_arg7 (by decide)).trans <| (V10_of m outs c main_arg7 (by decide)).trans <| (V9_of m outs c main_arg7 (by decide)).trans <| (V8_of m outs c main_arg7 (by decide)).trans <| (V7_of m outs c main_arg7 (by decide)).trans <| (V6_of m outs c main_arg7 (by decide)).trans <| (V5_of m outs c main_arg7 (by decide)).trans <| (V4_of m c main_arg7 (by decide)).trans <| (V3_of m c main_arg7 (by decide)).trans <| (V2_of m c main_arg7 (by decide)).trans <| (V1_of m c main_arg7 (by decide)).trans <| rfl

/-- At the third region's entry the head's bias is as launched. -/
theorem V17_arg8 (c : Dev nD) : V17 m outs c main_arg8 = m ((c : Thread nD τ).loc main_arg8) :=
  (V17_of m outs c main_arg8 (by decide)).trans <| (V16_of m outs c main_arg8 (by decide)).trans <| (V15_of m outs c main_arg8 (by decide)).trans <| (V14_of m outs c main_arg8 (by decide)).trans <| (V13_of m outs c main_arg8 (by decide)).trans <| (V12_of m outs c main_arg8 (by decide)).trans <| (V11_of m outs c main_arg8 (by decide)).trans <| (V10_of m outs c main_arg8 (by decide)).trans <| (V9_of m outs c main_arg8 (by decide)).trans <| (V8_of m outs c main_arg8 (by decide)).trans <| (V7_of m outs c main_arg8 (by decide)).trans <| (V6_of m outs c main_arg8 (by decide)).trans <| (V5_of m outs c main_arg8 (by decide)).trans <| (V4_of m c main_arg8 (by decide)).trans <| (V3_of m c main_arg8 (by decide)).trans <| (V2_of m c main_arg8 (by decide)).trans <| (V1_of m c main_arg8 (by decide)).trans <| rfl

end Vals

end Cert.Value

end
-- ==== Proof.lean ====
/-
  The value of the idealized kernel's run, and the claims. The three regions' results are read as whole-array functions
  of the contents they are entered from (a row-by-row matrix product on the zero-padded rows, twice; the one-hot pooled
  sums scaled by the reciprocal graph sizes, projected, plus the bias); the host stretches between them are the stages
  both programs share; the padded product sliced back is the reference's dense product, and the pooled head is the
  reference's scatter-add, quotient and projection. So the kernel's result buffer ends at the reference's function of the
  argument arrays.
-/
import proofs.«428559_j43585328120189_1_alg».proof.Defs
import proofs.«428559_j43585328120189_1_alg».proof.Proof.Gen.Kernel
import proofs.«428559_j43585328120189_1_alg».proof.Proof.Gen.Pre_finite_inputs
import proofs.«428559_j43585328120189_1_alg».proof.Proof.K_Run
import proofs.«428559_j43585328120189_1_alg».proof.Proof.KI_Run
import proofs.«428559_j43585328120189_1_alg».proof.Proof.RefVal
import proofs.«428559_j43585328120189_1_alg».proof.Proof.ValLin
import proofs.«428559_j43585328120189_1_alg».proof.Proof.ValPool
import proofs.«428559_j43585328120189_1_alg».proof.Proof.PoolBridge
import proofs.«428559_j43585328120189_1_alg».proof.Proof.AggAt
import proofs.«428559_j43585328120189_1_alg».proof.Proof.KVals
import proofs.«428559_j43585328120189_1_alg».proof.Proof.KVals1
import proofs.«428559_j43585328120189_1_alg».proof.Proof.KVals2

noncomputable section

namespace Cert.Value

open Idealize.ShloMosaic Idealize.ShloMosaic.TcCoe Idealize.SL.Sem
open Cert.KernelIdeal Cert.KernelIdeal.Gen Cert.KernelIdeal.Hand Cert.Spec

variable (m : (ℓ : Loc nD τ sig) → Buf (Elt Ideal) ℓ)

/-- What region 0 leaves in its output array: the row-by-row product of the padded features with the first weights. -/
theorem out0_val (c : Dev nD) :
    outsA m 5 main_v31 c = LinG (pad0 (m ((c : Thread nD τ).loc main_arg0))) (m ((c : Thread nD τ).loc main_arg3)) := by
  show Wx0 m c (Proc.devRef .tc main_v31) = _
  unfold Wx0
  rw [Pipeline.withArrays_arr spec0 launch0.win.arr_inj c (V4 m c) (fun w => (dat0 (Ve0 m) c).arrAt w cfg0.N) 2]
  rw [lin0_final (Ve0 m) c]
  show LinG (V4 m c main_v30) (V4 m c main_arg3) = _
  rw [V4_v30 m c, V4_arg3 m c]

/-- The first layer's activations, padded: what region 1 reads. -/
theorem in1_val (c : Dev nD) :
    @Eq (FVec Ideal S100352x128 .f32) (Ve1 m c main_v50) (pad0 (F := Ideal) (agg (F := Ideal) (m ((c : Thread nD τ).loc main_arg1)) (m ((c : Thread nD τ).loc main_arg4))
      (lin (F := Ideal) (m ((c : Thread nD τ).loc main_arg0)) (m ((c : Thread nD τ).loc main_arg3))))) := by
  show V9 m (outsA m) c main_v50 = _
  rw [V9_v50 m (outsA m) c, V1_v3 m c, V1_v6 m c, V3_v29 m c, ← agg_eq_aggAt, out0_val m c, lin_bridge]

theorem out1_val (c : Dev nD) :
    outsB m 10 main_v51 c = LinG (pad0 (F := Ideal) (agg (F := Ideal) (m ((c : Thread nD τ).loc main_arg1)) (m ((c : Thread nD τ).loc main_arg4))
      (lin (F := Ideal) (m ((c : Thread nD τ).loc main_arg0)) (m ((c : Thread nD τ).loc main_arg3))))) (m ((c : Thread nD τ).loc main_arg5)) := by
  show Wx1 m c (Proc.devRef .tc main_v51) = _
  unfold Wx1
  rw [Pipeline.withArrays_arr spec1 launch1.win.arr_inj c (V9 m (outsA m) c) (fun w => (dat1 (Ve1 m) c).arrAt w cfg1.N) 2]
  rw [lin1_final (Ve1 m) c, in1_val m c]
  show LinG _ (V9 m (outsA m) c main_arg5) = _
  rw [V9_arg5 m (outsA m) c]

/-- The kernel's result: the reference's function of the argument arrays. -/
theorem kernel_value (c : Dev nD) :
    @Eq (FVec Ideal S64x10 .f32) ((dat2 (Ve2 m) c).arrAt 5 cfg2.N) (refG (F := Ideal) (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) (m ((c : Thread nD τ).loc main_arg6))
      (m ((c : Thread nD τ).loc main_arg7)) (m ((c : Thread nD τ).loc main_arg8))) := by
  rw [pool_final (Ve2 m) c]
  show PoolG (V17 m (outsB m) c main_v79) (V17 m (outsB m) c main_v81) (V17 m (outsB m) c main_v78) (V17 m (outsB m) c main_arg7) (V17 m (outsB m) c main_arg8) = _
  rw [V17_v79 m (outsB m) c, V17_v81 m (outsB m) c, V17_v78 m (outsB m) c, V17_arg7 m (outsB m) c, V17_arg8 m (outsB m) c]
  rw [V1_v3 m c, V1_v6 m c, V3_v29 m c, ← agg_eq_aggAt, out1_val m c, lin_bridge, pool_bridge]
  rfl

end Cert.Value

/-! ## The claims -/

namespace Cert.Proof

open Idealize.ShloMosaic Idealize.SL.Sem

theorem frame_k : Cert.frame_Kernel := fun m ρ _ => Cert.Kernel.Hand.frame m ρ
theorem frame_ki : Cert.frame_KernelIdeal := fun m ρ _ => Cert.KernelIdeal.Hand.frame m ρ

/-- From memories agreeing on the arguments both idealized programs run, and the kernel's result buffer ends at the
    reference's function of the arguments — the value the reference's run ends at. -/
theorem algebraic : Cert.algebraic_KernelIdeal_ReferenceIdeal := by
  intro m ρ m' ρ' _ hagree
  refine ⟨_, ?_, Cert.RefValue.ref_run m' ρ'⟩
  refine (θ_run (Cert.KernelIdeal.defs (F := Ideal)) _ _).mono (fun _ h c => ⟨(h c).1.trans ?_, (h c).2⟩) (Cert.KernelIdeal.Hand.run_main m ρ)
  beta_reduce
  rw [Cert.Value.kernel_value m c, (hagree c).1, (hagree c).2.1, (hagree c).2.2.1, (hagree c).2.2.2.1, (hagree c).2.2.2.2.1, (hagree c).2.2.2.2.2.1,
    (hagree c).2.2.2.2.2.2.1, (hagree c).2.2.2.2.2.2.2.1, (hagree c).2.2.2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, Cert.RefValue.frame_ref, trivial, algebraic⟩

end Cert.Proof

end
